-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x1 : Shape := ⟨2, ![1, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S1x1 : S_.BroadcastsInDim S1x1 (![] : Fin 0 → Fin S1x1.rank)
  reducesTo_S1x1_S_d0_1 : S1x1.ReducesTo [0, 1] S_

variable [Facts]

def fn_part3 {F : FTy → Type} [FloatOps F] (main_v48 : IVec S_ 1) (main_v49 : FVec F S1x1 .f32) (main_v50 : FVec F S1x1 .f32) : IVec S_ 1 :=
  let main_v51 : IVec S1x1 1 := cmpf .olt main_v49 main_v50
  let main_c_19 : IVec S_ 1 := constantI S_ 1 1#1
  let main_v52 : IVec S_ 1 := (fun x v => Host.reduce IntOp.andi x v reducesTo_S1x1_S_d0_1 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128 .f32) (main_arg12 : FVec F S1x1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x1 .f32 := Host.absf main_arg12
  let main_cst_18 : FVec F S_ .f32 := constant S_ .f32 0x7F800000#32
  let main_v50 : FVec F S1x1 .f32 := broadcastInDim S1x1 ![] bcast_S_S1x1 main_cst_18
  fn_part3 (F := F) main_v48 main_v49 main_v50

def fn_part1 {F : FTy → Type} [FloatOps F] (main_arg6 : FVec F S256 .f32) (main_arg7 : FVec F S256 .f32) (main_arg8 : FVec F S256x128 .f32) (main_arg9 : FVec F S128 .f32) (main_arg10 : FVec F S128 .f32) (main_arg11 : FVec F S128 .f32) (main_arg12 : FVec F S1x1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S800000 32) (main_arg2 : IVec S800000 32) (main_arg3 : FVec F S800000 .f32) (main_arg4 : FVec F S128x256 .f32) (main_arg5 : FVec F S256 .f32) (main_arg6 : FVec F S256 .f32) (main_arg7 : FVec F S256 .f32) (main_arg8 : FVec F S256x128 .f32) (main_arg9 : FVec F S128 .f32) (main_arg10 : FVec F S128 .f32) (main_arg11 : FVec F S128 .f32) (main_arg12 : FVec F S1x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x1 : Shape := ⟨2, ![1, 1]⟩
abbrev S800000x1 : Shape := ⟨2, ![800000, 1]⟩
abbrev S_ : Shape := ⟨0, ![]⟩
abbrev S800000x128 : Shape := ⟨2, ![800000, 128]⟩
abbrev S1x256 : Shape := ⟨2, ![1, 256]⟩
abbrev S1x128 : Shape := ⟨2, ![1, 128]⟩
abbrev S50000x256 : Shape := ⟨2, ![50000, 256]⟩
abbrev S2000x128 : Shape := ⟨2, ![2000, 128]⟩
abbrev S2000x256 : Shape := ⟨2, ![2000, 256]⟩

abbrev nBuf : Space → Nat
  | .hbm => 74
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x1, .f32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x256, .f32⟩
  | .hbm, ⟨30, _⟩ => ⟨S1x128, .f32⟩
  | .hbm, ⟨31, _⟩ => ⟨S128x256, .bf16⟩
  | .hbm, ⟨32, _⟩ => ⟨S256x128, .bf16⟩
  | .hbm, ⟨33, _⟩ => ⟨S50000x256, .f32⟩
  | .hbm, ⟨34, _⟩ => ⟨S1x256, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .f32⟩
  | .hbm, ⟨39, _⟩ => ⟨S_, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S_, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S50000x128, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S1x1, .f32⟩
  | .local _ .vmem, ⟨5, _⟩ => ⟨S128x256, .bf16⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S1x256, .f32⟩
  | .local _ .vmem, ⟨14, _⟩ => ⟨S1x256, .f32⟩
  | .local _ .vmem, ⟨15, _⟩ => ⟨S256x128, .bf16⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S1x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32_0 : Ref sig .tc := ⟨.hbm, 53, rfl⟩
abbrev main_v32_1 : Ref sig .tc := ⟨.hbm, 54, rfl⟩
abbrev main_v32_2 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg7_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem7_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S256_S1x256 : S256.ShapeCasts S1x256
  shapeCasts_S128_S1x128 : S128.ShapeCasts S1x128
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x1_S1x1_0_0 : ∀ a, (![0, 0] : Fin 2 → Nat) a + S1x1.size a ≤ S1x1.size a
  h_S1x1 : 0 < S1x1.numel
  broadcasts_S1x1_S2000x128 : S1x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  bcast_S_S1x256 : S_.BroadcastsInDim S1x256 (![] : Fin 0 → Fin S1x256.rank)
  inb_S1x128_S1x128_0_0 : ∀ a, (![0, 0] : Fin 2 → Nat) a + S1x128.size a ≤ S1x128.size a
  h_S1x128 : 0 < S1x128.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v32_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x1 : Shape := ⟨2, ![1, 1]⟩
abbrev S800000x1 : Shape := ⟨2, ![800000, 1]⟩
abbrev S_ : Shape := ⟨0, ![]⟩
abbrev S800000x128 : Shape := ⟨2, ![800000, 128]⟩
abbrev S50000x256 : Shape := ⟨2, ![50000, 256]⟩
abbrev S1x256 : Shape := ⟨2, ![1, 256]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S128x256, .f32⟩
  | 5 => ⟨S256, .f32⟩
  | 6 => ⟨S256, .f32⟩
  | 7 => ⟨S256, .f32⟩
  | 8 => ⟨S256x128, .f32⟩
  | 9 => ⟨S128, .f32⟩
  | 10 => ⟨S128, .f32⟩
  | 11 => ⟨S128, .f32⟩
  | 12 => ⟨S1x1, .f32⟩
  | 13 => ⟨S800000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x128, .f32⟩
  | 30 => ⟨S50000x128, .f32⟩
  | 31 => ⟨S50000x128, .f32⟩
  | 32 => ⟨S50000x256, .f32⟩
  | 33 => ⟨S1x256, .f32⟩
  | 34 => ⟨S50000x256, .f32⟩
  | 35 => ⟨S50000x256, .f32⟩
  | 36 => ⟨S_, .f32⟩
  | 37 => ⟨S256, .f32⟩
  | 38 => ⟨S_, .f32⟩
  | 39 => ⟨S256, .f32⟩
  | 40 => ⟨S256, .f32⟩
  | 41 => ⟨S_, .i32⟩
  | 42 => ⟨S_, .f32⟩
  | 43 => ⟨S256, .f32⟩
  | 44 => ⟨S1x256, .f32⟩
  | 45 => ⟨S_, .f32⟩
  | 46 => ⟨S1x256, .f32⟩
  | 47 => ⟨S1x256, .f32⟩
  | 48 => ⟨S50000x256, .f32⟩
  | 49 => ⟨S50000x256, .f32⟩
  | 50 => ⟨S50000x256, .f32⟩
  | 51 => ⟨S_, .f32⟩
  | 52 => ⟨S_, .f32⟩
  | 53 => ⟨S_, .f32⟩
  | 54 => ⟨S_, .f32⟩
  | 55 => ⟨S256, .f32⟩
  | 56 => ⟨S256, .f32⟩
  | 57 => ⟨S256, .f32⟩
  | 58 => ⟨S_, .f32⟩
  | 59 => ⟨S_, .i1⟩
  | 60 => ⟨S_, .f32⟩
  | 61 => ⟨S_, .f32⟩
  | 62 => ⟨S256, .f32⟩
  | 63 => ⟨S256, .f32⟩
  | 64 => ⟨S1x256, .f32⟩
  | 65 => ⟨S50000x256, .f32⟩
  | 66 => ⟨S50000x256, .f32⟩
  | 67 => ⟨S_, .f32⟩
  | 68 => ⟨S256, .f32⟩
  | 69 => ⟨S256, .f32⟩
  | 70 => ⟨S256, .f32⟩
  | 71 => ⟨S1x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S1x256, .f32⟩
  | 78 => ⟨S50000x256, .f32⟩
  | 79 => ⟨S50000x256, .f32⟩
  | 80 => ⟨S_, .f32⟩
  | 81 => ⟨S50000x256, .f32⟩
  | 82 => ⟨S50000x256, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S50000x128, .f32⟩
  | 100 => ⟨S50000x128, .f32⟩
  | 101 => ⟨S50000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_cst_3 : Ref sig .tc := ⟨.hbm, 58, rfl⟩
abbrev main_call0_v12 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_4 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_call1_cst : Ref sig .tc := ⟨.hbm, 80, rfl⟩
abbrev main_call1_v0 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_5 : Ref sig .tc := ⟨.hbm, 87, rfl⟩
abbrev main_v44 : Ref sig .tc := ⟨.hbm, 88, rfl⟩
abbrev main_cst_6 : Ref sig .tc := ⟨.hbm, 89, rfl⟩
abbrev main_v45 : Ref sig .tc := ⟨.hbm, 90, rfl⟩
abbrev main_v46 : Ref sig .tc := ⟨.hbm, 91, rfl⟩
abbrev main_c_7 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_cst_1 : Ref sig .tc := ⟨.hbm, 103, rfl⟩
abbrev main_call2_v8 : Ref sig .tc := ⟨.hbm, 104, rfl⟩
abbrev main_call2_cst_2 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_cst_3 : Ref sig .tc := ⟨.hbm, 109, rfl⟩
abbrev main_call2_v12 : Ref sig .tc := ⟨.hbm, 110, rfl⟩
abbrev main_call2_cst_4 : Ref sig .tc := ⟨.hbm, 111, rfl⟩
abbrev main_call2_call0_v0 : Ref sig .tc := ⟨.hbm, 112, rfl⟩
abbrev main_call2_call0_v1 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_cst_8 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_call3_cst : Ref sig .tc := ⟨.hbm, 131, rfl⟩
abbrev main_call3_v0 : Ref sig .tc := ⟨.hbm, 132, rfl⟩
abbrev main_v63 : Ref sig .tc := ⟨.hbm, 133, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1x1_S50000x128_0_1 : S1x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics both programs compute, on arrays of extended reals indexed by `Fin`s.

  One layer is an affine map `x ↦ x·w + b` (`lin`) followed by a batch normalisation over the row axis and a
  rectifier. The two programs write the normalisation differently. With `s q = Σ_r h r q`, `ss q = Σ_r (h r q)²`,
  `n` the number of rows and `μ = s / n`:
    the kernel forms `var = ss / n − μ²`, `scale = g · rsqrt (var + ε)`, `shift = be − μ · scale` and returns
      `max (h · scale + shift) 0`                                                     (`bnK`);
    the reference forms `var = Σ_r (h r q − μ)² / n` and returns
      `max ((h − μ) · rsqrt (var + ε) · g + be) 0`                                    (`bnR`).
  On finite entries the two variances are one real number and the two affine forms are one polynomial identity; that
  is proved elsewhere. Here are only the definitions, so that each program's value can be stated against them.
  The row count `n` and `ε` stay the float patterns the programs print; only their values as reals are ever used.
-/
import Idealize.ShloMosaic.PureOps.Ideal
import Idealize.ShloMosaic.Lib.ValueIdx

noncomputable section

namespace Cert.Mlp

open Idealize.ShloMosaic Idealize.ShloMosaic.ValueIdx

/-- An extended real that is a real number. -/
def IsFin (x : EReal) : Prop := ∃ r : ℝ, x = (r : EReal)

/-- The row count as both programs write it: the f32 pattern of 50000. -/
abbrev nLit : EReal := Ideal.ofBits .f32 0x47435000#32
/-- The variance offset as both programs write it: the f32 pattern nearest 1e-5. -/
abbrev epsLit : EReal := Ideal.ofBits .f32 0x3727C5AC#32

/-- A rank-2 array read as a matrix. -/
def mat {A B : ℕ} (X : (⟨2, ![A, B]⟩ : Shape).Idx → EReal) : Fin A → Fin B → EReal := fun r k => X (ix2 r k)
/-- A one-row rank-2 array read as a vector. -/
def row {B : ℕ} (X : (⟨2, ![1, B]⟩ : Shape).Idx → EReal) : Fin B → EReal := fun q => X (ix2 (0 : Fin 1) q)
/-- A rank-1 array read as a vector. -/
def vec {B : ℕ} (X : (⟨1, ![B]⟩ : Shape).Idx → EReal) : Fin B → EReal := fun q => X (ix1 q)

variable {N K M : ℕ}

/-- The affine map of one layer: `Σ_k x r k · w k q + b q`. -/
def lin (x : Fin N → Fin K → EReal) (w : Fin K → Fin M → EReal) (b : Fin M → EReal) : Fin N → Fin M → EReal :=
  fun r q => (∑ k, x r k * w k q) + b q

/-- The sum of each column over all rows. -/
def colSum (h : Fin N → Fin M → EReal) : Fin M → EReal := fun q => ∑ r, h r q

/-- Entrywise square. -/
def sq (h : Fin N → Fin M → EReal) : Fin N → Fin M → EReal := fun r q => h r q * h r q

/-- A column sum divided by the row count. -/
def meanOf (s : Fin M → EReal) : Fin M → EReal := fun q => Ideal.div (s q) nLit

/-- The kernel's scale, from the column sums `s` of the entries and `ss` of their squares. -/
def scaleK (g s ss : Fin M → EReal) : Fin M → EReal :=
  fun q => g q * Ideal.rsqrt ((Ideal.div (ss q) nLit - meanOf s q * meanOf s q) + epsLit)

/-- The kernel's shift. -/
def shiftK (g be s ss : Fin M → EReal) : Fin M → EReal := fun q => be q - meanOf s q * scaleK g s ss q

/-- Scale, shift, rectify. -/
def affRelu (h : Fin N → Fin M → EReal) (sc sh : Fin M → EReal) : Fin N → Fin M → EReal :=
  fun r q => max (h r q * sc q + sh q) 0

/-- The kernel's normalisation and rectifier. -/
def bnK (g be : Fin M → EReal) (h : Fin N → Fin M → EReal) : Fin N → Fin M → EReal :=
  affRelu h (scaleK g (colSum h) (colSum (sq h))) (shiftK g be (colSum h) (colSum (sq h)))

/-- The reference's variance: the mean of the squared deviations from the mean. -/
def varR (h : Fin N → Fin M → EReal) : Fin M → EReal :=
  fun q => Ideal.div (∑ r, (h r q - meanOf (colSum h) q) * (h r q - meanOf (colSum h) q)) nLit

/-- The reference's normalisation and rectifier. -/
def bnR (g be : Fin M → EReal) (h : Fin N → Fin M → EReal) : Fin N → Fin M → EReal :=
  fun r q => max ((h r q - meanOf (colSum h) q) * Ideal.rsqrt (varR h q + epsLit) * g q + be q) 0

/-- The first layer's input: the aggregate plus `e` times the features. -/
def pre (agg v : Fin N → Fin K → EReal) (e : EReal) : Fin N → Fin K → EReal := fun r k => agg r k + e * v r k

variable {H : ℕ}

/-- What the kernel's program returns. -/
def outK (agg v : Fin N → Fin K → EReal) (e : EReal) (w1 : Fin K → Fin H → EReal) (b1 g1 be1 : Fin H → EReal)
    (w2 : Fin H → Fin M → EReal) (b2 g2 be2 : Fin M → EReal) : Fin N → Fin M → EReal :=
  bnK g2 be2 (lin (bnK g1 be1 (lin (pre agg v e) w1 b1)) w2 b2)

/-- What the reference returns. -/
def outR (agg v : Fin N → Fin K → EReal) (e : EReal) (w1 : Fin K → Fin H → EReal) (b1 g1 be1 : Fin H → EReal)
    (w2 : Fin H → Fin M → EReal) (b2 g2 be2 : Fin M → EReal) : Fin N → Fin M → EReal :=
  bnR g2 be2 (lin (bnR g1 be1 (lin (pre agg v e) w1 b1)) w2 b2)

end Cert.Mlp

end
-- ==== Proof.KAgg.lean ====
/-
  The kernel program's host prelude as one term: the sparse aggregation `agg r = Σ_{e : rows e = r} vals e · v (cols e)`
  written with the host operations the program runs (negative column indices wrapped once, a gather of rows of `v`, a
  product with the edge values, a scatter-add onto zeros), and the argument arrays at their literal types.
-/
import proofs.«181605_j57105885168079_1_alg».proof.Proof.Gen.KernelIdeal
import proofs.«181605_j57105885168079_1_alg».proof.Proof.Spec

noncomputable section

namespace Cert.KernelIdeal.Agg

open Cert.KernelIdeal Cert.KernelIdeal.Gen Idealize.ShloMosaic Idealize.SL.Sem

variable {F : FTy → Type} [FloatOps F]

/-- Column indices with the negative ones wrapped by the row count. -/
def colsK (cols : IVec S800000 32) : IVec S800000 32 :=
  select (cmpi .slt cols (broadcastInDim S800000 ![] bcast_S_S800000 (constantI S_ 32 0#32)))
    (addi cols (broadcastInDim S800000 ![] bcast_S_S800000 (constantI S_ 32 50000#32))) cols

/-- The aggregate, as the program's host operations compute it. -/
def aggK (v : FVec F S50000x128 .f32) (rows cols : IVec S800000 32) (vals : FVec F S800000 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 rows)
    (mulf (broadcastInDim S800000x128 ![0, 1] bcast_S800000x1_S800000x128_0_1 (broadcastInDim S800000x1 ![0] bcast_S800000_S800000x1_0 vals))
      (Host.gather gather_S50000x128_S800000x1_S800000x128_1_0_n_n_0_1_1128 v
        (broadcastInDim S800000x1 ![0] bcast_S800000_S800000x1_0 (colsK cols))))

variable (m : (ℓ : Loc nD τ sig) → Buf (Elt F) ℓ)

/-- The thirteen argument arrays of core `c`, at their literal types. -/
abbrev a0 (c : Dev nD) : FVec F S50000x128 .f32 := m ((c.tc : Thread nD τ).loc main_arg0)
abbrev a1 (c : Dev nD) : IVec S800000 32 := m ((c.tc : Thread nD τ).loc main_arg1)
abbrev a2 (c : Dev nD) : IVec S800000 32 := m ((c.tc : Thread nD τ).loc main_arg2)
abbrev a3 (c : Dev nD) : FVec F S800000 .f32 := m ((c.tc : Thread nD τ).loc main_arg3)
abbrev a4 (c : Dev nD) : FVec F S128x256 .f32 := m ((c.tc : Thread nD τ).loc main_arg4)
abbrev a5 (c : Dev nD) : FVec F S256 .f32 := m ((c.tc : Thread nD τ).loc main_arg5)
abbrev a6 (c : Dev nD) : FVec F S256 .f32 := m ((c.tc : Thread nD τ).loc main_arg6)
abbrev a7 (c : Dev nD) : FVec F S256 .f32 := m ((c.tc : Thread nD τ).loc main_arg7)
abbrev a8 (c : Dev nD) : FVec F S256x128 .f32 := m ((c.tc : Thread nD τ).loc main_arg8)
abbrev a9 (c : Dev nD) : FVec F S128 .f32 := m ((c.tc : Thread nD τ).loc main_arg9)
abbrev a10 (c : Dev nD) : FVec F S128 .f32 := m ((c.tc : Thread nD τ).loc main_arg10)
abbrev a11 (c : Dev nD) : FVec F S128 .f32 := m ((c.tc : Thread nD τ).loc main_arg11)
abbrev a12 (c : Dev nD) : FVec F S1x1 .f32 := m ((c.tc : Thread nD τ).loc main_arg12)

end Cert.KernelIdeal.Agg

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.KRegion0.lean ====
/-
  The first kernel region read as values, from whatever its arrays hold when it is entered.
  Its grid walks the 50000 rows in 25 blocks of 2000. At block t it writes rows 2000t … 2000t+1999 of
  H = (agg + eps · v) · w1 + b1 and adds that block's column sums of H and of H² to two one-row arrays it zeroed at
  block 0. So after the last block the first output holds H, the second Σ_r H r q and the third Σ_r (H r q)².
-/
import proofs.«181605_j57105885168079_1_alg».proof.Proof.Gen.KernelIdeal.Frame
import proofs.«181605_j57105885168079_1_alg».proof.Proof.Spec
import proofs.«181605_j57105885168079_1_alg».proof.Proof.LibPlainDot
import Idealize.ShloMosaic.Lib.Pipeline.Value
import Idealize.ShloMosaic.PureOps.Ideal.Laws
import Idealize.ShloMosaic.Lib.ValueLayout
import Mathlib.Logic.Equiv.Fin.Basic
import Mathlib.Algebra.BigOperators.Fin
import Mathlib.Algebra.BigOperators.Group.Finset.Basic
import Mathlib.Data.Fintype.BigOperators

set_option maxRecDepth 16384

noncomputable section

namespace Cert.KernelIdeal.Region0

open Cert.KernelIdeal Cert.KernelIdeal.Gen Cert.Mlp
open Idealize.ShloMosaic Idealize.ShloMosaic.TcCoe Idealize.ShloMosaic.ValueIdx Idealize.SL.Sem
open Idealize.ShloMosaic.Pipeline (Dat)

/-! ## What one run of the body leaves in each output buffer -/

/-- The two zero offsets of a whole-buffer access, as a constant function. -/
theorem hz : (![0, 0] : Fin 2 → Nat) = fun _ => 0 := funext fun a => by fin_cases a <;> rfl

section Pieces

variable {F : FTy → Type} [FloatOps F]
variable (c : Dev nD) (i : grid0.Coords)
  (a1 : Memref sig .tc .vmem S2000x128 .f32) (h1 : a1.IsWhole) (a2 : Memref sig .tc .vmem S2000x128 .f32) (h2 : a2.IsWhole)
  (a3 : Memref sig .tc .vmem S1x1 .f32) (h3 : a3.IsWhole) (a4 : Memref sig .tc .vmem S128x256 .bf16) (h4 : a4.IsWhole)
  (a5 : Memref sig .tc .vmem S1x256 .f32) (h5 : a5.IsWhole) (a6 : Memref sig .tc .vmem S2000x256 .f32) (h6 : a6.IsWhole)
  (a7 : Memref sig .tc .vmem S1x256 .f32) (h7 : a7.IsWhole) (a8 : Memref sig .tc .vmem S1x256 .f32) (h8 : a8.IsWhole)

/-- At the first point the first output buffer is left holding the block of H computed from the five input blocks. -/
theorem out_A_5 (hc : cond0_0 i) (x0 : Vec F S2000x128 .f32) (x1 : Vec F S2000x128 .f32) (x2 : Vec F S1x1 .f32)
    (x3 : Vec F S128x256 .bf16) (x4 : Vec F S1x256 .f32) :
    out0_A_5 c i a1 h1 a2 h2 a3 h3 a4 h4 a5 h5 a6 h6 a7 h7 a8 h8 hc x0 x1 x2 x3 x4 = k0_pay3 x0 x2 x1 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S2000x128) hz, View.ld_unit_zero (S := S1x1) hz, View.ld_unit_zero (S := S128x256) hz,
    View.ld_unit_zero (S := S1x256) hz]

/-- At the first point the second output buffer is zeroed, read back, and left holding that zero row plus the block's
    column sums. -/
theorem out_A_6 (hc : cond0_0 i) (x0 : Vec F S2000x128 .f32) (x1 : Vec F S2000x128 .f32) (x2 : Vec F S1x1 .f32)
    (x3 : Vec F S128x256 .bf16) (x4 : Vec F S1x256 .f32) :
    out0_A_6 c i a1 h1 a2 h2 a3 h3 a4 h4 a5 h5 a6 h6 a7 h7 a8 h8 hc x0 x1 x2 x3 x4
      = k0_pay4 x0 x2 x1 x3 x4 (k0_pay1 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) hz]
  simp only [View.readAt_eq_ld, h1.read_unread, h2.read_unread, h3.read_unread, h4.read_unread, h5.read_unread,
    View.ld_unit_zero (S := S2000x128) hz, View.ld_unit_zero (S := S1x1) hz, View.ld_unit_zero (S := S128x256) hz,
    View.ld_unit_zero (S := S1x256) hz, View.readCov_unit_zero (S := S1x256) _ hz]

/-- At the first point the third output buffer is zeroed, read back, and left holding that zero row plus the column sums of
    the block's squares. -/
theorem out_A_7 (hc : cond0_0 i) (x0 : Vec F S2000x128 .f32) (x1 : Vec F S2000x128 .f32) (x2 : Vec F S1x1 .f32)
    (x3 : Vec F S128x256 .bf16) (x4 : Vec F S1x256 .f32) :
    out0_A_7 c i a1 h1 a2 h2 a3 h3 a4 h4 a5 h5 a6 h6 a7 h7 a8 h8 hc x0 x1 x2 x3 x4
      = k0_pay5 x0 x2 x1 x3 x4 (k0_pay2 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) hz]
  simp only [View.readAt_eq_ld, h1.read_unread, h2.read_unread, h3.read_unread, h4.read_unread, h5.read_unread,
    View.ld_unit_zero (S := S2000x128) hz, View.ld_unit_zero (S := S1x1) hz, View.ld_unit_zero (S := S128x256) hz,
    View.ld_unit_zero (S := S1x256) hz, View.readCov_unit_zero (S := S1x256) _ hz]

/-- At a later point the first output buffer is again left holding the block of H. -/
theorem out_B_5 (hc : ¬cond0_0 i) (x0 : Vec F S2000x128 .f32) (x1 : Vec F S2000x128 .f32) (x2 : Vec F S1x1 .f32)
    (x3 : Vec F S128x256 .bf16) (x4 : Vec F S1x256 .f32) (xo6 xo7 : Vec F S1x256 .f32) :
    out0_B_5 c i a1 h1 a2 h2 a3 h3 a4 h4 a5 h5 a6 h6 a7 h7 a8 h8 hc x0 x1 x2 x3 x4 xo6 xo7 = k0_pay3 x0 x2 x1 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread,
    h7.read_unread, h8.read_unread,
    View.ld_unit_zero (S := S2000x128) hz, View.ld_unit_zero (S := S1x1) hz, View.ld_unit_zero (S := S128x256) hz,
    View.ld_unit_zero (S := S1x256) hz]

/-- At a later point the second output buffer, holding `xo6`, is left holding `xo6` plus the block's column sums. -/
theorem out_B_6 (hc : ¬cond0_0 i) (x0 : Vec F S2000x128 .f32) (x1 : Vec F S2000x128 .f32) (x2 : Vec F S1x1 .f32)
    (x3 : Vec F S128x256 .bf16) (x4 : Vec F S1x256 .f32) (xo6 xo7 : Vec F S1x256 .f32) :
    out0_B_6 c i a1 h1 a2 h2 a3 h3 a4 h4 a5 h5 a6 h6 a7 h7 a8 h8 hc x0 x1 x2 x3 x4 xo6 xo7
      = k0_pay4 x0 x2 x1 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread,
    h7.read_unread, h8.read_unread,
    View.ld_unit_zero (S := S2000x128) hz, View.ld_unit_zero (S := S1x1) hz, View.ld_unit_zero (S := S128x256) hz,
    View.ld_unit_zero (S := S1x256) hz]

/-- At a later point the third output buffer, holding `xo7`, is left holding `xo7` plus the column sums of the block's
    squares. -/
theorem out_B_7 (hc : ¬cond0_0 i) (x0 : Vec F S2000x128 .f32) (x1 : Vec F S2000x128 .f32) (x2 : Vec F S1x1 .f32)
    (x3 : Vec F S128x256 .bf16) (x4 : Vec F S1x256 .f32) (xo6 xo7 : Vec F S1x256 .f32) :
    out0_B_7 c i a1 h1 a2 h2 a3 h3 a4 h4 a5 h5 a6 h6 a7 h7 a8 h8 hc x0 x1 x2 x3 x4 xo6 xo7
      = k0_pay5 x0 x2 x1 x3 x4 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread,
    h7.read_unread, h8.read_unread,
    View.ld_unit_zero (S := S2000x128) hz, View.ld_unit_zero (S := S1x1) hz, View.ld_unit_zero (S := S128x256) hz,
    View.ld_unit_zero (S := S1x256) hz]

end Pieces

/-! ## The payloads read at an entry, on the extended reals -/

section Payloads

/-- A one-entry array broadcast over a matrix reads its entry everywhere. -/
theorem broadcastTo_11_ab_apply {a b : ℕ} {α : Type} (v : (⟨2, ![1, 1]⟩ : Shape).Idx → α)
    (h : (⟨2, ![1, 1]⟩ : Shape).Broadcasts ⟨2, ![a, b]⟩) (p : Fin a) (k : Fin b) :
    broadcastTo ⟨2, ![a, b]⟩ v h (ix2 p k) = v (ix2 (0 : Fin 1) (0 : Fin 1)) :=
  broadcastTo_apply v h (ix2 p k) (ix2 (0 : Fin 1) (0 : Fin 1)) fun ax => by
    match ax with
    | ⟨0, _⟩ => rfl
    | ⟨1, _⟩ => rfl

variable (x0 x1 : S2000x128.Idx → EReal) (x2 : S1x1.Idx → EReal) (x3 : S128x256.Idx → EReal) (x4 : S1x256.Idx → EReal)

/-- The zero row the second output starts from reads 0. -/
theorem pay1_apply (q : Fin 256) : k0_pay1 (F := Ideal) (ix2 (0 : Fin 1) q) = 0 := Ideal.ofBits_zero_f32

/-- The zero row the third output starts from reads 0. -/
theorem pay2_apply (q : Fin 256) : k0_pay2 (F := Ideal) (ix2 (0 : Fin 1) q) = 0 := Ideal.ofBits_zero_f32

/-- The block of H at entry (p, q): the row of `x0 + x2 · x1` times the column of `x3`, plus `x4` at q. The two
    same-shape casts and the change of format are the identity, the product into the zero array is the plain sum over
    the inner index, and the one-row array is broadcast down the rows. -/
theorem pay3_apply (p : Fin 2000) (q : Fin 256) :
    k0_pay3 (F := Ideal) x0 x2 x1 x3 x4 (ix2 p q)
      = (∑ k : Fin 128, (x0 (ix2 p k) + x2 (ix2 (0 : Fin 1) (0 : Fin 1)) * x1 (ix2 p k)) * x3 (ix2 k q))
        + x4 (ix2 (0 : Fin 1) q) := by
  unfold k0_pay3
  refine (addf_apply _ _ _).trans ?_
  refine congrArg₂ (· + ·) ?_ ?_
  · refine (PlainDot.matmul_zero_apply 2000 128 256 _ _ p q).trans ?_
    refine Finset.sum_congr rfl fun k _ => ?_
    refine congrArg₂ (· * ·) ?_ (congrFun (shapeCast_self x3 _) (ix2 k q))
    refine (truncf_apply (φ := .f32) (ψ := .bf16) _ _ _).trans ?_
    refine (addf_apply _ _ _).trans ?_
    refine congrArg₂ (· + ·) (congrFun (shapeCast_self x0 _) (ix2 p k)) ?_
    refine (mulf_apply _ _ _).trans ?_
    exact congrArg (· * x1 (ix2 p k)) (broadcastTo_11_ab_apply x2 _ p k)
  · exact (broadcastTo_1b_ab_apply _ _ p q).trans (congrFun (shapeCast_self x4 _) (ix2 (0 : Fin 1) q))

/-- The inserted index of the reduction over the rows: row p, column q. -/
theorem lift_rows (h : S2000x256.Reduces [0] S256) (q : Fin 256) (p : Fin 2000) :
    h.lift (ix1 q) p = (ix2 p q : S2000x256.Idx) :=
  funext fun a => Fin.ext (by
    match a with
    | ⟨0, _⟩ => rfl
    | ⟨1, _⟩ => rfl)

/-- The second output's new row at q: what it held plus the block's column sum. -/
theorem pay4_apply (v19 : S1x256.Idx → EReal) (q : Fin 256) :
    k0_pay4 (F := Ideal) x0 x2 x1 x3 x4 v19 (ix2 (0 : Fin 1) q)
      = v19 (ix2 (0 : Fin 1) q) + ∑ p : Fin 2000, k0_pay3 (F := Ideal) x0 x2 x1 x3 x4 (ix2 p q) := by
  unfold k0_pay4
  refine (addf_apply _ _ _).trans ?_
  refine congrArg₂ (· + ·) (congrFun (shapeCast_self v19 _) (ix2 (0 : Fin 1) q)) ?_
  refine (shapeCast_a_1a_apply _ _ (0 : Fin 1) q).trans ?_
  refine (Ideal.multiReduction_add_single _ _ _ _ _ (ix1 q)).trans ?_
  exact Finset.sum_congr rfl fun p _ => congrArg _ (lift_rows _ q p)

/-- The third output's new row at q: what it held plus the column sum of the block's squares. -/
theorem pay5_apply (v25 : S1x256.Idx → EReal) (q : Fin 256) :
    k0_pay5 (F := Ideal) x0 x2 x1 x3 x4 v25 (ix2 (0 : Fin 1) q)
      = v25 (ix2 (0 : Fin 1) q)
        + ∑ p : Fin 2000, k0_pay3 (F := Ideal) x0 x2 x1 x3 x4 (ix2 p q) * k0_pay3 (F := Ideal) x0 x2 x1 x3 x4 (ix2 p q) := by
  unfold k0_pay5
  refine (addf_apply _ _ _).trans ?_
  refine congrArg₂ (· + ·) (congrFun (shapeCast_self v25 _) (ix2 (0 : Fin 1) q)) ?_
  refine (shapeCast_a_1a_apply _ _ (0 : Fin 1) q).trans ?_
  refine (Ideal.multiReduction_add_single _ _ _ _ _ (ix1 q)).trans ?_
  refine Finset.sum_congr rfl fun p _ => ?_
  exact (congrArg _ (lift_rows _ q p)).trans (mulf_apply _ _ _)

end Payloads

variable (V : (c : Dev nD) → (b : Ref sig .tc) → Buf (Elt Ideal) ((c : Thread nD τ).loc b))

/-- The region's five input arrays as it finds them, at their literal types. -/
abbrev aggA (c : Dev nD) : S50000x128.Idx → EReal := V c (Pipeline.arrRef spec0 0)
abbrev vA (c : Dev nD) : S50000x128.Idx → EReal := V c (Pipeline.arrRef spec0 1)
abbrev epsA (c : Dev nD) : S1x1.Idx → EReal := V c (Pipeline.arrRef spec0 2)
abbrev w1A (c : Dev nD) : S128x256.Idx → EReal := V c (Pipeline.arrRef spec0 3)
abbrev b1A (c : Dev nD) : S1x256.Idx → EReal := V c (Pipeline.arrRef spec0 4)

/-- The first layer before its normalisation, as a matrix. -/
def Hk (c : Dev nD) : Fin 50000 → Fin 256 → EReal :=
  lin (pre (mat (aggA V c)) (mat (vA V c)) (epsA V c (ix2 0 0))) (mat (w1A V c)) (row (b1A V c))

/-! ## The input blocks as rows of the arrays -/

/-- Where each window's block sits at a point: the two row-blocked inputs and the first output at block (t, 0), every
    other window at block (0, 0). Decided over the 25 points. -/
theorem gridIdx : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = 0) ∧ (win0_7.index t 0 = 0 ∧ win0_7.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = 0) ∧ (win0_7.index t 0 = 0 ∧ win0_7.index t 1 = 0))

/-- The grid has 25 points. -/
theorem hN : cfg0.N = 25 := N_0

/-- Row p of block n, as a row of the whole 50000-row arrays. -/
def rowAt (n : ℕ) (hn : n < 25) (p : Fin 2000) : Fin 50000 := ⟨2000 * n + p.val, by have := p.isLt; omega⟩

/-- The five input blocks at a point, at their literal types. -/
abbrev aggB (c : Dev nD) (t : Fin cfg0.N) : S2000x128.Idx → EReal := iblk0 V c 0 t
abbrev vB (c : Dev nD) (t : Fin cfg0.N) : S2000x128.Idx → EReal := iblk0 V c 1 t
abbrev epsB (c : Dev nD) (t : Fin cfg0.N) : S1x1.Idx → EReal := iblk0 V c 2 t
abbrev w1B (c : Dev nD) (t : Fin cfg0.N) : S128x256.Idx → EReal := iblk0 V c 3 t
abbrev b1B (c : Dev nD) (t : Fin cfg0.N) : S1x256.Idx → EReal := iblk0 V c 4 t

/-- Block t of the aggregate holds its rows 2000t … 2000t + 1999. -/
theorem aggB_apply (c : Dev nD) (t : Fin cfg0.N) (ht : t.val < 25) (p : Fin 2000) (k : Fin 128) :
    aggB V c t (ix2 p k) = aggA V c (ix2 (rowAt t.val ht p) k) := by
  have hi := (gridIdx t).1
  show iblk0 V c 0 t (ix2 p k) = _
  unfold iblk0
  rw [View.read_apply]
  show V c (Pipeline.arrRef spec0 0) _ = V c (Pipeline.arrRef spec0 0) _
  congr 1
  funext a
  apply Fin.ext
  match a with
  | ⟨0, _⟩ => show win0_0.index t 0 * 2000 + 1 * p.val = 2000 * t.val + p.val; rw [hi.1]; omega
  | ⟨1, _⟩ => show win0_0.index t 1 * 128 + 1 * k.val = k.val; rw [hi.2]; omega

/-- Block t of the features holds their rows 2000t … 2000t + 1999. -/
theorem vB_apply (c : Dev nD) (t : Fin cfg0.N) (ht : t.val < 25) (p : Fin 2000) (k : Fin 128) :
    vB V c t (ix2 p k) = vA V c (ix2 (rowAt t.val ht p) k) := by
  have hi := (gridIdx t).2.1
  show iblk0 V c 1 t (ix2 p k) = _
  unfold iblk0
  rw [View.read_apply]
  show V c (Pipeline.arrRef spec0 1) _ = V c (Pipeline.arrRef spec0 1) _
  congr 1
  funext a
  apply Fin.ext
  match a with
  | ⟨0, _⟩ => show win0_1.index t 0 * 2000 + 1 * p.val = 2000 * t.val + p.val; rw [hi.1]; omega
  | ⟨1, _⟩ => show win0_1.index t 1 * 128 + 1 * k.val = k.val; rw [hi.2]; omega

/-- The one-entry block is the one-entry array. -/
theorem epsB_apply (c : Dev nD) (t : Fin cfg0.N) :
    epsB V c t (ix2 (0 : Fin 1) (0 : Fin 1)) = epsA V c (ix2 (0 : Fin 1) (0 : Fin 1)) := by
  have hi := (gridIdx t).2.2.1
  show iblk0 V c 2 t (ix2 (0 : Fin 1) (0 : Fin 1)) = _
  unfold iblk0
  rw [View.read_apply]
  show V c (Pipeline.arrRef spec0 2) _ = V c (Pipeline.arrRef spec0 2) _
  congr 1
  funext a
  apply Fin.ext
  match a with
  | ⟨0, _⟩ => show win0_2.index t 0 * 1 + 1 * 0 = 0; rw [hi.1]
  | ⟨1, _⟩ => show win0_2.index t 1 * 1 + 1 * 0 = 0; rw [hi.2]

/-- The weight block is the whole weight array. -/
theorem w1B_apply (c : Dev nD) (t : Fin cfg0.N) (k : Fin 128) (q : Fin 256) :
    w1B V c t (ix2 k q) = w1A V c (ix2 k q) := by
  have hi := (gridIdx t).2.2.2.1
  show iblk0 V c 3 t (ix2 k q) = _
  unfold iblk0
  rw [View.read_apply]
  show V c (Pipeline.arrRef spec0 3) _ = V c (Pipeline.arrRef spec0 3) _
  congr 1
  funext a
  apply Fin.ext
  match a with
  | ⟨0, _⟩ => show win0_3.index t 0 * 128 + 1 * k.val = k.val; rw [hi.1]; omega
  | ⟨1, _⟩ => show win0_3.index t 1 * 256 + 1 * q.val = q.val; rw [hi.2]; omega

/-- The bias block is the whole one-row bias array. -/
theorem b1B_apply (c : Dev nD) (t : Fin cfg0.N) (q : Fin 256) :
    b1B V c t (ix2 (0 : Fin 1) q) = b1A V c (ix2 (0 : Fin 1) q) := by
  have hi := (gridIdx t).2.2.2.2.1
  show iblk0 V c 4 t (ix2 (0 : Fin 1) q) = _
  unfold iblk0
  rw [View.read_apply]
  show V c (Pipeline.arrRef spec0 4) _ = V c (Pipeline.arrRef spec0 4) _
  congr 1
  funext a
  apply Fin.ext
  match a with
  | ⟨0, _⟩ => show win0_4.index t 0 * 1 + 1 * 0 = 0; rw [hi.1]
  | ⟨1, _⟩ => show win0_4.index t 1 * 256 + 1 * q.val = q.val; rw [hi.2]; omega

/-- The block of H the body computes at point t. -/
abbrev Hblk (c : Dev nD) (t : Fin cfg0.N) : S2000x256.Idx → EReal :=
  k0_pay3 (F := Ideal) (aggB V c t) (epsB V c t) (vB V c t) (w1B V c t) (b1B V c t)

/-- It is rows 2000t … 2000t + 1999 of H. -/
theorem Hblk_apply (c : Dev nD) (t : Fin cfg0.N) (ht : t.val < 25) (p : Fin 2000) (q : Fin 256) :
    Hblk V c t (ix2 p q) = Hk V c (rowAt t.val ht p) q := by
  refine (pay3_apply (aggB V c t) (vB V c t) (epsB V c t) (w1B V c t) (b1B V c t) p q).trans ?_
  unfold Hk lin pre mat row
  rw [epsB_apply V c t, b1B_apply V c t q]
  refine congrArg₂ (· + ·) (Finset.sum_congr rfl fun k _ => ?_) rfl
  rw [aggB_apply V c t ht p k, vB_apply V c t ht p k, w1B_apply V c t k q]

/-! ## What the three output buffers hold after each point -/

/-- After every point the first output buffer holds that point's block of H. -/
theorem outs5 (c : Dev nD) (t : Fin cfg0.N) : (outsAt0 V c t.val t.isLt).1 = Hblk V c t := by
  by_cases h0 : t.val % 25 = 0
  · rw [outsAt0_A V c t h0]
    dsimp only
    exact out_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      ((hcond0_0 t).mpr h0) (iblk0 V c 0 t) (iblk0 V c 1 t) (iblk0 V c 2 t) (iblk0 V c 3 t) (iblk0 V c 4 t)
  · rw [outsAt0_B V c t h0]
    dsimp only
    exact out_B_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (fun h => h0 ((hcond0_0 t).mp h)) (iblk0 V c 0 t) (iblk0 V c 1 t) (iblk0 V c 2 t) (iblk0 V c 3 t) (iblk0 V c 4 t)
      (outsAt0 V c (t.val - 1) (Nat.lt_of_le_of_lt (Nat.sub_le _ _) t.isLt)).2.1
      (outsAt0 V c (t.val - 1) (Nat.lt_of_le_of_lt (Nat.sub_le _ _) t.isLt)).2.2

/-- After the first point the second output buffer holds zero plus the first block's column sums. -/
theorem outs6_A (c : Dev nD) (t : Fin cfg0.N) (h0 : t.val % 25 = 0) (q : Fin 256) :
    (outsAt0 V c t.val t.isLt).2.1 (ix2 (0 : Fin 1) q) = 0 + ∑ p : Fin 2000, Hblk V c t (ix2 p q) := by
  rw [outsAt0_A V c t h0]
  dsimp only
  refine (congrFun (out_A_6 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      ((hcond0_0 t).mpr h0) (iblk0 V c 0 t) (iblk0 V c 1 t) (iblk0 V c 2 t) (iblk0 V c 3 t) (iblk0 V c 4 t)) (ix2 (0 : Fin 1) q)).trans ?_
  refine (pay4_apply (aggB V c t) (vB V c t) (epsB V c t) (w1B V c t) (b1B V c t) (k0_pay1 (F := Ideal)) q).trans ?_
  exact congrArg (· + ∑ p : Fin 2000, Hblk V c t (ix2 p q)) (pay1_apply q)

/-- After a later point it holds what it held after the point before plus this block's column sums. -/
theorem outs6_B (c : Dev nD) (t : Fin cfg0.N) (h0 : ¬t.val % 25 = 0) (q : Fin 256) :
    (outsAt0 V c t.val t.isLt).2.1 (ix2 (0 : Fin 1) q)
      = (outsAt0 V c (t.val - 1) (Nat.lt_of_le_of_lt (Nat.sub_le _ _) t.isLt)).2.1 (ix2 (0 : Fin 1) q)
        + ∑ p : Fin 2000, Hblk V c t (ix2 p q) := by
  rw [outsAt0_B V c t h0]
  dsimp only
  refine (congrFun (out_B_6 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (fun h => h0 ((hcond0_0 t).mp h)) (iblk0 V c 0 t) (iblk0 V c 1 t) (iblk0 V c 2 t) (iblk0 V c 3 t) (iblk0 V c 4 t)
      (outsAt0 V c (t.val - 1) (Nat.lt_of_le_of_lt (Nat.sub_le _ _) t.isLt)).2.1
      (outsAt0 V c (t.val - 1) (Nat.lt_of_le_of_lt (Nat.sub_le _ _) t.isLt)).2.2) (ix2 (0 : Fin 1) q)).trans ?_
  exact pay4_apply (aggB V c t) (vB V c t) (epsB V c t) (w1B V c t) (b1B V c t)
    (outsAt0 V c (t.val - 1) (Nat.lt_of_le_of_lt (Nat.sub_le _ _) t.isLt)).2.1 q

/-- After the first point the third output buffer holds zero plus the column sums of the first block's squares. -/
theorem outs7_A (c : Dev nD) (t : Fin cfg0.N) (h0 : t.val % 25 = 0) (q : Fin 256) :
    (outsAt0 V c t.val t.isLt).2.2 (ix2 (0 : Fin 1) q)
      = 0 + ∑ p : Fin 2000, Hblk V c t (ix2 p q) * Hblk V c t (ix2 p q) := by
  rw [outsAt0_A V c t h0]
  dsimp only
  refine (congrFun (out_A_7 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      ((hcond0_0 t).mpr h0) (iblk0 V c 0 t) (iblk0 V c 1 t) (iblk0 V c 2 t) (iblk0 V c 3 t) (iblk0 V c 4 t)) (ix2 (0 : Fin 1) q)).trans ?_
  refine (pay5_apply (aggB V c t) (vB V c t) (epsB V c t) (w1B V c t) (b1B V c t) (k0_pay2 (F := Ideal)) q).trans ?_
  exact congrArg (· + ∑ p : Fin 2000, Hblk V c t (ix2 p q) * Hblk V c t (ix2 p q)) (pay2_apply q)

/-- After a later point it holds what it held after the point before plus the column sums of this block's squares. -/
theorem outs7_B (c : Dev nD) (t : Fin cfg0.N) (h0 : ¬t.val % 25 = 0) (q : Fin 256) :
    (outsAt0 V c t.val t.isLt).2.2 (ix2 (0 : Fin 1) q)
      = (outsAt0 V c (t.val - 1) (Nat.lt_of_le_of_lt (Nat.sub_le _ _) t.isLt)).2.2 (ix2 (0 : Fin 1) q)
        + ∑ p : Fin 2000, Hblk V c t (ix2 p q) * Hblk V c t (ix2 p q) := by
  rw [outsAt0_B V c t h0]
  dsimp only
  refine (congrFun (out_B_7 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (fun h => h0 ((hcond0_0 t).mp h)) (iblk0 V c 0 t) (iblk0 V c 1 t) (iblk0 V c 2 t) (iblk0 V c 3 t) (iblk0 V c 4 t)
      (outsAt0 V c (t.val - 1) (Nat.lt_of_le_of_lt (Nat.sub_le _ _) t.isLt)).2.1
      (outsAt0 V c (t.val - 1) (Nat.lt_of_le_of_lt (Nat.sub_le _ _) t.isLt)).2.2) (ix2 (0 : Fin 1) q)).trans ?_
  exact pay5_apply (aggB V c t) (vB V c t) (epsB V c t) (w1B V c t) (b1B V c t)
    (outsAt0 V c (t.val - 1) (Nat.lt_of_le_of_lt (Nat.sub_le _ _) t.isLt)).2.2 q

/-- The column sum of block s of H at column q (zero past the grid). -/
def colB (c : Dev nD) (q : Fin 256) (s : ℕ) : EReal :=
  if h : s < cfg0.N then ∑ p : Fin 2000, Hblk V c ⟨s, h⟩ (ix2 p q) else 0

/-- The column sum of the squares of block s of H at column q (zero past the grid). -/
def sqB (c : Dev nD) (q : Fin 256) (s : ℕ) : EReal :=
  if h : s < cfg0.N then ∑ p : Fin 2000, Hblk V c ⟨s, h⟩ (ix2 p q) * Hblk V c ⟨s, h⟩ (ix2 p q) else 0

/-- The running sum: after point n the second output buffer holds the column sums of blocks 0 … n. -/
theorem outs6 (c : Dev nD) : ∀ (n : ℕ) (h : n < cfg0.N) (q : Fin 256),
    (outsAt0 V c n h).2.1 (ix2 (0 : Fin 1) q) = ∑ s ∈ Finset.range (n + 1), colB V c q s
  | 0, h, q => by
    refine (outs6_A V c ⟨0, h⟩ (Nat.zero_mod 25) q).trans ?_
    rw [zero_add, Finset.sum_range_succ, Finset.sum_range_zero, zero_add]
    unfold colB
    rw [dif_pos h]
  | n + 1, h, q => by
    have hB : ¬(n + 1) % 25 = 0 := by have := hN; omega
    refine (outs6_B V c ⟨n + 1, h⟩ hB q).trans ?_
    rw [Finset.sum_range_succ _ (n + 1)]
    refine congrArg₂ (· + ·) (outs6 c n (Nat.lt_of_succ_lt h) q) ?_
    unfold colB
    rw [dif_pos h]

/-- The running sum of squares: after point n the third output buffer holds the column sums of the squares of
    blocks 0 … n. -/
theorem outs7 (c : Dev nD) : ∀ (n : ℕ) (h : n < cfg0.N) (q : Fin 256),
    (outsAt0 V c n h).2.2 (ix2 (0 : Fin 1) q) = ∑ s ∈ Finset.range (n + 1), sqB V c q s
  | 0, h, q => by
    refine (outs7_A V c ⟨0, h⟩ (Nat.zero_mod 25) q).trans ?_
    rw [zero_add, Finset.sum_range_succ, Finset.sum_range_zero, zero_add]
    unfold sqB
    rw [dif_pos h]
  | n + 1, h, q => by
    have hB : ¬(n + 1) % 25 = 0 := by have := hN; omega
    refine (outs7_B V c ⟨n + 1, h⟩ hB q).trans ?_
    rw [Finset.sum_range_succ _ (n + 1)]
    refine congrArg₂ (· + ·) (outs7 c n (Nat.lt_of_succ_lt h) q) ?_
    unfold sqB
    rw [dif_pos h]

/-! ## The 25 blocks of 2000 rows are the 50000 rows -/

/-- A sum over the 50000 rows is the sum over the blocks of the sums over each block's rows: the pair (block, row in
    block) ↦ row is a bijection, and addition is commutative and associative. -/
theorem sum_rows (f : Fin 50000 → EReal) :
    ∑ r, f r = ∑ s : Fin 25, ∑ p : Fin 2000, f (rowAt s.val s.isLt p) := by
  rw [← (finProdFinEquiv : Fin 25 × Fin 2000 ≃ Fin 50000).sum_comp f, Fintype.sum_prod_type]
  refine Finset.sum_congr rfl fun s _ => Finset.sum_congr rfl fun p _ => congrArg f (Fin.ext ?_)
  show p.val + 2000 * s.val = 2000 * s.val + p.val
  omega

/-- The 25 blocks' column sums add up to the column sum of H. -/
theorem colB_total (c : Dev nD) (q : Fin 256) : ∑ s ∈ Finset.range 25, colB V c q s = colSum (Hk V c) q := by
  unfold colSum
  rw [sum_rows (fun r => Hk V c r q), Finset.sum_range]
  refine Finset.sum_congr rfl fun s _ => ?_
  have hs : s.val < cfg0.N := by rw [hN]; exact s.isLt
  unfold colB
  rw [dif_pos hs]
  exact Finset.sum_congr rfl fun p _ => Hblk_apply V c ⟨s.val, hs⟩ s.isLt p q

/-- The 25 blocks' column sums of squares add up to the column sum of H². -/
theorem sqB_total (c : Dev nD) (q : Fin 256) : ∑ s ∈ Finset.range 25, sqB V c q s = colSum (sq (Hk V c)) q := by
  unfold colSum Cert.Mlp.sq
  rw [sum_rows (fun r => Hk V c r q * Hk V c r q), Finset.sum_range]
  refine Finset.sum_congr rfl fun s _ => ?_
  have hs : s.val < cfg0.N := by rw [hN]; exact s.isLt
  unfold sqB
  rw [dif_pos hs]
  refine Finset.sum_congr rfl fun p _ => ?_
  rw [Hblk_apply V c ⟨s.val, hs⟩ s.isLt p q]

/-! ## The three arrays after the region -/

/-- H, the column sums of H and the column sums of H², as arrays of the three outputs' shapes. -/
abbrev G5 (c : Dev nD) : S50000x256.Idx → EReal := fun i => Hk V c (i 0) (i 1)
abbrev G6 (c : Dev nD) : S1x256.Idx → EReal := fun i => colSum (Hk V c) (i 1)
abbrev G7 (c : Dev nD) : S1x256.Idx → EReal := fun i => colSum (sq (Hk V c)) (i 1)

/-- A block holding rows 2000t … 2000t + 1999 of H is block t of the array H. -/
theorem blk5_read (c : Dev nD) (t : Fin cfg0.N) (ht : t.val < 25) (X : S2000x256.Idx → EReal)
    (hX : ∀ p q, X (ix2 p q) = Hk V c (rowAt t.val ht p) q) :
    X = ((cfg0.win 5).blk t).view.read (Elt Ideal) (G5 V c) := by
  have hi := (gridIdx t).2.2.2.2.2.1
  funext y
  obtain ⟨p, q, rfl⟩ : ∃ (p : Fin 2000) (q : Fin 256), y = ix2 p q := ⟨y 0, y 1, eq_ix2 y⟩
  rw [hX, View.read_apply]
  show Hk V c _ q = Hk V c _ _
  refine congrArg₂ (Hk V c) (Fin.ext ?_) (Fin.ext ?_)
  · show 2000 * t.val + p.val = win0_5.index t 0 * 2000 + 1 * p.val
    rw [hi.1]; omega
  · show q.val = win0_5.index t 1 * 256 + 1 * q.val
    rw [hi.2]; omega

/-- A one-row block holding a function g of the column is the one block of the one-row array of g (second output). -/
theorem blk6_read (t : Fin cfg0.N) (g : Fin 256 → EReal) (X : S1x256.Idx → EReal)
    (hX : ∀ q, X (ix2 (0 : Fin 1) q) = g q) :
    X = ((cfg0.win 6).blk t).view.read (Elt Ideal) (fun i : S1x256.Idx => g (i 1)) := by
  have hi := (gridIdx t).2.2.2.2.2.2.1
  funext y
  obtain ⟨u, q, rfl⟩ : ∃ (u : Fin 1) (q : Fin 256), y = ix2 u q := ⟨y 0, y 1, eq_ix2 y⟩
  obtain rfl : u = 0 := Subsingleton.elim _ _
  rw [hX, View.read_apply]
  show g q = g _
  refine congrArg g (Fin.ext ?_)
  show q.val = win0_6.index t 1 * 256 + 1 * q.val
  rw [hi.2]; omega

/-- The same for the third output. -/
theorem blk7_read (t : Fin cfg0.N) (g : Fin 256 → EReal) (X : S1x256.Idx → EReal)
    (hX : ∀ q, X (ix2 (0 : Fin 1) q) = g q) :
    X = ((cfg0.win 7).blk t).view.read (Elt Ideal) (fun i : S1x256.Idx => g (i 1)) := by
  have hi := (gridIdx t).2.2.2.2.2.2.2
  funext y
  obtain ⟨u, q, rfl⟩ : ∃ (u : Fin 1) (q : Fin 256), y = ix2 u q := ⟨y 0, y 1, eq_ix2 y⟩
  obtain rfl : u = 0 := Subsingleton.elim _ _
  rw [hX, View.read_apply]
  show g q = g _
  refine congrArg g (Fin.ext ?_)
  show q.val = win0_7.index t 1 * 256 + 1 * q.val
  rw [hi.2]; omega

/-- Every point writes back its block of H. -/
theorem flushed5 (c : Dev nD) (t : Fin cfg0.N) :
    (dat0 V c).flushed 5 t = ((cfg0.win 5).blk t).view.read (Elt Ideal) (G5 V c) := by
  have ht : t.val < 25 := lt_of_lt_of_eq t.isLt hN
  show (cfg0.win 5).cut (grid0.coords t) ((dat0 V c).after 5 t) = _
  rw [after0_5, outs5 V c t]
  exact blk5_read V c t ht (Hblk V c t) (Hblk_apply V c t ht)

/-- The one write-back of the second output, at the last point, writes the column sums of H. -/
theorem flushed6 (c : Dev nD) (t : Fin cfg0.N) (hf : (cfg0.win 6).flush t = true) :
    (dat0 V c).flushed 6 t = ((cfg0.win 6).blk t).view.read (Elt Ideal) (G6 V c) := by
  have h24 : t.val = 24 := by have := (flush0_6 t).mp hf; have := lt_of_lt_of_eq t.isLt hN; omega
  have hX : ∀ q : Fin 256, (outsAt0 V c t.val t.isLt).2.1 (ix2 (0 : Fin 1) q) = colSum (Hk V c) q := by
    intro q
    have e := outs6 V c t.val t.isLt q
    rw [show t.val + 1 = 25 from by omega] at e
    exact e.trans (colB_total V c q)
  show (cfg0.win 6).cut (grid0.coords t) ((dat0 V c).after 6 t) = _
  rw [after0_6]
  exact blk6_read t (colSum (Hk V c)) (outsAt0 V c t.val t.isLt).2.1 hX

/-- The one write-back of the third output, at the last point, writes the column sums of H². -/
theorem flushed7 (c : Dev nD) (t : Fin cfg0.N) (hf : (cfg0.win 7).flush t = true) :
    (dat0 V c).flushed 7 t = ((cfg0.win 7).blk t).view.read (Elt Ideal) (G7 V c) := by
  have h24 : t.val = 24 := by have := (flush0_7 t).mp hf; have := lt_of_lt_of_eq t.isLt hN; omega
  have hX : ∀ q : Fin 256, (outsAt0 V c t.val t.isLt).2.2 (ix2 (0 : Fin 1) q) = colSum (sq (Hk V c)) q := by
    intro q
    have e := outs7 V c t.val t.isLt q
    rw [show t.val + 1 = 25 from by omega] at e
    exact e.trans (sqB_total V c q)
  show (cfg0.win 7).cut (grid0.coords t) ((dat0 V c).after 7 t) = _
  rw [after0_7]
  exact blk7_read t (colSum (sq (Hk V c))) (outsAt0 V c t.val t.isLt).2.2 hX

/-- The first output array after the region holds H. -/
theorem h_final (c : Dev nD) (r : Fin 50000) (q : Fin 256) :
    ((dat0 V c).arrAt 5 cfg0.N : S50000x256.Idx → EReal) (ix2 r q) = Hk V c r q := by
  have hr := r.isLt
  have hq := q.isLt
  have htN : r.val / 2000 < cfg0.N := by rw [hN]; omega
  have hi := (gridIdx ⟨r.val / 2000, htN⟩).2.2.2.2.2.1
  have hi0 : win0_5.index ⟨r.val / 2000, htN⟩ 0 = r.val / 2000 := hi.1
  refine (dat0 V c).arrAt_apply_of_mem 5 (G5 V c) (fun t _ => flushed5 V c t) cfg0.N ⟨r.val / 2000, htN⟩ (ix2 r q) htN
    (flush0_5 _) ?_
  show (ix2 r q : S50000x256.Idx) ∈ ((View.whole main_v17_0).slice (win0_5.rect ⟨r.val / 2000, htN⟩)).set
  rw [View.set_slice_whole, Rect.mem_set_unit]
  intro a
  match a with
  | ⟨0, _⟩ =>
    show win0_5.index ⟨r.val / 2000, htN⟩ 0 * 2000 ≤ r.val ∧ r.val < win0_5.index ⟨r.val / 2000, htN⟩ 0 * 2000 + 2000
    rw [hi0]; omega
  | ⟨1, _⟩ =>
    show win0_5.index ⟨r.val / 2000, htN⟩ 1 * 256 ≤ q.val ∧ q.val < win0_5.index ⟨r.val / 2000, htN⟩ 1 * 256 + 256
    rw [hi.2]; omega

/-- The second output array after the region holds the column sums of H. -/
theorem sum_final (c : Dev nD) (q : Fin 256) :
    ((dat0 V c).arrAt 6 cfg0.N : S1x256.Idx → EReal) (ix2 0 q) = colSum (Hk V c) q := by
  have hq := q.isLt
  have h24 : 24 < cfg0.N := by rw [hN]; omega
  have hi := (gridIdx ⟨24, h24⟩).2.2.2.2.2.2.1
  refine (dat0 V c).arrAt_apply_of_mem 6 (G6 V c) (flushed6 V c) cfg0.N ⟨24, h24⟩ (ix2 (0 : Fin 1) q) h24
    ((flush0_6 _).mpr rfl) ?_
  show (ix2 (0 : Fin 1) q : S1x256.Idx) ∈ ((View.whole main_v17_1).slice (win0_6.rect ⟨24, h24⟩)).set
  rw [View.set_slice_whole, Rect.mem_set_unit]
  intro a
  match a with
  | ⟨0, _⟩ =>
    show win0_6.index ⟨24, h24⟩ 0 * 1 ≤ 0 ∧ 0 < win0_6.index ⟨24, h24⟩ 0 * 1 + 1
    rw [hi.1]; omega
  | ⟨1, _⟩ =>
    show win0_6.index ⟨24, h24⟩ 1 * 256 ≤ q.val ∧ q.val < win0_6.index ⟨24, h24⟩ 1 * 256 + 256
    rw [hi.2]; omega

/-- The third output array after the region holds the column sums of H². -/
theorem sumsq_final (c : Dev nD) (q : Fin 256) :
    ((dat0 V c).arrAt 7 cfg0.N : S1x256.Idx → EReal) (ix2 0 q) = colSum (sq (Hk V c)) q := by
  have hq := q.isLt
  have h24 : 24 < cfg0.N := by rw [hN]; omega
  have hi := (gridIdx ⟨24, h24⟩).2.2.2.2.2.2.2
  refine (dat0 V c).arrAt_apply_of_mem 7 (G7 V c) (flushed7 V c) cfg0.N ⟨24, h24⟩ (ix2 (0 : Fin 1) q) h24
    ((flush0_7 _).mpr rfl) ?_
  show (ix2 (0 : Fin 1) q : S1x256.Idx) ∈ ((View.whole main_v17_2).slice (win0_7.rect ⟨24, h24⟩)).set
  rw [View.set_slice_whole, Rect.mem_set_unit]
  intro a
  match a with
  | ⟨0, _⟩ =>
    show win0_7.index ⟨24, h24⟩ 0 * 1 ≤ 0 ∧ 0 < win0_7.index ⟨24, h24⟩ 0 * 1 + 1
    rw [hi.1]; omega
  | ⟨1, _⟩ =>
    show win0_7.index ⟨24, h24⟩ 1 * 256 ≤ q.val ∧ q.val < win0_7.index ⟨24, h24⟩ 1 * 256 + 256
    rw [hi.2]; omega

end Cert.KernelIdeal.Region0

end
-- ==== Proof.KRegion1.lean ====
/-
  The second kernel region read as values, from whatever its arrays hold when it is entered.
  Its grid walks the 50000 rows in 25 blocks of 2000. At block t it writes rows 2000t … 2000t+1999 of
  Y = max (h · scale + shift) 0 · w2 + b2 and adds that block's column sums of Y and of Y² to two one-row arrays it
  zeroed at block 0. So after the last block the first output holds Y, the second Σ_r Y r q, the third Σ_r (Y r q)².
-/
import proofs.«181605_j57105885168079_1_alg».proof.Proof.Gen.KernelIdeal.Frame
import proofs.«181605_j57105885168079_1_alg».proof.Proof.Spec
import proofs.«181605_j57105885168079_1_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Mlp
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's five input arrays as it finds them, at their literal types. -/
abbrev hA (c : Dev nD) : S50000x256.Idx → EReal := V c (Pipeline.arrRef spec1 0)
abbrev scA (c : Dev nD) : S1x256.Idx → EReal := V c (Pipeline.arrRef spec1 1)
abbrev shA (c : Dev nD) : S1x256.Idx → EReal := V c (Pipeline.arrRef spec1 2)
abbrev w2A (c : Dev nD) : S256x128.Idx → EReal := V c (Pipeline.arrRef spec1 3)
abbrev b2A (c : Dev nD) : S1x128.Idx → EReal := V c (Pipeline.arrRef spec1 4)

/-- The second layer before its normalisation, as a matrix. -/
def Yk (c : Dev nD) : Fin 50000 → Fin 128 → EReal :=
  lin (affRelu (mat (hA V c)) (row (scA V c)) (row (shA V c))) (mat (w2A V c)) (row (b2A V c))

/-- The origin of a rank-2 array is the all-zero offset. -/
theorem hz : (![0, 0] : Fin 2 → Nat) = fun _ => 0 := funext fun a => by
  match a with
  | ⟨0, _⟩ => rfl
  | ⟨1, _⟩ => rfl

/-! ## The body's arithmetic, entry by entry -/

/-- The block the body stores to the first output: at (p, q) it is
    Σ_k max (x p k · scale k + shift k) 0 · w k q + b q. -/
theorem pay4_apply (v3 : Vec Ideal S2000x256 .f32) (v5 v9 : Vec Ideal S1x256 .f32) (v16 : Vec Ideal S256x128 .bf16)
    (v19 : Vec Ideal S1x128 .f32) (p : Fin 2000) (q : Fin 128) :
    k1_pay4 (F := Ideal) v3 v5 v9 v16 v19 (ix2 p q)
      = (∑ k : Fin 256, max (v3 (ix2 p k) * v5 (ix2 (0 : Fin 1) k) + v9 (ix2 (0 : Fin 1) k)) 0 * v16 (ix2 k q))
        + v19 (ix2 (0 : Fin 1) q) := by
  unfold k1_pay4
  refine congrArg₂ (· + ·) ?_ ?_
  · refine (PlainDot.matmul_zero_apply 2000 256 128 _ _ p q).trans ?_
    refine Finset.sum_congr rfl fun k _ => ?_
    refine congrArg₂ (· * ·) ?_ ?_
    · have e3 : shapeCast S2000x256 v3 shapeCasts_S2000x256_S2000x256 (ix2 p k) = v3 (ix2 p k) :=
        congrFun (shapeCast_self v3 _) _
      have e5 : broadcastTo S2000x256 (shapeCast S1x256 v5 shapeCasts_S1x256_S1x256) broadcasts_S1x256_S2000x256 (ix2 p k)
          = v5 (ix2 (0 : Fin 1) k) :=
        (broadcastTo_1b_ab_apply _ _ p k).trans (congrFun (shapeCast_self v5 _) _)
      have e9 : broadcastTo S2000x256 (shapeCast S1x256 v9 shapeCasts_S1x256_S1x256) broadcasts_S1x256_S2000x256 (ix2 p k)
          = v9 (ix2 (0 : Fin 1) k) :=
        (broadcastTo_1b_ab_apply _ _ p k).trans (congrFun (shapeCast_self v9 _) _)
      exact congrArg₂ max (congrArg₂ (· + ·) (congrArg₂ (· * ·) e3 e5) e9) Ideal.ofBits_zero_f32
    · exact congrFun (shapeCast_self v16 _) (ix2 k q)
  · exact (broadcastTo_1b_ab_apply _ _ p q).trans (congrFun (shapeCast_self v19 _) _)

/-- The row the body stores to the second output: the row it read plus the block's column sums. -/
theorem pay5_apply (v3 : Vec Ideal S2000x256 .f32) (v5 v9 : Vec Ideal S1x256 .f32) (v16 : Vec Ideal S256x128 .bf16)
    (v19 v24 : Vec Ideal S1x128 .f32) (q : Fin 128) :
    k1_pay5 (F := Ideal) v3 v5 v9 v16 v19 v24 (ix2 (0 : Fin 1) q)
      = v24 (ix2 (0 : Fin 1) q) + ∑ p : Fin 2000, k1_pay4 (F := Ideal) v3 v5 v9 v16 v19 (ix2 p q) := by
  unfold k1_pay5
  refine congrArg₂ (· + ·) (congrFun (shapeCast_self v24 _) _) ?_
  refine (shapeCast_a_1a_apply _ _ (0 : Fin 1) q).trans ?_
  refine (Ideal.multiReduction_add_single _ _ reduces_S2000x128_S128 _ _ (ix1 q)).trans ?_
  refine Finset.sum_congr rfl fun p _ => ?_
  refine congrArg _ (funext fun a => ?_)
  match a with
  | ⟨0, _⟩ => rfl
  | ⟨1, _⟩ => rfl

/-- The row the body stores to the third output: the row it read plus the column sums of the block's squares. -/
theorem pay1_apply (v3 : Vec Ideal S2000x256 .f32) (v5 v9 : Vec Ideal S1x256 .f32) (v16 : Vec Ideal S256x128 .bf16)
    (v19 v30 : Vec Ideal S1x128 .f32) (q : Fin 128) :
    k1_pay1 (F := Ideal) (k1_pay6 v30) (k1_pay7 v3 v5 v9 v16 v19) (ix2 (0 : Fin 1) q)
      = v30 (ix2 (0 : Fin 1) q)
        + ∑ p : Fin 2000, k1_pay4 (F := Ideal) v3 v5 v9 v16 v19 (ix2 p q) * k1_pay4 (F := Ideal) v3 v5 v9 v16 v19 (ix2 p q) := by
  unfold k1_pay1 k1_pay6 k1_pay7
  refine congrArg₂ (· + ·) (congrFun (shapeCast_self v30 _) _) ?_
  refine (shapeCast_a_1a_apply _ _ (0 : Fin 1) q).trans ?_
  refine (Ideal.multiReduction_add_single _ _ reduces_S2000x128_S128 _ _ (ix1 q)).trans ?_
  refine Finset.sum_congr rfl fun p _ => ?_
  have e : (reduces_S2000x128_S128.lift (ix1 q) p : S2000x128.Idx) = ix2 p q := funext fun a => by
    match a with
    | ⟨0, _⟩ => rfl
    | ⟨1, _⟩ => rfl
  exact congrArg (fun i => k1_pay4 (F := Ideal) v3 v5 v9 v16 v19 i * k1_pay4 (F := Ideal) v3 v5 v9 v16 v19 i) e

/-- The rows the body stores at the first block are zero. -/
theorem pay2_apply (q : Fin 128) : k1_pay2 (F := Ideal) (ix2 (0 : Fin 1) q) = 0 := Ideal.ofBits_zero_f32
theorem pay3_apply (q : Fin 128) : k1_pay3 (F := Ideal) (ix2 (0 : Fin 1) q) = 0 := Ideal.ofBits_zero_f32

/-! ## What each case leaves in each output's buffer -/

/-- At the first block the first output's buffer holds the block of Y. -/
theorem out_A_5 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond1_0 i)
    (x0 : Vec Ideal S2000x256 .f32) (x1 x2 : Vec Ideal S1x256 .f32) (x3 : Vec Ideal S256x128 .bf16) (x4 : Vec Ideal S1x128 .f32) :
    out1_A_5 c i arg1 harg1 arg2 harg2 arg3 harg3 arg4 harg4 arg5 harg5 arg6 harg6 arg7 harg7 arg8 harg8 hc0 x0 x1 x2 x3 x4 = k1_pay4 x0 x1 x2 x3 x4 := by
  unfold out1_A_5
  rw [View.read_writes_eq_canon _ _ _ (cover1_A_5 c i arg1 harg1 arg2 harg2 arg3 harg3 arg4 harg4 arg5 harg5 arg6 harg6 arg7 harg7 arg8 harg8 hc0 x0 x1 x2 x3 x4)]
  unfold kernelRun1_A
  dsimp only
  sl_unfold_words
  rw [View.canon_unit_zero hz]
  simp only [View.readAt_eq_ld, harg1.read_unread, harg2.read_unread, harg3.read_unread, harg4.read_unread, harg5.read_unread,
    View.ld_unit_zero (S := S2000x256) hz, View.ld_unit_zero (S := S1x256) hz, View.ld_unit_zero (S := S256x128) hz,
    View.ld_unit_zero (S := S1x128) hz]

/-- At a later block likewise. -/
theorem out_B_5 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i)
    (x0 : Vec Ideal S2000x256 .f32) (x1 x2 : Vec Ideal S1x256 .f32) (x3 : Vec Ideal S256x128 .bf16) (x4 : Vec Ideal S1x128 .f32) (xo6 xo7 : Vec Ideal S1x128 .f32) :
    out1_B_5 c i arg1 harg1 arg2 harg2 arg3 harg3 arg4 harg4 arg5 harg5 arg6 harg6 arg7 harg7 arg8 harg8 hc0 x0 x1 x2 x3 x4 xo6 xo7 = k1_pay4 x0 x1 x2 x3 x4 := by
  unfold out1_B_5
  rw [View.read_writes_eq_canon _ _ _ (cover1_B_5 c i arg1 harg1 arg2 harg2 arg3 harg3 arg4 harg4 arg5 harg5 arg6 harg6 arg7 harg7 arg8 harg8 hc0 x0 x1 x2 x3 x4 xo6 xo7)]
  unfold kernelRun1_B
  dsimp only
  sl_unfold_words
  rw [View.canon_unit_zero hz]
  simp only [View.readAt_eq_ld, harg1.read_unread, harg2.read_unread, harg3.read_unread, harg4.read_unread, harg5.read_unread,
    View.ld_unit_zero (S := S2000x256) hz, View.ld_unit_zero (S := S1x256) hz, View.ld_unit_zero (S := S256x128) hz,
    View.ld_unit_zero (S := S1x128) hz]

/-- At the first block the second output's buffer holds the zero row plus the block's column sums. -/
theorem out_A_6 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond1_0 i)
    (x0 : Vec Ideal S2000x256 .f32) (x1 x2 : Vec Ideal S1x256 .f32) (x3 : Vec Ideal S256x128 .bf16) (x4 : Vec Ideal S1x128 .f32) :
    out1_A_6 c i arg1 harg1 arg2 harg2 arg3 harg3 arg4 harg4 arg5 harg5 arg6 harg6 arg7 harg7 arg8 harg8 hc0 x0 x1 x2 x3 x4 = k1_pay5 x0 x1 x2 x3 x4 (k1_pay2 (F := Ideal)) := by
  unfold out1_A_6
  rw [View.read_writes_eq_canon _ _ _ (cover1_A_6 c i arg1 harg1 arg2 harg2 arg3 harg3 arg4 harg4 arg5 harg5 arg6 harg6 arg7 harg7 arg8 harg8 hc0 x0 x1 x2 x3 x4)]
  unfold kernelRun1_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread,
    View.ld_unit_zero (S := S2000x256) hz, View.ld_unit_zero (S := S1x256) hz, View.ld_unit_zero (S := S256x128) hz,
    View.ld_unit_zero (S := S1x128) hz]

/-- At a later block it holds the row it held plus the block's column sums. -/
theorem out_B_6 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i)
    (x0 : Vec Ideal S2000x256 .f32) (x1 x2 : Vec Ideal S1x256 .f32) (x3 : Vec Ideal S256x128 .bf16) (x4 : Vec Ideal S1x128 .f32) (xo6 xo7 : Vec Ideal S1x128 .f32) :
    out1_B_6 c i arg1 harg1 arg2 harg2 arg3 harg3 arg4 harg4 arg5 harg5 arg6 harg6 arg7 harg7 arg8 harg8 hc0 x0 x1 x2 x3 x4 xo6 xo7 = k1_pay5 x0 x1 x2 x3 x4 xo6 := by
  unfold out1_B_6
  rw [View.read_writes_eq_canon _ _ _ (cover1_B_6 c i arg1 harg1 arg2 harg2 arg3 harg3 arg4 harg4 arg5 harg5 arg6 harg6 arg7 harg7 arg8 harg8 hc0 x0 x1 x2 x3 x4 xo6 xo7)]
  unfold kernelRun1_B
  dsimp only
  sl_unfold_words
  rw [View.canon_unit_zero hz]
  simp only [View.readAt_eq_ld, harg1.read_unread, harg2.read_unread, harg3.read_unread, harg4.read_unread, harg5.read_unread,
    View.ld_unit_zero (S := S2000x256) hz, View.ld_unit_zero (S := S1x256) hz, View.ld_unit_zero (S := S256x128) hz,
    View.ld_unit_zero (S := S1x128) hz, harg7.read_unread]

/-- At the first block the third output's buffer holds the zero row plus the column sums of the block's squares. -/
theorem out_A_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond1_0 i)
    (x0 : Vec Ideal S2000x256 .f32) (x1 x2 : Vec Ideal S1x256 .f32) (x3 : Vec Ideal S256x128 .bf16) (x4 : Vec Ideal S1x128 .f32) :
    out1_A_7 c i arg1 harg1 arg2 harg2 arg3 harg3 arg4 harg4 arg5 harg5 arg6 harg6 arg7 harg7 arg8 harg8 hc0 x0 x1 x2 x3 x4 = k1_pay1 (k1_pay6 (k1_pay3 (F := Ideal))) (k1_pay7 x0 x1 x2 x3 x4) := by
  unfold out1_A_7
  rw [View.read_writes_eq_canon _ _ _ (cover1_A_7 c i arg1 harg1 arg2 harg2 arg3 harg3 arg4 harg4 arg5 harg5 arg6 harg6 arg7 harg7 arg8 harg8 hc0 x0 x1 x2 x3 x4)]
  unfold kernelRun1_A
  dsimp only
  sl_unfold_words
  rw [View.canon_cons_unit_zero (S := S1x128) hz]
  simp only [View.readAt_eq_ld, harg1.read_unread, harg2.read_unread, harg3.read_unread, harg4.read_unread, harg5.read_unread,
    View.ld_unit_zero (S := S2000x256) hz, View.ld_unit_zero (S := S1x256) hz, View.ld_unit_zero (S := S256x128) hz,
    View.ld_unit_zero (S := S1x128) hz, View.readCov_unit_zero (S := S1x128) _ hz]

/-- At a later block it holds the row it held plus the column sums of the block's squares. -/
theorem out_B_7 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i)
    (x0 : Vec Ideal S2000x256 .f32) (x1 x2 : Vec Ideal S1x256 .f32) (x3 : Vec Ideal S256x128 .bf16) (x4 : Vec Ideal S1x128 .f32) (xo6 xo7 : Vec Ideal S1x128 .f32) :
    out1_B_7 c i arg1 harg1 arg2 harg2 arg3 harg3 arg4 harg4 arg5 harg5 arg6 harg6 arg7 harg7 arg8 harg8 hc0 x0 x1 x2 x3 x4 xo6 xo7 = k1_pay1 (k1_pay6 xo7) (k1_pay7 x0 x1 x2 x3 x4) := by
  unfold out1_B_7
  rw [View.read_writes_eq_canon _ _ _ (cover1_B_7 c i arg1 harg1 arg2 harg2 arg3 harg3 arg4 harg4 arg5 harg5 arg6 harg6 arg7 harg7 arg8 harg8 hc0 x0 x1 x2 x3 x4 xo6 xo7)]
  unfold kernelRun1_B
  dsimp only
  sl_unfold_words
  rw [View.canon_unit_zero hz]
  simp only [View.readAt_eq_ld, harg1.read_unread, harg2.read_unread, harg3.read_unread, harg4.read_unread, harg5.read_unread,
    View.ld_unit_zero (S := S2000x256) hz, View.ld_unit_zero (S := S1x256) hz, View.ld_unit_zero (S := S256x128) hz,
    View.ld_unit_zero (S := S1x128) hz, harg8.read_unread]

/-! ## The input blocks as entries of the arrays -/

/-- The five input blocks at a point, at their literal types. -/
abbrev xb0 (c : Dev nD) (t : Fin cfg1.N) : Vec Ideal S2000x256 .f32 := iblk1 V c 0 t
abbrev xb1 (c : Dev nD) (t : Fin cfg1.N) : Vec Ideal S1x256 .f32 := iblk1 V c 1 t
abbrev xb2 (c : Dev nD) (t : Fin cfg1.N) : Vec Ideal S1x256 .f32 := iblk1 V c 2 t
abbrev xb3 (c : Dev nD) (t : Fin cfg1.N) : Vec Ideal S256x128 .bf16 := iblk1 V c 3 t
abbrev xb4 (c : Dev nD) (t : Fin cfg1.N) : Vec Ideal S1x128 .f32 := iblk1 V c 4 t

/-- Where each window's block sits at each point: the first window and the first output walk the row blocks, every other
    window stays at the origin. -/
theorem idx_all : ∀ t : Fin grid1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) := by decide +kernel

/-- Block t of the first input holds rows 2000 t … 2000 t + 1999 of its array. -/
theorem xb0_apply (c : Dev nD) (t : Fin cfg1.N) (p : Fin 2000) (k : Fin 256) (r : Fin 50000)
    (hr : r.val = 2000 * t.val + p.val) : xb0 V c t (ix2 p k) = hA V c (ix2 r k) := by
  have hi := (idx_all t).1
  unfold xb0 iblk1
  rw [View.read_apply]
  show V c (Pipeline.arrRef spec1 0) _ = V c (Pipeline.arrRef spec1 0) _
  congr 1
  funext a
  apply Fin.ext
  match a with
  | ⟨0, _⟩ => show win1_0.index t 0 * 2000 + 1 * p.val = r.val; rw [hi.1, hr]; omega
  | ⟨1, _⟩ => show win1_0.index t 1 * 256 + 1 * k.val = k.val; rw [hi.2]; omega

/-- The other four input blocks are their whole arrays at every point. -/
theorem xb1_eq (c : Dev nD) (t : Fin cfg1.N) : xb1 V c t = scA V c := by
  have hi := (idx_all t).2.1
  funext j
  unfold xb1 iblk1
  rw [View.read_apply]
  show V c (Pipeline.arrRef spec1 1) _ = V c (Pipeline.arrRef spec1 1) _
  congr 1
  funext a
  apply Fin.ext
  match a with
  | ⟨0, _⟩ => show win1_1.index t 0 * 1 + 1 * (j 0).val = (j 0).val; rw [hi.1]; omega
  | ⟨1, _⟩ => show win1_1.index t 1 * 256 + 1 * (j 1).val = (j 1).val; rw [hi.2]; omega

theorem xb2_eq (c : Dev nD) (t : Fin cfg1.N) : xb2 V c t = shA V c := by
  have hi := (idx_all t).2.2.1
  funext j
  unfold xb2 iblk1
  rw [View.read_apply]
  show V c (Pipeline.arrRef spec1 2) _ = V c (Pipeline.arrRef spec1 2) _
  congr 1
  funext a
  apply Fin.ext
  match a with
  | ⟨0, _⟩ => show win1_2.index t 0 * 1 + 1 * (j 0).val = (j 0).val; rw [hi.1]; omega
  | ⟨1, _⟩ => show win1_2.index t 1 * 256 + 1 * (j 1).val = (j 1).val; rw [hi.2]; omega

theorem xb3_eq (c : Dev nD) (t : Fin cfg1.N) : xb3 V c t = w2A V c := by
  have hi := (idx_all t).2.2.2.1
  funext j
  unfold xb3 iblk1
  rw [View.read_apply]
  show V c (Pipeline.arrRef spec1 3) _ = V c (Pipeline.arrRef spec1 3) _
  congr 1
  funext a
  apply Fin.ext
  match a with
  | ⟨0, _⟩ => show win1_3.index t 0 * 256 + 1 * (j 0).val = (j 0).val; rw [hi.1]; omega
  | ⟨1, _⟩ => show win1_3.index t 1 * 128 + 1 * (j 1).val = (j 1).val; rw [hi.2]; omega

theorem xb4_eq (c : Dev nD) (t : Fin cfg1.N) : xb4 V c t = b2A V c := by
  have hi := (idx_all t).2.2.2.2.1
  funext j
  unfold xb4 iblk1
  rw [View.read_apply]
  show V c (Pipeline.arrRef spec1 4) _ = V c (Pipeline.arrRef spec1 4) _
  congr 1
  funext a
  apply Fin.ext
  match a with
  | ⟨0, _⟩ => show win1_4.index t 0 * 1 + 1 * (j 0).val = (j 0).val; rw [hi.1]; omega
  | ⟨1, _⟩ => show win1_4.index t 1 * 128 + 1 * (j 1).val = (j 1).val; rw [hi.2]; omega

/-! ## What the outputs' buffers hold after each block, as the body's arithmetic -/

/-- After the first block. -/
theorem outs_first (c : Dev nD) (t : Fin cfg1.N) (h0 : t.val % 25 = 0) :
    outsAt1 V c t.val t.isLt
      = (k1_pay4 (xb0 V c t) (xb1 V c t) (xb2 V c t) (xb3 V c t) (xb4 V c t),
         k1_pay5 (xb0 V c t) (xb1 V c t) (xb2 V c t) (xb3 V c t) (xb4 V c t) (k1_pay2 (F := Ideal)),
         k1_pay1 (k1_pay6 (k1_pay3 (F := Ideal))) (k1_pay7 (xb0 V c t) (xb1 V c t) (xb2 V c t) (xb3 V c t) (xb4 V c t))) :=
  (outsAt1_A V c t h0).trans (congrArg₂ Prod.mk
    (out_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (xb0 V c t) (xb1 V c t) (xb2 V c t) (xb3 V c t) (xb4 V c t))
    (congrArg₂ Prod.mk
      (out_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (xb0 V c t) (xb1 V c t) (xb2 V c t) (xb3 V c t) (xb4 V c t))
      (out_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (xb0 V c t) (xb1 V c t) (xb2 V c t) (xb3 V c t) (xb4 V c t))))

/-- After a later block, over what the block before left. -/
theorem outs_later (c : Dev nD) (n : ℕ) (hn : n + 1 < cfg1.N) (hB : ¬(n + 1) % 25 = 0) :
    outsAt1 V c (n + 1) hn
      = (k1_pay4 (xb0 V c ⟨n + 1, hn⟩) (xb1 V c ⟨n + 1, hn⟩) (xb2 V c ⟨n + 1, hn⟩) (xb3 V c ⟨n + 1, hn⟩) (xb4 V c ⟨n + 1, hn⟩),
         k1_pay5 (xb0 V c ⟨n + 1, hn⟩) (xb1 V c ⟨n + 1, hn⟩) (xb2 V c ⟨n + 1, hn⟩) (xb3 V c ⟨n + 1, hn⟩) (xb4 V c ⟨n + 1, hn⟩) (outsAt1 V c n (Nat.lt_of_succ_lt hn)).2.1,
         k1_pay1 (k1_pay6 (outsAt1 V c n (Nat.lt_of_succ_lt hn)).2.2) (k1_pay7 (xb0 V c ⟨n + 1, hn⟩) (xb1 V c ⟨n + 1, hn⟩) (xb2 V c ⟨n + 1, hn⟩) (xb3 V c ⟨n + 1, hn⟩) (xb4 V c ⟨n + 1, hn⟩))) :=
  (outsAt1_B V c ⟨n + 1, hn⟩ hB).trans (congrArg₂ Prod.mk
    (out_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => hB ((hcond1_0 ⟨n + 1, hn⟩).mp h)) (xb0 V c ⟨n + 1, hn⟩) (xb1 V c ⟨n + 1, hn⟩) (xb2 V c ⟨n + 1, hn⟩) (xb3 V c ⟨n + 1, hn⟩) (xb4 V c ⟨n + 1, hn⟩)
      (outsAt1 V c n (Nat.lt_of_succ_lt hn)).2.1 (outsAt1 V c n (Nat.lt_of_succ_lt hn)).2.2)
    (congrArg₂ Prod.mk
      (out_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => hB ((hcond1_0 ⟨n + 1, hn⟩).mp h)) (xb0 V c ⟨n + 1, hn⟩) (xb1 V c ⟨n + 1, hn⟩) (xb2 V c ⟨n + 1, hn⟩) (xb3 V c ⟨n + 1, hn⟩) (xb4 V c ⟨n + 1, hn⟩)
        (outsAt1 V c n (Nat.lt_of_succ_lt hn)).2.1 (outsAt1 V c n (Nat.lt_of_succ_lt hn)).2.2)
      (out_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => hB ((hcond1_0 ⟨n + 1, hn⟩).mp h)) (xb0 V c ⟨n + 1, hn⟩) (xb1 V c ⟨n + 1, hn⟩) (xb2 V c ⟨n + 1, hn⟩) (xb3 V c ⟨n + 1, hn⟩) (xb4 V c ⟨n + 1, hn⟩)
        (outsAt1 V c n (Nat.lt_of_succ_lt hn)).2.1 (outsAt1 V c n (Nat.lt_of_succ_lt hn)).2.2)))

/-! ## The running contents as sums over rows of Y -/

/-- Row `p` of block `n`: row `2000 n + p` of the 50000. -/
def rowAt (n : ℕ) (hn : n < 25) (p : Fin 2000) : Fin 50000 := ⟨2000 * n + p.val, by have := p.isLt; omega⟩

/-- The block the body stores at block t holds rows 2000 t … 2000 t + 1999 of Y. -/
theorem pay4_blk (c : Dev nD) (t : Fin cfg1.N) (ht : t.val < 25) (p : Fin 2000) (q : Fin 128) :
    k1_pay4 (F := Ideal) (xb0 V c t) (xb1 V c t) (xb2 V c t) (xb3 V c t) (xb4 V c t) (ix2 p q) = Yk V c (rowAt t.val ht p) q := by
  refine (pay4_apply (xb0 V c t) (xb1 V c t) (xb2 V c t) (xb3 V c t) (xb4 V c t) p q).trans ?_
  rw [xb1_eq V c t, xb2_eq V c t, xb3_eq V c t, xb4_eq V c t]
  show (∑ k : Fin 256, max (xb0 V c t (ix2 p k) * scA V c (ix2 (0 : Fin 1) k) + shA V c (ix2 (0 : Fin 1) k)) 0 * w2A V c (ix2 k q))
        + b2A V c (ix2 (0 : Fin 1) q)
      = (∑ k : Fin 256, max (hA V c (ix2 (rowAt t.val ht p) k) * scA V c (ix2 (0 : Fin 1) k) + shA V c (ix2 (0 : Fin 1) k)) 0
            * w2A V c (ix2 k q))
        + b2A V c (ix2 (0 : Fin 1) q)
  refine congrArg (· + b2A V c (ix2 (0 : Fin 1) q)) (Finset.sum_congr rfl fun k _ => ?_)
  rw [xb0_apply V c t p k (rowAt t.val ht p) rfl]

/-- After block n the first output's buffer holds block n of Y, the second the column sums of Y over the rows of blocks
    0 … n, the third those of Y². The running rows are 0 + s₀ + s₁ + … in block order, which is the sum over the blocks. -/
theorem outs_inv (c : Dev nD) : ∀ (n : ℕ) (hn : n < cfg1.N) (h25 : n < 25),
    (∀ (p : Fin 2000) (q : Fin 128), (outsAt1 V c n hn).1 (ix2 p q) = Yk V c (rowAt n h25 p) q)
    ∧ (∀ q : Fin 128, (outsAt1 V c n hn).2.1 (ix2 (0 : Fin 1) q)
          = ∑ t' : Fin (n + 1), ∑ p : Fin 2000, Yk V c (rowAt t'.val (by have := t'.isLt; omega) p) q)
    ∧ (∀ q : Fin 128, (outsAt1 V c n hn).2.2 (ix2 (0 : Fin 1) q)
          = ∑ t' : Fin (n + 1), ∑ p : Fin 2000,
              Yk V c (rowAt t'.val (by have := t'.isLt; omega) p) q * Yk V c (rowAt t'.val (by have := t'.isLt; omega) p) q)
  | 0, hn, h25 => by
    rw [show outsAt1 V c 0 hn = _ from outs_first V c ⟨0, hn⟩ (Nat.zero_mod 25)]
    refine ⟨fun p q => pay4_blk V c ⟨0, hn⟩ h25 p q, fun q => ?_, fun q => ?_⟩
    · refine (pay5_apply (xb0 V c ⟨0, hn⟩) (xb1 V c ⟨0, hn⟩) (xb2 V c ⟨0, hn⟩) (xb3 V c ⟨0, hn⟩) (xb4 V c ⟨0, hn⟩) (k1_pay2 (F := Ideal)) q).trans (Eq.trans ?_ (Fin.sum_univ_castSucc _).symm)
      exact congrArg₂ (· + ·) ((pay2_apply q).trans (Fin.sum_univ_zero _).symm)
        (Finset.sum_congr rfl fun p _ => pay4_blk V c ⟨0, hn⟩ h25 p q)
    · refine (pay1_apply (xb0 V c ⟨0, hn⟩) (xb1 V c ⟨0, hn⟩) (xb2 V c ⟨0, hn⟩) (xb3 V c ⟨0, hn⟩) (xb4 V c ⟨0, hn⟩) (k1_pay3 (F := Ideal)) q).trans (Eq.trans ?_ (Fin.sum_univ_castSucc _).symm)
      exact congrArg₂ (· + ·) ((pay3_apply q).trans (Fin.sum_univ_zero _).symm)
        (Finset.sum_congr rfl fun p _ => congrArg (fun y => y * y) (pay4_blk V c ⟨0, hn⟩ h25 p q))
  | n + 1, hn, h25 => by
    have hB : ¬(n + 1) % 25 = 0 := by omega
    obtain ⟨_, i6, i7⟩ := outs_inv c n (Nat.lt_of_succ_lt hn) (by omega)
    rw [outs_later V c n hn hB]
    refine ⟨fun p q => pay4_blk V c ⟨n + 1, hn⟩ h25 p q, fun q => ?_, fun q => ?_⟩
    · refine (pay5_apply (xb0 V c ⟨n + 1, hn⟩) (xb1 V c ⟨n + 1, hn⟩) (xb2 V c ⟨n + 1, hn⟩) (xb3 V c ⟨n + 1, hn⟩) (xb4 V c ⟨n + 1, hn⟩) (outsAt1 V c n (Nat.lt_of_succ_lt hn)).2.1 q).trans
        (Eq.trans ?_ (Fin.sum_univ_castSucc _).symm)
      exact congrArg₂ (· + ·) (i6 q) (Finset.sum_congr rfl fun p _ => pay4_blk V c ⟨n + 1, hn⟩ h25 p q)
    · refine (pay1_apply (xb0 V c ⟨n + 1, hn⟩) (xb1 V c ⟨n + 1, hn⟩) (xb2 V c ⟨n + 1, hn⟩) (xb3 V c ⟨n + 1, hn⟩) (xb4 V c ⟨n + 1, hn⟩) (outsAt1 V c n (Nat.lt_of_succ_lt hn)).2.2 q).trans
        (Eq.trans ?_ (Fin.sum_univ_castSucc _).symm)
      exact congrArg₂ (· + ·) (i7 q)
        (Finset.sum_congr rfl fun p _ => congrArg (fun y => y * y) (pay4_blk V c ⟨n + 1, hn⟩ h25 p q))

/-- The 25 blocks of 2000 rows are the 50000 rows: a sum over blocks then rows within the block is the sum over all rows. -/
theorem sum_blocks (f : Fin 50000 → EReal) (n : ℕ) (h : n = 24) :
    ∑ t' : Fin (n + 1), ∑ p : Fin 2000, f (rowAt t'.val (by have := t'.isLt; omega) p) = ∑ r : Fin 50000, f r := by
  subst h
  refine Eq.trans ?_ (Equiv.sum_comp (finProdFinEquiv (m := 25) (n := 2000)) f)
  rw [Fintype.sum_prod_type]
  refine Finset.sum_congr rfl fun t' _ => Finset.sum_congr rfl fun p _ => congrArg f (Fin.ext ?_)
  show 2000 * t'.val + p.val = p.val + 2000 * t'.val
  omega

/-! ## The three output arrays after the region -/

/-- Y as an array. -/
abbrev YA (c : Dev nD) : S50000x128.Idx → EReal := fun i => Yk V c (i 0) (i 1)
/-- The column sums of Y, and of Y², as one-row arrays. -/
abbrev SA (c : Dev nD) : S1x128.Idx → EReal := fun i => colSum (Yk V c) (i 1)
abbrev QA (c : Dev nD) : S1x128.Idx → EReal := fun i => colSum (sq (Yk V c)) (i 1)

/-- Every block's write-back of the first output writes that block of Y. -/
theorem flushed5 (c : Dev nD) (t : Fin cfg1.N) (hf : (cfg1.win 5).flush t = true) :
    (dat1 V c).flushed 5 t = ((cfg1.win 5).blk t).view.read (Elt Ideal) (YA V c) := by
  have h25 : t.val < 25 := lt_of_lt_of_eq t.isLt N_1
  have hi := (idx_all t).2.2.2.2.2.1
  show (cfg1.win 5).cut (grid1.coords t) ((dat1 V c).after 5 t) = _
  rw [after1_5]
  funext x
  have hx : ((cfg1.win 5).xinj (grid1.coords t) x : S2000x128.Idx)
      = ix2 (⟨(x 0).val, (x 0).isLt⟩ : Fin 2000) (⟨(x 1).val, (x 1).isLt⟩ : Fin 128) := funext fun a => by
    match a with
    | ⟨0, _⟩ => rfl
    | ⟨1, _⟩ => rfl
  refine Eq.trans (congrArg (outsAt1 V c t.val t.isLt).1 hx) ?_
  refine ((outs_inv V c t.val t.isLt h25).1 _ _).trans ?_
  rw [View.read_apply]
  show Yk V c _ _ = Yk V c _ _
  refine congrArg₂ (Yk V c) (Fin.ext ?_) (Fin.ext ?_)
  · show 2000 * t.val + (x 0).val = win1_5.index t 0 * 2000 + 1 * (x 0).val
    rw [hi.1]; omega
  · show (x 1).val = win1_5.index t 1 * 128 + 1 * (x 1).val
    rw [hi.2]; omega

/-- The blocks of the first output tile its array: row r lies in block r / 2000. -/
theorem cover5 (c : Dev nD) (i : S50000x128.Idx) :
    ∃ t : Fin cfg1.N, (cfg1.win 5).flush t = true ∧ i ∈ ((cfg1.win 5).blk t).view.set := by
  have h0 : (i 0).val < 50000 := (i 0).isLt
  have h1 : (i 1).val < 128 := (i 1).isLt
  let t : Fin cfg1.N := ⟨(i 0).val / 2000, by rw [show cfg1.N = 25 from N_1]; omega⟩
  have ht : t.val = (i 0).val / 2000 := rfl
  have hi := (idx_all t).2.2.2.2.2.1
  refine ⟨t, flush1_5 t, ?_⟩
  show i ∈ ((View.whole main_v32_0).slice (win1_5.rect t)).set
  rw [View.set_slice_whole, Rect.mem_set_unit]
  intro a
  match a with
  | ⟨0, _⟩ =>
    show win1_5.index t 0 * 2000 ≤ (i 0).val ∧ (i 0).val < win1_5.index t 0 * 2000 + 2000
    rw [hi.1]; omega
  | ⟨1, _⟩ =>
    show win1_5.index t 1 * 128 ≤ (i 1).val ∧ (i 1).val < win1_5.index t 1 * 128 + 128
    rw [hi.2]; omega

/-- The one block of output two's array is the array: read through it, any contents are themselves. -/
theorem read6 (t : Fin cfg1.N) (G : S1x128.Idx → EReal) (x : ((cfg1.win 6).xblock (grid1.coords t)).Idx) :
    ((cfg1.win 6).blk t).view.read (Elt Ideal) G x = G (ix2 (0 : Fin 1) (⟨(x 1).val, (x 1).isLt⟩ : Fin 128)) := by
  have hi := (idx_all t).2.2.2.2.2.2.1
  rw [View.read_apply]
  show G _ = G _
  congr 1
  funext a
  apply Fin.ext
  match a with
  | ⟨0, _⟩ =>
    show win1_6.index t 0 * 1 + 1 * (x 0).val = 0
    have : (x 0).val < 1 := (x 0).isLt
    rw [hi.1]; omega
  | ⟨1, _⟩ =>
    show win1_6.index t 1 * 128 + 1 * (x 1).val = (x 1).val
    rw [hi.2]; omega

/-- The one block of output three's array is the array: read through it, any contents are themselves. -/
theorem read7 (t : Fin cfg1.N) (G : S1x128.Idx → EReal) (x : ((cfg1.win 7).xblock (grid1.coords t)).Idx) :
    ((cfg1.win 7).blk t).view.read (Elt Ideal) G x = G (ix2 (0 : Fin 1) (⟨(x 1).val, (x 1).isLt⟩ : Fin 128)) := by
  have hi := (idx_all t).2.2.2.2.2.2.2
  rw [View.read_apply]
  show G _ = G _
  congr 1
  funext a
  apply Fin.ext
  match a with
  | ⟨0, _⟩ =>
    show win1_7.index t 0 * 1 + 1 * (x 0).val = 0
    have : (x 0).val < 1 := (x 0).isLt
    rw [hi.1]; omega
  | ⟨1, _⟩ =>
    show win1_7.index t 1 * 128 + 1 * (x 1).val = (x 1).val
    rw [hi.2]; omega

/-- The one write-back of the second output, after the last block, writes the column sums of Y. -/
theorem flushed6 (c : Dev nD) (t : Fin cfg1.N) (hf : (cfg1.win 6).flush t = true) :
    (dat1 V c).flushed 6 t = ((cfg1.win 6).blk t).view.read (Elt Ideal) (SA V c) := by
  have h25 : t.val < 25 := lt_of_lt_of_eq t.isLt N_1
  have h24 : t.val = 24 := by have := (flush1_6 t).mp hf; omega
  show (cfg1.win 6).cut (grid1.coords t) ((dat1 V c).after 6 t) = _
  rw [after1_6]
  funext x
  have hx : ((cfg1.win 6).xinj (grid1.coords t) x : S1x128.Idx)
      = ix2 (0 : Fin 1) (⟨(x 1).val, (x 1).isLt⟩ : Fin 128) := funext fun a => by
    match a with
    | ⟨0, _⟩ => exact Fin.ext (by show (x 0).val = 0; have : (x 0).val < 1 := (x 0).isLt; omega)
    | ⟨1, _⟩ => rfl
  refine Eq.trans (congrArg (outsAt1 V c t.val t.isLt).2.1 hx) ?_
  refine ((outs_inv V c t.val t.isLt h25).2.1 _).trans ?_
  refine (sum_blocks (fun r => Yk V c r (⟨(x 1).val, (x 1).isLt⟩ : Fin 128)) t.val h24).trans ?_
  exact Eq.trans (b := colSum (Yk V c) (⟨(x 1).val, (x 1).isLt⟩ : Fin 128)) rfl (read6 t (SA V c) x).symm

/-- The one write-back of the third output, after the last block, writes the column sums of Y². -/
theorem flushed7 (c : Dev nD) (t : Fin cfg1.N) (hf : (cfg1.win 7).flush t = true) :
    (dat1 V c).flushed 7 t = ((cfg1.win 7).blk t).view.read (Elt Ideal) (QA V c) := by
  have h25 : t.val < 25 := lt_of_lt_of_eq t.isLt N_1
  have h24 : t.val = 24 := by have := (flush1_7 t).mp hf; omega
  show (cfg1.win 7).cut (grid1.coords t) ((dat1 V c).after 7 t) = _
  rw [after1_7]
  funext x
  have hx : ((cfg1.win 7).xinj (grid1.coords t) x : S1x128.Idx)
      = ix2 (0 : Fin 1) (⟨(x 1).val, (x 1).isLt⟩ : Fin 128) := funext fun a => by
    match a with
    | ⟨0, _⟩ => exact Fin.ext (by show (x 0).val = 0; have : (x 0).val < 1 := (x 0).isLt; omega)
    | ⟨1, _⟩ => rfl
  refine Eq.trans (congrArg (outsAt1 V c t.val t.isLt).2.2 hx) ?_
  refine ((outs_inv V c t.val t.isLt h25).2.2 _).trans ?_
  refine (sum_blocks (fun r => Yk V c r (⟨(x 1).val, (x 1).isLt⟩ : Fin 128) * Yk V c r (⟨(x 1).val, (x 1).isLt⟩ : Fin 128))
    t.val h24).trans ?_
  exact Eq.trans (b := colSum (sq (Yk V c)) (⟨(x 1).val, (x 1).isLt⟩ : Fin 128)) rfl (read7 t (QA V c) x).symm

/-- The last block's write-back covers the one-row arrays. -/
theorem cover6 (c : Dev nD) (i : S1x128.Idx) :
    ∃ t : Fin cfg1.N, (cfg1.win 6).flush t = true ∧ i ∈ ((cfg1.win 6).blk t).view.set := by
  have h0 : (i 0).val < 1 := (i 0).isLt
  have h1 : (i 1).val < 128 := (i 1).isLt
  let t : Fin cfg1.N := ⟨24, by rw [show cfg1.N = 25 from N_1]; omega⟩
  have hi := (idx_all t).2.2.2.2.2.2.1
  refine ⟨t, (flush1_6 t).mpr rfl, ?_⟩
  show i ∈ ((View.whole main_v32_1).slice (win1_6.rect t)).set
  rw [View.set_slice_whole, Rect.mem_set_unit]
  intro a
  match a with
  | ⟨0, _⟩ =>
    show win1_6.index t 0 * 1 ≤ (i 0).val ∧ (i 0).val < win1_6.index t 0 * 1 + 1
    rw [hi.1]; omega
  | ⟨1, _⟩ =>
    show win1_6.index t 1 * 128 ≤ (i 1).val ∧ (i 1).val < win1_6.index t 1 * 128 + 128
    rw [hi.2]; omega

theorem cover7 (c : Dev nD) (i : S1x128.Idx) :
    ∃ t : Fin cfg1.N, (cfg1.win 7).flush t = true ∧ i ∈ ((cfg1.win 7).blk t).view.set := by
  have h0 : (i 0).val < 1 := (i 0).isLt
  have h1 : (i 1).val < 128 := (i 1).isLt
  let t : Fin cfg1.N := ⟨24, by rw [show cfg1.N = 25 from N_1]; omega⟩
  have hi := (idx_all t).2.2.2.2.2.2.2
  refine ⟨t, (flush1_7 t).mpr rfl, ?_⟩
  show i ∈ ((View.whole main_v32_2).slice (win1_7.rect t)).set
  rw [View.set_slice_whole, Rect.mem_set_unit]
  intro a
  match a with
  | ⟨0, _⟩ =>
    show win1_7.index t 0 * 1 ≤ (i 0).val ∧ (i 0).val < win1_7.index t 0 * 1 + 1
    rw [hi.1]; omega
  | ⟨1, _⟩ =>
    show win1_7.index t 1 * 128 ≤ (i 1).val ∧ (i 1).val < win1_7.index t 1 * 128 + 128
    rw [hi.2]; omega

/-- The first output array after the region holds Y. -/
theorem y_final (c : Dev nD) (r : Fin 50000) (q : Fin 128) :
    ((dat1 V c).arrAt 5 cfg1.N : S50000x128.Idx → EReal) (ix2 r q) = Yk V c r q :=
  congrFun ((dat1 V c).arrAt_eq_of_cover 5 (YA V c) (flushed5 V c) (cover5 c)) (ix2 r q)

/-- The second output array after the region holds the column sums of Y. -/
theorem sum_final (c : Dev nD) (q : Fin 128) :
    ((dat1 V c).arrAt 6 cfg1.N : S1x128.Idx → EReal) (ix2 0 q) = colSum (Yk V c) q :=
  congrFun ((dat1 V c).arrAt_eq_of_cover 6 (SA V c) (flushed6 V c) (cover6 c)) (ix2 0 q)

/-- The third output array after the region holds the column sums of Y². -/
theorem sumsq_final (c : Dev nD) (q : Fin 128) :
    ((dat1 V c).arrAt 7 cfg1.N : S1x128.Idx → EReal) (ix2 0 q) = colSum (sq (Yk V c)) q :=
  congrFun ((dat1 V c).arrAt_eq_of_cover 7 (QA V c) (flushed7 V c) (cover7 c)) (ix2 0 q)

end Cert.KernelIdeal.Region1

end
-- ==== Proof.KRegion2.lean ====
/-
  The third kernel region read as values, from whatever its arrays hold when it is entered: block by block of 2000
  rows it writes max (y · scale + shift) 0, so after the last block its output holds that for every row.
-/
import proofs.«181605_j57105885168079_1_alg».proof.Proof.Gen.KernelIdeal.Frame
import proofs.«181605_j57105885168079_1_alg».proof.Proof.Spec

import Idealize.ShloMosaic.Lib.Pipeline.Value
import Idealize.ShloMosaic.PureOps.Ideal.Laws

set_option maxRecDepth 16384

noncomputable section

namespace Cert.KernelIdeal.Region2

open Cert.KernelIdeal Cert.KernelIdeal.Gen Cert.Mlp
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's three input arrays as it finds them, at their literal types. -/
abbrev yA (c : Dev nD) : S50000x128.Idx → EReal := V c (Pipeline.arrRef spec2 0)
abbrev scA (c : Dev nD) : S1x128.Idx → EReal := V c (Pipeline.arrRef spec2 1)
abbrev shA (c : Dev nD) : S1x128.Idx → EReal := V c (Pipeline.arrRef spec2 2)

/-! ## The whole-array function -/

/-- Every entry scaled and shifted by its column's entries of the two one-row arrays, then rectified. -/
def scaledRelu (y : S50000x128.Idx → EReal) (sc sh : S1x128.Idx → EReal) : S50000x128.Idx → EReal :=
  fun i => max (y i * sc (ix2 (0 : Fin 1) (⟨(i 1).val, idx2_lt1 i⟩ : Fin 128))
    + sh (ix2 (0 : Fin 1) (⟨(i 1).val, idx2_lt1 i⟩ : Fin 128))) 0

/-! ## The body's value at an entry of a block -/

/-- A one-row vector repeated down 2000 rows reads, at (p, q), the row's entry q. -/
theorem rowBroadcast_apply (x : Vec Ideal S1x128 .f32) (p : Fin 2000) (q : Fin 128) :
    broadcastTo S2000x128 x broadcasts_S1x128_S2000x128 (ix2 p q) = x (ix2 (0 : Fin 1) q) := by
  refine broadcastTo_apply x _ (ix2 p q) (ix2 (0 : Fin 1) q) (fun a => ?_)
  match a with
  | ⟨0, _⟩ => rfl
  | ⟨1, _⟩ => rfl

/-- The stored vector at (p, q): the block's entry times the scale's entry q plus the shift's, rectified. -/
theorem stored_apply (x0 : Vec Ideal S2000x128 .f32) (x1 x2 : Vec Ideal S1x128 .f32) (p : Fin 2000) (q : Fin 128) :
    k2_pay1 x0 x1 x2 (ix2 p q) = max (x0 (ix2 p q) * x1 (ix2 (0 : Fin 1) q) + x2 (ix2 (0 : Fin 1) q)) 0 := by
  unfold k2_pay1
  rw [maximumf_apply, addf_apply, mulf_apply, broadcast_apply, shapeCast_self, shapeCast_self, shapeCast_self,
    rowBroadcast_apply, rowBroadcast_apply]
  show max _ (Ideal.ofBits .f32 0x00000000#32) = _
  rw [Ideal.ofBits_zero_f32]

/-! ## From blocks to the array -/

/-- A whole-block access starts at zero on both axes. -/
theorem off_zero : (![0, 0] : Fin 2 → Nat) = fun _ => 0 :=
  funext fun a => by match a with | ⟨0, _⟩ => rfl | ⟨1, _⟩ => rfl

/-- The printed index maps over the 25 points: point t takes block t of the rows of y and of the output, and the
    one block of each one-row array. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the whole-array function of the arrays as the region finds them. -/
theorem writeBack_eq (c : Dev nD) (t : Fin cfg2.N) :
    (dat2 V c).flushed 3 t
      = ((cfg2.win 3).blk t).view.read (Elt Ideal) (scaledRelu (yA V c) (scA V c) (shA V c)) := by
  show (cfg2.win 3).cut (grid2.coords t) ((dat2 V c).after 3 t) = _
  rw [after2_3]
  unfold out2_3
  rw [View.canon_unit_zero off_zero]
  simp only [View.ld_unit_zero (S := S2000x128) off_zero, View.ld_unit_zero (S := S1x128) off_zero]
  obtain ⟨e00, e01, e10, e11, e20, e21, e30, e31⟩ := index_facts t
  funext j
  obtain ⟨p, q, rfl⟩ : ∃ (p : Fin 2000) (q : Fin 128), j = ix2 p q := ⟨j 0, j 1, eq_ix2 j⟩
  show k2_pay1 (iblk2 V c 0 t) (iblk2 V c 1 t) (iblk2 V c 2 t) (ix2 p q)
    = scaledRelu (yA V c) (scA V c) (shA V c) (((cfg2.win 3).blk t).view.emb (ix2 p q))
  refine (stored_apply (iblk2 V c 0 t) (iblk2 V c 1 t) (iblk2 V c 2 t) p q).trans ?_
  have hp : p.val < 2000 := p.isLt
  have hq : q.val < 128 := q.isLt
  -- the block of y sits where the output's block sits
  have h0 : ((cfg2.win 0).blk t).view.emb (ix2 p q) = ((cfg2.win 3).blk t).view.emb (ix2 p q) := by
    funext a; apply Fin.ext
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * q.val = win2_3.index t (1 : Fin 2) * 128 + 1 * q.val; omega
  -- the one block of a one-row array is the array, read at the output entry's column
  have h1 : ((cfg2.win 1).blk t).view.emb (ix2 (0 : Fin 1) q)
      = ix2 (0 : Fin 1) (⟨((((cfg2.win 3).blk t).view.emb (ix2 p q)) 1).val, idx2_lt1 _⟩ : Fin 128) := by
    funext a; apply Fin.ext
    match a with
    | ⟨0, _⟩ => show win2_1.index t (0 : Fin 2) * 1 + 1 * 0 = 0; omega
    | ⟨1, _⟩ => show win2_1.index t (1 : Fin 2) * 128 + 1 * q.val = win2_3.index t (1 : Fin 2) * 128 + 1 * q.val; omega
  have h2 : ((cfg2.win 2).blk t).view.emb (ix2 (0 : Fin 1) q)
      = ix2 (0 : Fin 1) (⟨((((cfg2.win 3).blk t).view.emb (ix2 p q)) 1).val, idx2_lt1 _⟩ : Fin 128) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  show max (yA V c (((cfg2.win 0).blk t).view.emb (ix2 p q))
        * scA V c (((cfg2.win 1).blk t).view.emb (ix2 (0 : Fin 1) q))
      + shA V c (((cfg2.win 2).blk t).view.emb (ix2 (0 : Fin 1) q))) 0 = _
  rw [h0, h1, h2]
  rfl

/-- An index of the output array is in point t's block iff each coordinate is in the block's range on its axis. -/
theorem mem_block (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v47).slice (win2_3.rect t)).set ↔ _
  rw [View.set_slice_whole, Rect.mem_set_unit]
  exact Iff.rfl

/-- Every index of the output array is in a block that is written back: row r is in block r / 2000, and 25 blocks
    of 2000 rows are the 50000 rows. -/
theorem covered (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by show (i 0).val / 2000 < 25; omega⟩, rfl⟩
  obtain ⟨-, -, -, -, -, -, e30, e31⟩ := index_facts t
  refine ⟨t, flush2_3 t, ?_⟩
  rw [mem_block]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 128 ≤ (i 1).val ∧ (i 1).val < win2_3.index t (1 : Fin 2) * 128 + 128
    omega

/-- The output array after the last point is the whole-array function of the arrays the region found. -/
theorem arr_final (c : Dev nD) :
    (dat2 V c).arrAt 3 cfg2.N = scaledRelu (yA V c) (scA V c) (shA V c) :=
  (dat2 V c).arrAt_eq_of_cover 3 (scaledRelu (yA V c) (scA V c) (shA V c)) (fun t _ => writeBack_eq V c t) covered

/-- The output array after the region. -/
theorem out_final (c : Dev nD) (r : Fin 50000) (q : Fin 128) :
    ((dat2 V c).arrAt 3 cfg2.N : S50000x128.Idx → EReal) (ix2 r q)
      = affRelu (mat (yA V c)) (row (scA V c)) (row (shA V c)) r q :=
  (congrFun (arr_final V c) (ix2 r q)).trans rfl

end Cert.KernelIdeal.Region2

end
-- ==== Proof.KChain.lean ====
/-
  The kernel program's result as a function of its arguments. The three regions are joined through the host
  operations between them: the prelude hands the first region the aggregate, the features, the bias as a row and the
  weights; from the first region's two column sums the host forms mean, variance, scale and shift for the second; from
  the second region's two column sums, scale and shift for the third. Composed, the result is the kernel's form of
  two normalised layers (`Cert.Mlp.outK`).
-/
import proofs.«181605_j57105885168079_1_alg».proof.Proof.Gen.KernelIdeal.Frame
import proofs.«181605_j57105885168079_1_alg».proof.Proof.Spec
import proofs.«181605_j57105885168079_1_alg».proof.Proof.KAgg
import proofs.«181605_j57105885168079_1_alg».proof.Proof.KRegion0
import proofs.«181605_j57105885168079_1_alg».proof.Proof.KRegion1
import proofs.«181605_j57105885168079_1_alg».proof.Proof.KRegion2
import Idealize.ShloMosaic.Lib.Pipeline.Value
import Idealize.ShloMosaic.Lib.ValueLayout
import Idealize.ShloMosaic.Lib.StableHlo.Run

set_option maxRecDepth 16384

noncomputable section

namespace Cert.KernelIdeal.Chain

open Cert.KernelIdeal Cert.KernelIdeal.Gen Cert.KernelIdeal.Agg Cert.Mlp
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The host's scale and shift, as terms of its operations and read at one column

Between two regions the host divides the two column sums by the row count, subtracts the squared mean from the mean
of squares, adds the offset, takes the reciprocal root, multiplies by the gain (a vector recast as one row) and forms
the shift from the offset vector and the mean times the scale. The same eight operations serve both layers; only the
row's width differs. -/

section HostTerms

variable {B : ℕ}

/-- The scale row as the host computes it from the gain `g`, the column sums `s` and the column sums of squares `ss`. -/
def scaleT (hb : S_.BroadcastsInDim (⟨2, ![1, B]⟩ : Shape) (![] : Fin S_.rank → Fin (⟨2, ![1, B]⟩ : Shape).rank))
    (hc : (⟨1, ![B]⟩ : Shape).ShapeCasts ⟨2, ![1, B]⟩)
    (g : (⟨1, ![B]⟩ : Shape).Idx → EReal) (s ss : (⟨2, ![1, B]⟩ : Shape).Idx → EReal) : (⟨2, ![1, B]⟩ : Shape).Idx → EReal :=
  mulf (F := Ideal) (φ := .f32) (shapeCast ⟨2, ![1, B]⟩ g hc)
    (Host.rsqrt (F := Ideal) (φ := .f32)
      (addf (F := Ideal) (φ := .f32)
        (subf (F := Ideal) (φ := .f32)
          (Host.divf (F := Ideal) (φ := .f32) ss (broadcastInDim ⟨2, ![1, B]⟩ ![] hb (constant (F := Ideal) S_ .f32 0x47435000#32)))
          (mulf (F := Ideal) (φ := .f32)
            (Host.divf (F := Ideal) (φ := .f32) s (broadcastInDim ⟨2, ![1, B]⟩ ![] hb (constant (F := Ideal) S_ .f32 0x47435000#32)))
            (Host.divf (F := Ideal) (φ := .f32) s (broadcastInDim ⟨2, ![1, B]⟩ ![] hb (constant (F := Ideal) S_ .f32 0x47435000#32)))))
        (broadcastInDim ⟨2, ![1, B]⟩ ![] hb (constant (F := Ideal) S_ .f32 0x3727C5AC#32))))

/-- The shift row as the host computes it from the offset vector `be`, the mean and the scale. -/
def shiftT (hb : S_.BroadcastsInDim (⟨2, ![1, B]⟩ : Shape) (![] : Fin S_.rank → Fin (⟨2, ![1, B]⟩ : Shape).rank))
    (hc : (⟨1, ![B]⟩ : Shape).ShapeCasts ⟨2, ![1, B]⟩)
    (g be : (⟨1, ![B]⟩ : Shape).Idx → EReal) (s ss : (⟨2, ![1, B]⟩ : Shape).Idx → EReal) : (⟨2, ![1, B]⟩ : Shape).Idx → EReal :=
  subf (F := Ideal) (φ := .f32) (shapeCast ⟨2, ![1, B]⟩ be hc)
    (mulf (F := Ideal) (φ := .f32)
      (Host.divf (F := Ideal) (φ := .f32) s (broadcastInDim ⟨2, ![1, B]⟩ ![] hb (constant (F := Ideal) S_ .f32 0x47435000#32)))
      (scaleT hb hc g s ss))

variable (hb : S_.BroadcastsInDim (⟨2, ![1, B]⟩ : Shape) (![] : Fin S_.rank → Fin (⟨2, ![1, B]⟩ : Shape).rank))
  (hc : (⟨1, ![B]⟩ : Shape).ShapeCasts ⟨2, ![1, B]⟩)
  (g be : (⟨1, ![B]⟩ : Shape).Idx → EReal) (s ss : (⟨2, ![1, B]⟩ : Shape).Idx → EReal)

/-- At column `q` the host's scale is the specification's: every operation is entrywise, the constants are the same
    at every entry, and the recast vector reads its own entry `q`. -/
theorem scaleT_apply (q : Fin B) : scaleT hb hc g s ss (ix2 0 q) = scaleK (vec g) (row s) (row ss) q := by
  have hg : shapeCast (⟨2, ![1, B]⟩ : Shape) g hc (ix2 0 q) = g (ix1 q) := shapeCast_a_1a_apply g hc 0 q
  exact congrArg (fun x => x * Ideal.rsqrt ((Ideal.div (ss (ix2 0 q)) nLit
    - Ideal.div (s (ix2 0 q)) nLit * Ideal.div (s (ix2 0 q)) nLit) + epsLit)) hg

/-- At column `q` the host's shift is the specification's. -/
theorem shiftT_apply (q : Fin B) : shiftT hb hc g be s ss (ix2 0 q) = shiftK (vec g) (vec be) (row s) (row ss) q := by
  have hbe : shapeCast (⟨2, ![1, B]⟩ : Shape) be hc (ix2 0 q) = be (ix1 q) := shapeCast_a_1a_apply be hc 0 q
  show shapeCast (⟨2, ![1, B]⟩ : Shape) be hc (ix2 0 q) - Ideal.div (s (ix2 0 q)) nLit * scaleT hb hc g s ss (ix2 0 q)
    = be (ix1 q) - Ideal.div (s (ix2 0 q)) nLit * scaleK (vec g) (row s) (row ss) q
  rw [hbe, scaleT_apply]

end HostTerms

/-! ## The first region's inputs: what the prelude leaves -/

/-- The aggregate's buffer holds the prelude's aggregation term. -/
theorem V1_agg (c : Dev nD) :
    (V1 m ρ c (Pipeline.arrRef spec0 0) : S50000x128.Idx → EReal) = aggK (a0 m c) (a1 m c) (a2 m c) (a3 m c) := by
  show StableHlo.after hostOps0 _ (Proc.devRef .tc main_v12) = _
  after_results_simp <;> rfl

/-- The features are the launch's. -/
theorem V1_v (c : Dev nD) : (V1 m ρ c (Pipeline.arrRef spec0 1) : S50000x128.Idx → EReal) = a0 m c := by
  show StableHlo.after hostOps0 _ (Proc.devRef .tc main_arg0) = _
  after_results_simp <;> rfl

/-- The one-entry array of the first layer's input factor is the launch's. -/
theorem V1_eps (c : Dev nD) : (V1 m ρ c (Pipeline.arrRef spec0 2) : S1x1.Idx → EReal) = a12 m c := by
  show StableHlo.after hostOps0 _ (Proc.devRef .tc main_arg12) = _
  after_results_simp <;> rfl

/-- The first weights, narrowed in format: at exact values the same array. -/
theorem V1_w1 (c : Dev nD) : (V1 m ρ c (Pipeline.arrRef spec0 3) : S128x256.Idx → EReal) = a4 m c := by
  show StableHlo.after hostOps0 _ (Proc.devRef .tc main_v15) = _
  after_results_simp <;> rfl

/-- The first bias as one row. -/
theorem V1_b1 (c : Dev nD) : row (V1 m ρ c (Pipeline.arrRef spec0 4) : S1x256.Idx → EReal) = vec (a5 m c) := by
  have e : (V1 m ρ c (Pipeline.arrRef spec0 4) : S1x256.Idx → EReal) = shapeCast S1x256 (a5 m c) shapeCasts_S256_S1x256 := by
    show StableHlo.after hostOps0 _ (Proc.devRef .tc main_v13) = _
    after_results_simp <;> rfl
  funext q
  unfold row vec
  rw [e]
  exact shapeCast_a_1a_apply _ _ _ _

/-- The first layer before its normalisation, in the program's arguments. -/
theorem Hk_eq (c : Dev nD) :
    Region0.Hk (V1 m ρ) c
      = lin (pre (mat (aggK (a0 m c) (a1 m c) (a2 m c) (a3 m c))) (mat (a0 m c)) (a12 m c (ix2 0 0))) (mat (a4 m c)) (vec (a5 m c)) := by
  unfold Region0.Hk Region0.aggA Region0.vA Region0.epsA Region0.w1A Region0.b1A
  rw [V1_agg, V1_v, V1_eps, V1_w1, V1_b1]

/-! ## The second region's inputs: the first region's outputs and what the host makes of them -/

/-- What the buffers the host reads between the first two regions hold, at their literal types. -/
abbrev g1W (c : Dev nD) : S256.Idx → EReal := W2 m ρ c (Proc.devRef .tc main_arg6)
abbrev be1W (c : Dev nD) : S256.Idx → EReal := W2 m ρ c (Proc.devRef .tc main_arg7)
abbrev s1W (c : Dev nD) : S1x256.Idx → EReal := W2 m ρ c (Proc.devRef .tc main_v17_1)
abbrev ss1W (c : Dev nD) : S1x256.Idx → EReal := W2 m ρ c (Proc.devRef .tc main_v17_2)

/-- The first gain vector is still the launch's: neither the prelude nor the first region writes it. -/
theorem g1W_eq (c : Dev nD) : g1W m ρ c = a6 m c := by
  unfold g1W
  rw [W2_of_ne m ρ c main_arg6 (by decide)]
  show StableHlo.after hostOps0 _ (Proc.devRef .tc main_arg6) = _
  after_results_simp <;> rfl

/-- So is the first offset vector. -/
theorem be1W_eq (c : Dev nD) : be1W m ρ c = a7 m c := by
  unfold be1W
  rw [W2_of_ne m ρ c main_arg7 (by decide)]
  show StableHlo.after hostOps0 _ (Proc.devRef .tc main_arg7) = _
  after_results_simp <;> rfl

/-- The first region's second output, as a row: the column sums of the first layer. -/
theorem s1W_eq (c : Dev nD) : row (s1W m ρ c) = colSum (Region0.Hk (V1 m ρ) c) := by
  funext q
  exact (congrFun (W2_arr m ρ c 6) (ix2 0 q)).trans (Region0.sum_final (V1 m ρ) c q)

/-- The first region's third output, as a row: the column sums of the first layer's squares. -/
theorem ss1W_eq (c : Dev nD) : row (ss1W m ρ c) = colSum (sq (Region0.Hk (V1 m ρ) c)) := by
  funext q
  exact (congrFun (W2_arr m ρ c 7) (ix2 0 q)).trans (Region0.sumsq_final (V1 m ρ) c q)

/-- The second region reads the first layer where the first region wrote it. -/
theorem V3_h (c : Dev nD) : mat (V3 m ρ c (Pipeline.arrRef spec1 0) : S50000x256.Idx → EReal) = Region0.Hk (V1 m ρ) c := by
  have e1 : W3 m ρ c (Proc.devRef .tc main_v17_0) = W2 m ρ c (Proc.devRef .tc main_v17_0) := by
    show StableHlo.after hostOps1 _ (Proc.devRef .tc main_v17_0) = _
    after_results_simp <;> rfl
  funext r q
  exact (congrFun (e1.trans (W2_arr m ρ c 5)) (ix2 r q)).trans (Region0.h_final (V1 m ρ) c r q)

/-- The scale row the host hands the second region. -/
theorem V3_scale (c : Dev nD) : row (V3 m ρ c (Pipeline.arrRef spec1 1) : S1x256.Idx → EReal)
    = scaleK (vec (a6 m c)) (colSum (Region0.Hk (V1 m ρ) c)) (colSum (sq (Region0.Hk (V1 m ρ) c))) := by
  have e : (V3 m ρ c (Pipeline.arrRef spec1 1) : S1x256.Idx → EReal)
      = scaleT bcast_S_S1x256 shapeCasts_S256_S1x256 (g1W m ρ c) (s1W m ρ c) (ss1W m ρ c) := by
    show StableHlo.after hostOps1 _ (Proc.devRef .tc main_v28) = _
    after_results_simp <;> rfl
  funext q
  calc row (V3 m ρ c (Pipeline.arrRef spec1 1) : S1x256.Idx → EReal) q
      = scaleT bcast_S_S1x256 shapeCasts_S256_S1x256 (g1W m ρ c) (s1W m ρ c) (ss1W m ρ c) (ix2 0 q) := by unfold row; rw [e]
    _ = scaleK (vec (g1W m ρ c)) (row (s1W m ρ c)) (row (ss1W m ρ c)) q := scaleT_apply _ _ _ _ _ q
    _ = _ := by rw [g1W_eq, s1W_eq, ss1W_eq]

/-- The shift row the host hands the second region. -/
theorem V3_shift (c : Dev nD) : row (V3 m ρ c (Pipeline.arrRef spec1 2) : S1x256.Idx → EReal)
    = shiftK (vec (a6 m c)) (vec (a7 m c)) (colSum (Region0.Hk (V1 m ρ) c)) (colSum (sq (Region0.Hk (V1 m ρ) c))) := by
  have e : (V3 m ρ c (Pipeline.arrRef spec1 2) : S1x256.Idx → EReal)
      = shiftT bcast_S_S1x256 shapeCasts_S256_S1x256 (g1W m ρ c) (be1W m ρ c) (s1W m ρ c) (ss1W m ρ c) := by
    show StableHlo.after hostOps1 _ (Proc.devRef .tc main_v31) = _
    after_results_simp <;> rfl
  funext q
  calc row (V3 m ρ c (Pipeline.arrRef spec1 2) : S1x256.Idx → EReal) q
      = shiftT bcast_S_S1x256 shapeCasts_S256_S1x256 (g1W m ρ c) (be1W m ρ c) (s1W m ρ c) (ss1W m ρ c) (ix2 0 q) := by unfold row; rw [e]
    _ = shiftK (vec (g1W m ρ c)) (vec (be1W m ρ c)) (row (s1W m ρ c)) (row (ss1W m ρ c)) q := shiftT_apply _ _ _ _ _ _ q
    _ = _ := by rw [g1W_eq, be1W_eq, s1W_eq, ss1W_eq]

/-- The second weights, narrowed in format by the prelude and untouched since. -/
theorem V3_w2 (c : Dev nD) : (V3 m ρ c (Pipeline.arrRef spec1 3) : S256x128.Idx → EReal) = a8 m c := by
  have e1 : W3 m ρ c (Proc.devRef .tc main_v16) = W2 m ρ c (Proc.devRef .tc main_v16) := by
    show StableHlo.after hostOps1 _ (Proc.devRef .tc main_v16) = _
    after_results_simp <;> rfl
  have e2 : W2 m ρ c (Proc.devRef .tc main_v16) = W1 m ρ c (Proc.devRef .tc main_v16) := W2_of_ne m ρ c main_v16 (by decide)
  have e3 : (W1 m ρ c (Proc.devRef .tc main_v16) : S256x128.Idx → EReal) = a8 m c := by
    show StableHlo.after hostOps0 _ (Proc.devRef .tc main_v16) = _
    after_results_simp <;> rfl
  exact e1.trans (e2.trans e3)

/-- The second bias as one row, recast by the prelude and untouched since. -/
theorem V3_b2 (c : Dev nD) : row (V3 m ρ c (Pipeline.arrRef spec1 4) : S1x128.Idx → EReal) = vec (a9 m c) := by
  have e1 : W3 m ρ c (Proc.devRef .tc main_v14) = W2 m ρ c (Proc.devRef .tc main_v14) := by
    show StableHlo.after hostOps1 _ (Proc.devRef .tc main_v14) = _
    after_results_simp <;> rfl
  have e2 : W2 m ρ c (Proc.devRef .tc main_v14) = W1 m ρ c (Proc.devRef .tc main_v14) := W2_of_ne m ρ c main_v14 (by decide)
  have e3 : (W1 m ρ c (Proc.devRef .tc main_v14) : S1x128.Idx → EReal) = shapeCast S1x128 (a9 m c) shapeCasts_S128_S1x128 := by
    show StableHlo.after hostOps0 _ (Proc.devRef .tc main_v14) = _
    after_results_simp <;> rfl
  have e : (V3 m ρ c (Pipeline.arrRef spec1 4) : S1x128.Idx → EReal) = shapeCast S1x128 (a9 m c) shapeCasts_S128_S1x128 :=
    e1.trans (e2.trans e3)
  funext q
  unfold row vec
  rw [e]
  exact shapeCast_a_1a_apply _ _ _ _

/-- The second layer before its normalisation: the affine map of the first layer normalised and rectified. -/
theorem Yk_eq (c : Dev nD) :
    Region1.Yk (V3 m ρ) c
      = lin (bnK (vec (a6 m c)) (vec (a7 m c)) (Region0.Hk (V1 m ρ) c)) (mat (a8 m c)) (vec (a9 m c)) := by
  unfold Region1.Yk Region1.hA Region1.scA Region1.shA Region1.w2A Region1.b2A
  rw [V3_h, V3_scale, V3_shift, V3_w2, V3_b2]
  rfl

/-! ## The third region's inputs: the second region's outputs and what the host makes of them -/

/-- What the buffers the host reads between the last two regions hold, at their literal types. -/
abbrev g2W (c : Dev nD) : S128.Idx → EReal := W4 m ρ c (Proc.devRef .tc main_arg10)
abbrev be2W (c : Dev nD) : S128.Idx → EReal := W4 m ρ c (Proc.devRef .tc main_arg11)
abbrev s2W (c : Dev nD) : S1x128.Idx → EReal := W4 m ρ c (Proc.devRef .tc main_v32_1)
abbrev ss2W (c : Dev nD) : S1x128.Idx → EReal := W4 m ρ c (Proc.devRef .tc main_v32_2)

/-- The second gain vector is still the launch's: no host operation and no region before it writes it. -/
theorem g2W_eq (c : Dev nD) : g2W m ρ c = a10 m c := by
  have e1 : W4 m ρ c (Proc.devRef .tc main_arg10) = W3 m ρ c (Proc.devRef .tc main_arg10) := W4_of_ne m ρ c main_arg10 (by decide)
  have e2 : W3 m ρ c (Proc.devRef .tc main_arg10) = W2 m ρ c (Proc.devRef .tc main_arg10) := by
    show StableHlo.after hostOps1 _ (Proc.devRef .tc main_arg10) = _
    after_results_simp <;> rfl
  have e3 : W2 m ρ c (Proc.devRef .tc main_arg10) = W1 m ρ c (Proc.devRef .tc main_arg10) := W2_of_ne m ρ c main_arg10 (by decide)
  have e4 : (W1 m ρ c (Proc.devRef .tc main_arg10) : S128.Idx → EReal) = a10 m c := by
    show StableHlo.after hostOps0 _ (Proc.devRef .tc main_arg10) = _
    after_results_simp <;> rfl
  exact e1.trans (e2.trans (e3.trans e4))

/-- So is the second offset vector. -/
theorem be2W_eq (c : Dev nD) : be2W m ρ c = a11 m c := by
  have e1 : W4 m ρ c (Proc.devRef .tc main_arg11) = W3 m ρ c (Proc.devRef .tc main_arg11) := W4_of_ne m ρ c main_arg11 (by decide)
  have e2 : W3 m ρ c (Proc.devRef .tc main_arg11) = W2 m ρ c (Proc.devRef .tc main_arg11) := by
    show StableHlo.after hostOps1 _ (Proc.devRef .tc main_arg11) = _
    after_results_simp <;> rfl
  have e3 : W2 m ρ c (Proc.devRef .tc main_arg11) = W1 m ρ c (Proc.devRef .tc main_arg11) := W2_of_ne m ρ c main_arg11 (by decide)
  have e4 : (W1 m ρ c (Proc.devRef .tc main_arg11) : S128.Idx → EReal) = a11 m c := by
    show StableHlo.after hostOps0 _ (Proc.devRef .tc main_arg11) = _
    after_results_simp <;> rfl
  exact e1.trans (e2.trans (e3.trans e4))

/-- The second region's second output, as a row: the column sums of the second layer. -/
theorem s2W_eq (c : Dev nD) : row (s2W m ρ c) = colSum (Region1.Yk (V3 m ρ) c) := by
  funext q
  exact (congrFun (W4_arr m ρ c 6) (ix2 0 q)).trans (Region1.sum_final (V3 m ρ) c q)

/-- The second region's third output, as a row: the column sums of the second layer's squares. -/
theorem ss2W_eq (c : Dev nD) : row (ss2W m ρ c) = colSum (sq (Region1.Yk (V3 m ρ) c)) := by
  funext q
  exact (congrFun (W4_arr m ρ c 7) (ix2 0 q)).trans (Region1.sumsq_final (V3 m ρ) c q)

/-- The third region reads the second layer where the second region wrote it. -/
theorem V5_y (c : Dev nD) : mat (V5 m ρ c (Pipeline.arrRef spec2 0) : S50000x128.Idx → EReal) = Region1.Yk (V3 m ρ) c := by
  have e1 : W5 m ρ c (Proc.devRef .tc main_v32_0) = W4 m ρ c (Proc.devRef .tc main_v32_0) := by
    show StableHlo.after hostOps2 _ (Proc.devRef .tc main_v32_0) = _
    after_results_simp <;> rfl
  funext r q
  exact (congrFun (e1.trans (W4_arr m ρ c 5)) (ix2 r q)).trans (Region1.y_final (V3 m ρ) c r q)

/-- The scale row the host hands the third region. -/
theorem V5_scale (c : Dev nD) : row (V5 m ρ c (Pipeline.arrRef spec2 1) : S1x128.Idx → EReal)
    = scaleK (vec (a10 m c)) (colSum (Region1.Yk (V3 m ρ) c)) (colSum (sq (Region1.Yk (V3 m ρ) c))) := by
  have e : (V5 m ρ c (Pipeline.arrRef spec2 1) : S1x128.Idx → EReal)
      = scaleT bcast_S_S1x128 shapeCasts_S128_S1x128 (g2W m ρ c) (s2W m ρ c) (ss2W m ρ c) := by
    show StableHlo.after hostOps2 _ (Proc.devRef .tc main_v43) = _
    after_results_simp <;> rfl
  funext q
  calc row (V5 m ρ c (Pipeline.arrRef spec2 1) : S1x128.Idx → EReal) q
      = scaleT bcast_S_S1x128 shapeCasts_S128_S1x128 (g2W m ρ c) (s2W m ρ c) (ss2W m ρ c) (ix2 0 q) := by unfold row; rw [e]
    _ = scaleK (vec (g2W m ρ c)) (row (s2W m ρ c)) (row (ss2W m ρ c)) q := scaleT_apply _ _ _ _ _ q
    _ = _ := by rw [g2W_eq, s2W_eq, ss2W_eq]

/-- The shift row the host hands the third region. -/
theorem V5_shift (c : Dev nD) : row (V5 m ρ c (Pipeline.arrRef spec2 2) : S1x128.Idx → EReal)
    = shiftK (vec (a10 m c)) (vec (a11 m c)) (colSum (Region1.Yk (V3 m ρ) c)) (colSum (sq (Region1.Yk (V3 m ρ) c))) := by
  have e : (V5 m ρ c (Pipeline.arrRef spec2 2) : S1x128.Idx → EReal)
      = shiftT bcast_S_S1x128 shapeCasts_S128_S1x128 (g2W m ρ c) (be2W m ρ c) (s2W m ρ c) (ss2W m ρ c) := by
    show StableHlo.after hostOps2 _ (Proc.devRef .tc main_v46) = _
    after_results_simp <;> rfl
  funext q
  calc row (V5 m ρ c (Pipeline.arrRef spec2 2) : S1x128.Idx → EReal) q
      = shiftT bcast_S_S1x128 shapeCasts_S128_S1x128 (g2W m ρ c) (be2W m ρ c) (s2W m ρ c) (ss2W m ρ c) (ix2 0 q) := by unfold row; rw [e]
    _ = shiftK (vec (g2W m ρ c)) (vec (be2W m ρ c)) (row (s2W m ρ c)) (row (ss2W m ρ c)) q := shiftT_apply _ _ _ _ _ _ q
    _ = _ := by rw [g2W_eq, be2W_eq, s2W_eq, ss2W_eq]

/-! ## The result: the three regions nested -/

/-- The result buffer after the last region, entry by entry. -/
theorem result_apply (c : Dev nD) (r : Fin 50000) (q : Fin 128) :
    (W6 m ρ c (Proc.devRef .tc main_v47) : S50000x128.Idx → EReal) (ix2 r q)
      = outK (mat (aggK (a0 m c) (a1 m c) (a2 m c) (a3 m c))) (mat (a0 m c)) (a12 m c (ix2 0 0)) (mat (a4 m c)) (vec (a5 m c))
          (vec (a6 m c)) (vec (a7 m c)) (mat (a8 m c)) (vec (a9 m c)) (vec (a10 m c)) (vec (a11 m c)) r q := by
  refine (congrFun (W6_arr m ρ c 3) (ix2 r q)).trans ?_
  rw [Region2.out_final (V5 m ρ) c r q]
  unfold Region2.yA Region2.scA Region2.shA
  rw [V5_y, V5_scale, V5_shift, Yk_eq, Hk_eq]
  rfl

end Cert.KernelIdeal.Chain

end
-- ==== Proof.RefStages.lean ====
/-
  The reference program's stages as terms, in the order its host operations run, and its argument arrays at their
  literal types: the sparse aggregation; a layer's affine map (a matrix product, then the bias broadcast over the rows);
  a layer's normalisation over the row axis — the mean as `sum / n`, the variance as jnp writes it (the mean once more,
  the squared deviations summed and divided by `n − ddof` with `ddof = 0`, selected against a not-a-number filler
  where `n − ddof > 0`), `rsqrt (var + ε)`, the gain and the offset — and the rectifier.
-/
import proofs.«181605_j57105885168079_1_alg».proof.Proof.Gen.ReferenceIdeal
import proofs.«181605_j57105885168079_1_alg».proof.Proof.Spec

noncomputable section

namespace Cert.ReferenceIdeal.RefValue

open Cert.ReferenceIdeal Cert.ReferenceIdeal.Gen Idealize.ShloMosaic Idealize.SL.Sem

variable {F : FTy → Type} [FloatOps F]

/-- Column indices with the negative ones wrapped by the row count. -/
def colsT (cols : IVec S800000 32) : IVec S800000 32 :=
  select (cmpi .slt cols (broadcastInDim S800000 ![] bcast_S_S800000 (constantI S_ 32 0#32)))
    (addi cols (broadcastInDim S800000 ![] bcast_S_S800000 (constantI S_ 32 50000#32))) cols

/-- The aggregate `%12`. -/
def aggT (v : FVec F S50000x128 .f32) (rows cols : IVec S800000 32) (vals : FVec F S800000 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 rows)
    (mulf (broadcastInDim S800000x128 ![0, 1] bcast_S800000x1_S800000x128_0_1 (broadcastInDim S800000x1 ![0] bcast_S800000_S800000x1_0 vals))
      (Host.gather gather_S50000x128_S800000x1_S800000x128_1_0_n_n_0_1_1128 v
        (broadcastInDim S800000x1 ![0] bcast_S800000_S800000x1_0 (colsT cols))))

/-- The first layer before its normalisation, `%19`: `(agg + eps · v) · w1 + b1`. -/
def lin1T (agg v : FVec F S50000x128 .f32) (eps : FVec F S1x1 .f32) (w1 : FVec F S128x256 .f32) (b1 : FVec F S256 .f32) :
    FVec F S50000x256 .f32 :=
  addf (Host.dotGeneral dot_S50000x128_S128x256_S50000x256_1_0_0_1_n_n none
      (addf agg (mulf (broadcastInDim S50000x128 ![0, 1] bcast_S1x1_S50000x128_0_1 eps) v)) w1)
    (broadcastInDim S50000x256 ![0, 1] bcast_S1x256_S50000x256_0_1 (broadcastInDim S1x256 ![1] bcast_S256_S1x256_1 b1))

/-- The first layer's mean over the rows, `%22`. -/
def mean1T (h : FVec F S50000x256 .f32) : FVec F S256 .f32 :=
  Host.divf (Host.reduceAdd h (constant S_ .f32 0x00000000#32) reducesTo_S50000x256_S256_d0 h_S_)
    (broadcastInDim S256 ![] bcast_S_S256 (constant S_ .f32 0x47435000#32))

/-- `n − ddof` as jnp's variance forms it, `ddof` the integer zero converted. -/
def denT : FVec F S_ .f32 :=
  subf (constant S_ .f32 0x47435000#32) (sitofp .f32 (constantI S_ 32 0#32))

/-- The first layer's variance over the rows, `%23`. -/
def var1T (h : FVec F S50000x256 .f32) : FVec F S256 .f32 :=
  select (broadcastInDim S256 ![] bcast_S_S256 (cmpf .ogt (denT (F := F)) (constant S_ .f32 0x00000000#32)))
    (Host.divf
      (Host.reduceAdd
        (mulf
          (subf h (broadcastInDim S50000x256 ![0, 1] bcast_S1x256_S50000x256_0_1
            (Host.divf (broadcastInDim S1x256 ![1] bcast_S256_S1x256_1
                (Host.reduceAdd h (constant S_ .f32 0x00000000#32) reducesTo_S50000x256_S256_d0 h_S_))
              (broadcastInDim S1x256 ![] bcast_S_S1x256 (constant S_ .f32 0x47435000#32)))))
          (subf h (broadcastInDim S50000x256 ![0, 1] bcast_S1x256_S50000x256_0_1
            (Host.divf (broadcastInDim S1x256 ![1] bcast_S256_S1x256_1
                (Host.reduceAdd h (constant S_ .f32 0x00000000#32) reducesTo_S50000x256_S256_d0 h_S_))
              (broadcastInDim S1x256 ![] bcast_S_S1x256 (constant S_ .f32 0x47435000#32))))))
        (constant S_ .f32 0x00000000#32) reducesTo_S50000x256_S256_d0 h_S_)
      (broadcastInDim S256 ![] bcast_S_S256 (denT (F := F))))
    (broadcastInDim S256 ![] bcast_S_S256 (id (constant S_ .f32 0x7FC00000#32)))

/-- The first layer normalised and rectified, `%39`. -/
def bn1T (h : FVec F S50000x256 .f32) (g be : FVec F S256 .f32) : FVec F S50000x256 .f32 :=
  maximumf
    (addf
      (mulf
        (mulf
          (subf h (broadcastInDim S50000x256 ![0, 1] bcast_S1x256_S50000x256_0_1 (broadcastInDim S1x256 ![1] bcast_S256_S1x256_1 (mean1T h))))
          (broadcastInDim S50000x256 ![0, 1] bcast_S1x256_S50000x256_0_1 (broadcastInDim S1x256 ![1] bcast_S256_S1x256_1
            (Host.rsqrt (addf (var1T h) (broadcastInDim S256 ![] bcast_S_S256 (constant S_ .f32 0x3727C5AC#32)))))))
        (broadcastInDim S50000x256 ![0, 1] bcast_S1x256_S50000x256_0_1 (broadcastInDim S1x256 ![1] bcast_S256_S1x256_1 g)))
      (broadcastInDim S50000x256 ![0, 1] bcast_S1x256_S50000x256_0_1 (broadcastInDim S1x256 ![1] bcast_S256_S1x256_1 be)))
    (broadcastInDim S50000x256 ![] bcast_S_S50000x256 (constant S_ .f32 0x00000000#32))

/-- The second layer before its normalisation, `%43`: `x · w2 + b2`. -/
def lin2T (x : FVec F S50000x256 .f32) (w2 : FVec F S256x128 .f32) (b2 : FVec F S128 .f32) : FVec F S50000x128 .f32 :=
  addf (Host.dotGeneral dot_S50000x256_S256x128_S50000x128_1_0_0_1_n_n none x w2)
    (broadcastInDim S50000x128 ![0, 1] bcast_S1x128_S50000x128_0_1 (broadcastInDim S1x128 ![1] bcast_S128_S1x128_1 b2))

/-- The second layer's mean over the rows, `%46`. -/
def mean2T (h : FVec F S50000x128 .f32) : FVec F S128 .f32 :=
  Host.divf (Host.reduceAdd h (constant S_ .f32 0x00000000#32) reducesTo_S50000x128_S128_d0 h_S_)
    (broadcastInDim S128 ![] bcast_S_S128 (constant S_ .f32 0x47435000#32))

/-- The second layer's variance over the rows, `%47`. -/
def var2T (h : FVec F S50000x128 .f32) : FVec F S128 .f32 :=
  select (broadcastInDim S128 ![] bcast_S_S128 (cmpf .ogt (denT (F := F)) (constant S_ .f32 0x00000000#32)))
    (Host.divf
      (Host.reduceAdd
        (mulf
          (subf h (broadcastInDim S50000x128 ![0, 1] bcast_S1x128_S50000x128_0_1
            (Host.divf (broadcastInDim S1x128 ![1] bcast_S128_S1x128_1
                (Host.reduceAdd h (constant S_ .f32 0x00000000#32) reducesTo_S50000x128_S128_d0 h_S_))
              (broadcastInDim S1x128 ![] bcast_S_S1x128 (constant S_ .f32 0x47435000#32)))))
          (subf h (broadcastInDim S50000x128 ![0, 1] bcast_S1x128_S50000x128_0_1
            (Host.divf (broadcastInDim S1x128 ![1] bcast_S128_S1x128_1
                (Host.reduceAdd h (constant S_ .f32 0x00000000#32) reducesTo_S50000x128_S128_d0 h_S_))
              (broadcastInDim S1x128 ![] bcast_S_S1x128 (constant S_ .f32 0x47435000#32))))))
        (constant S_ .f32 0x00000000#32) reducesTo_S50000x128_S128_d0 h_S_)
      (broadcastInDim S128 ![] bcast_S_S128 (denT (F := F))))
    (broadcastInDim S128 ![] bcast_S_S128 (id (constant S_ .f32 0x7FC00000#32)))

/-- The second layer normalised and rectified, `%63`: the result. -/
def bn2T (h : FVec F S50000x128 .f32) (g be : FVec F S128 .f32) : FVec F S50000x128 .f32 :=
  maximumf
    (addf
      (mulf
        (mulf
          (subf h (broadcastInDim S50000x128 ![0, 1] bcast_S1x128_S50000x128_0_1 (broadcastInDim S1x128 ![1] bcast_S128_S1x128_1 (mean2T h))))
          (broadcastInDim S50000x128 ![0, 1] bcast_S1x128_S50000x128_0_1 (broadcastInDim S1x128 ![1] bcast_S128_S1x128_1
            (Host.rsqrt (addf (var2T h) (broadcastInDim S128 ![] bcast_S_S128 (constant S_ .f32 0x3727C5AC#32)))))))
        (broadcastInDim S50000x128 ![0, 1] bcast_S1x128_S50000x128_0_1 (broadcastInDim S1x128 ![1] bcast_S128_S1x128_1 g)))
      (broadcastInDim S50000x128 ![0, 1] bcast_S1x128_S50000x128_0_1 (broadcastInDim S1x128 ![1] bcast_S128_S1x128_1 be)))
    (broadcastInDim S50000x128 ![] bcast_S_S50000x128 (constant S_ .f32 0x00000000#32))

variable (m : (ℓ : Loc nD τ sig) → Buf (Elt F) ℓ)

/-- The thirteen argument arrays of core `c`, at their literal types. -/
abbrev a0 (c : Dev nD) : FVec F S50000x128 .f32 := m ((c.tc : Thread nD τ).loc main_arg0)
abbrev a1 (c : Dev nD) : IVec S800000 32 := m ((c.tc : Thread nD τ).loc main_arg1)
abbrev a2 (c : Dev nD) : IVec S800000 32 := m ((c.tc : Thread nD τ).loc main_arg2)
abbrev a3 (c : Dev nD) : FVec F S800000 .f32 := m ((c.tc : Thread nD τ).loc main_arg3)
abbrev a4 (c : Dev nD) : FVec F S128x256 .f32 := m ((c.tc : Thread nD τ).loc main_arg4)
abbrev a5 (c : Dev nD) : FVec F S256 .f32 := m ((c.tc : Thread nD τ).loc main_arg5)
abbrev a6 (c : Dev nD) : FVec F S256 .f32 := m ((c.tc : Thread nD τ).loc main_arg6)
abbrev a7 (c : Dev nD) : FVec F S256 .f32 := m ((c.tc : Thread nD τ).loc main_arg7)
abbrev a8 (c : Dev nD) : FVec F S256x128 .f32 := m ((c.tc : Thread nD τ).loc main_arg8)
abbrev a9 (c : Dev nD) : FVec F S128 .f32 := m ((c.tc : Thread nD τ).loc main_arg9)
abbrev a10 (c : Dev nD) : FVec F S128 .f32 := m ((c.tc : Thread nD τ).loc main_arg10)
abbrev a11 (c : Dev nD) : FVec F S128 .f32 := m ((c.tc : Thread nD τ).loc main_arg11)
abbrev a12 (c : Dev nD) : FVec F S1x1 .f32 := m ((c.tc : Thread nD τ).loc main_arg12)

/-- The whole reference, as one term of its argument arrays. -/
def resultT (c : Dev nD) : FVec F S50000x128 .f32 :=
  bn2T (lin2T (bn1T (lin1T (aggT (a0 m c) (a1 m c) (a2 m c) (a3 m c)) (a0 m c) (a12 m c) (a4 m c) (a5 m c)) (a6 m c) (a7 m c))
    (a8 m c) (a9 m c)) (a10 m c) (a11 m c)

end Cert.ReferenceIdeal.RefValue

end
-- ==== Proof.RefRun.lean ====
/-
  The reference program's run: its host operations in order, the functions it calls laid out where they are called,
  every weakly fair execution ending with the result buffer at the composed term of the arguments and the arguments
  unchanged.

  The line is read in eight stretches, cut where a function is called and where it returns: what a stretch leaves in the
  buffers read later is a term of what it found in the buffers it reads, for any contents it starts from; the stretches'
  terms composed in order are the stages of the reference, and a buffer no operation writes holds what it held.
-/
import proofs.«181605_j57105885168079_1_alg».proof.Proof.Gen.ReferenceIdeal
import proofs.«181605_j57105885168079_1_alg».proof.Proof.RefStages
import Idealize.ShloMosaic.Lib.StableHlo.Run

noncomputable section

namespace Cert.ReferenceIdeal.RefValue

open Cert.ReferenceIdeal Cert.ReferenceIdeal.Gen Idealize.ShloMosaic Idealize.ShloMosaic.StableHlo Idealize.SL.Sem

variable {F : FTy → Type} [FloatOps F]

/-! ## The operations, stretch by stretch -/

/-- The aggregation and the first layer's affine map, its column means, and the integer zero the variance is called with: @main's first 29 operations. -/
abbrev s1 : List (HloOp τ sig (Elt F)) :=
  [
    unary main_arg3 main_v0 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg2 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v3 (broadcastInDim S800000 ![] bcast_S_S800000 : (⟨S_, .i32⟩ : BufTy).Contents (Elt F) → (⟨S800000, .i32⟩ : BufTy).Contents (Elt F)),
    binary main_arg2 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg2 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_arg0 main_v6 main_v7 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v0 main_v8 (broadcastInDim S800000x128 ![0, 1] bcast_S800000x1_S800000x128_0_1 : (⟨S800000x1, .f32⟩ : BufTy).Contents (Elt F) → (⟨S800000x128, .f32⟩ : BufTy).Contents (Elt F)),
    binary main_v8 main_v7 main_v9 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v10 (broadcastInDim S50000x128 ![] bcast_S_S50000x128 : (⟨S_, .f32⟩ : BufTy).Contents (Elt F) → (⟨S50000x128, .f32⟩ : BufTy).Contents (Elt F)),
    unary main_arg1 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg12 main_v13 (broadcastInDim S50000x128 ![0, 1] bcast_S1x1_S50000x128_0_1 : (⟨S1x1, .f32⟩ : BufTy).Contents (Elt F) → (⟨S50000x128, .f32⟩ : BufTy).Contents (Elt F)),
    binary main_v13 main_arg0 main_v14 (mulf : (⟨S50000x128, .f32⟩ : BufTy).Contents (Elt F) → (⟨S50000x128, .f32⟩ : BufTy).Contents (Elt F) → (⟨S50000x128, .f32⟩ : BufTy).Contents (Elt F)),
    binary main_v12 main_v14 main_v15 (addf : (⟨S50000x128, .f32⟩ : BufTy).Contents (Elt F) → (⟨S50000x128, .f32⟩ : BufTy).Contents (Elt F) → (⟨S50000x128, .f32⟩ : BufTy).Contents (Elt F)),
    binary main_v15 main_arg4 main_v16 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg5 main_v17 (broadcastInDim S1x256 ![1] bcast_S256_S1x256_1 : (⟨S256, .f32⟩ : BufTy).Contents (Elt F) → (⟨S1x256, .f32⟩ : BufTy).Contents (Elt F)),
    unary main_v17 main_v18 (broadcastInDim S50000x256 ![0, 1] bcast_S1x256_S50000x256_0_1 : (⟨S1x256, .f32⟩ : BufTy).Contents (Elt F) → (⟨S50000x256, .f32⟩ : BufTy).Contents (Elt F)),
    binary main_v16 main_v18 main_v19 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x00000000#32),
    binary main_v19 main_cst_1 main_v20 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_2 (constant S_ .f32 0x47435000#32),
    unary main_cst_2 main_v21 (broadcastInDim S256 ![] bcast_S_S256 : (⟨S_, .f32⟩ : BufTy).Contents (Elt F) → (⟨S256, .f32⟩ : BufTy).Contents (Elt F)),
    binary main_v20 main_v21 main_v22 (Host.divf : (⟨S256, .f32⟩ : BufTy).Contents (Elt F) → (⟨S256, .f32⟩ : BufTy).Contents (Elt F) → (⟨S256, .f32⟩ : BufTy).Contents (Elt F)),
    nullary main_c_3 (constantI S_ 32 0#32) ]

/-- The first variance: `_var`'s 19 operations over its call's buffers, then `_where`'s 3 over the nested call's. -/
abbrev s2 : List (HloOp τ sig (Elt F)) :=
  [
    TRef.nullary main_call0.cst (constant S_ .f32 0x00000000#32),
    TRef.binary (.of main_v19 : TRef sig ⟨S50000x256, .f32⟩) main_call0.cst main_call0.v0 (fun x v => Host.reduceAdd x v reducesTo_S50000x256_S256_d0 h_S_),
    TRef.unary main_call0.v0 main_call0.v1 (broadcastInDim S1x256 ![1] bcast_S256_S1x256_1),
    TRef.nullary main_call0.cst_0 (constant S_ .f32 0x47435000#32),
    TRef.unary main_call0.cst_0 main_call0.v2 (broadcastInDim S1x256 ![] bcast_S_S1x256),
    TRef.binary main_call0.v1 main_call0.v2 main_call0.v3 Host.divf,
    TRef.unary main_call0.v3 main_call0.v4 (broadcastInDim S50000x256 ![0, 1] bcast_S1x256_S50000x256_0_1),
    TRef.binary (.of main_v19 : TRef sig ⟨S50000x256, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x256_S256_d0 h_S_),
    TRef.unary main_call0.v8 main_call0.v10 (broadcastInDim S256 ![] bcast_S_S256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S256 ![] bcast_S_S256),
    TRef.ternary main_call0.v12 main_call0.v11 main_call0.call0.v1 main_call0.call0.v2 (fun p a b => select (broadcastInDim S256 ![] bcast_S_S256 p) a b) ]

/-- The first normalisation up to the rectifier: @main's next 16 operations. -/
abbrev s3 : List (HloOp τ sig (Elt F)) :=
  [
    unary main_v22 main_v24 (broadcastInDim S1x256 ![1] bcast_S256_S1x256_1 : (⟨S256, .f32⟩ : BufTy).Contents (Elt F) → (⟨S1x256, .f32⟩ : BufTy).Contents (Elt F)),
    unary main_v24 main_v25 (broadcastInDim S50000x256 ![0, 1] bcast_S1x256_S50000x256_0_1 : (⟨S1x256, .f32⟩ : BufTy).Contents (Elt F) → (⟨S50000x256, .f32⟩ : BufTy).Contents (Elt F)),
    binary main_v19 main_v25 main_v26 (subf : (⟨S50000x256, .f32⟩ : BufTy).Contents (Elt F) → (⟨S50000x256, .f32⟩ : BufTy).Contents (Elt F) → (⟨S50000x256, .f32⟩ : BufTy).Contents (Elt F)),
    nullary main_cst_4 (constant S_ .f32 0x3727C5AC#32),
    unary main_cst_4 main_v27 (broadcastInDim S256 ![] bcast_S_S256 : (⟨S_, .f32⟩ : BufTy).Contents (Elt F) → (⟨S256, .f32⟩ : BufTy).Contents (Elt F)),
    binary main_v23 main_v27 main_v28 (addf : (⟨S256, .f32⟩ : BufTy).Contents (Elt F) → (⟨S256, .f32⟩ : BufTy).Contents (Elt F) → (⟨S256, .f32⟩ : BufTy).Contents (Elt F)),
    unary main_v28 main_v29 (Host.rsqrt : (⟨S256, .f32⟩ : BufTy).Contents (Elt F) → (⟨S256, .f32⟩ : BufTy).Contents (Elt F)),
    unary main_v29 main_v30 (broadcastInDim S1x256 ![1] bcast_S256_S1x256_1 : (⟨S256, .f32⟩ : BufTy).Contents (Elt F) → (⟨S1x256, .f32⟩ : BufTy).Contents (Elt F)),
    unary main_v30 main_v31 (broadcastInDim S50000x256 ![0, 1] bcast_S1x256_S50000x256_0_1 : (⟨S1x256, .f32⟩ : BufTy).Contents (Elt F) → (⟨S50000x256, .f32⟩ : BufTy).Contents (Elt F)),
    binary main_v26 main_v31 main_v32 (mulf : (⟨S50000x256, .f32⟩ : BufTy).Contents (Elt F) → (⟨S50000x256, .f32⟩ : BufTy).Contents (Elt F) → (⟨S50000x256, .f32⟩ : BufTy).Contents (Elt F)),
    unary main_arg6 main_v33 (broadcastInDim S1x256 ![1] bcast_S256_S1x256_1 : (⟨S256, .f32⟩ : BufTy).Contents (Elt F) → (⟨S1x256, .f32⟩ : BufTy).Contents (Elt F)),
    unary main_v33 main_v34 (broadcastInDim S50000x256 ![0, 1] bcast_S1x256_S50000x256_0_1 : (⟨S1x256, .f32⟩ : BufTy).Contents (Elt F) → (⟨S50000x256, .f32⟩ : BufTy).Contents (Elt F)),
    binary main_v32 main_v34 main_v35 (mulf : (⟨S50000x256, .f32⟩ : BufTy).Contents (Elt F) → (⟨S50000x256, .f32⟩ : BufTy).Contents (Elt F) → (⟨S50000x256, .f32⟩ : BufTy).Contents (Elt F)),
    unary main_arg7 main_v36 (broadcastInDim S1x256 ![1] bcast_S256_S1x256_1 : (⟨S256, .f32⟩ : BufTy).Contents (Elt F) → (⟨S1x256, .f32⟩ : BufTy).Contents (Elt F)),
    unary main_v36 main_v37 (broadcastInDim S50000x256 ![0, 1] bcast_S1x256_S50000x256_0_1 : (⟨S1x256, .f32⟩ : BufTy).Contents (Elt F) → (⟨S50000x256, .f32⟩ : BufTy).Contents (Elt F)),
    binary main_v35 main_v37 main_v38 (addf : (⟨S50000x256, .f32⟩ : BufTy).Contents (Elt F) → (⟨S50000x256, .f32⟩ : BufTy).Contents (Elt F) → (⟨S50000x256, .f32⟩ : BufTy).Contents (Elt F)) ]

/-- The first rectifier: `relu`'s 3 operations over its call's buffers. -/
abbrev s4 : List (HloOp τ sig (Elt F)) :=
  [
    TRef.nullary main_call1.cst (constant S_ .f32 0x00000000#32),
    TRef.unary main_call1.cst main_call1.v0 (broadcastInDim S50000x256 ![] bcast_S_S50000x256),
    TRef.binary (.of main_v38 : TRef sig ⟨S50000x256, .f32⟩) main_call1.v0 main_call1.v1 maximumf ]

/-- The second layer's affine map, its column means, and the integer zero: @main's next 10 operations. -/
abbrev s5 : List (HloOp τ sig (Elt F)) :=
  [
    binary main_v39 main_arg8 main_v40 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg9 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x00000000#32),
    binary main_v43 main_cst_5 main_v44 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_6 (constant S_ .f32 0x47435000#32),
    unary main_cst_6 main_v45 (broadcastInDim S128 ![] bcast_S_S128 : (⟨S_, .f32⟩ : BufTy).Contents (Elt F) → (⟨S128, .f32⟩ : BufTy).Contents (Elt F)),
    binary main_v44 main_v45 main_v46 (Host.divf : (⟨S128, .f32⟩ : BufTy).Contents (Elt F) → (⟨S128, .f32⟩ : BufTy).Contents (Elt F) → (⟨S128, .f32⟩ : BufTy).Contents (Elt F)),
    nullary main_c_7 (constantI S_ 32 0#32) ]

/-- The second variance: `_var_0`'s 19 operations, then `_where_1`'s 3. -/
abbrev s6 : List (HloOp τ sig (Elt F)) :=
  [
    TRef.nullary main_call2.cst (constant S_ .f32 0x00000000#32),
    TRef.binary (.of main_v43 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v43 : TRef sig ⟨S50000x128, .f32⟩) main_call2.v4 main_call2.v5 subf,
    TRef.binary main_call2.v5 main_call2.v5 main_call2.v6 mulf,
    TRef.unary (.of main_c_7 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- The second normalisation up to the rectifier: @main's last 16 operations. -/
abbrev s7 : List (HloOp τ sig (Elt F)) :=
  [
    unary main_v46 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v43 main_v49 main_v50 (subf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3727C5AC#32),
    unary main_cst_8 main_v51 (broadcastInDim S128 ![] bcast_S_S128 : (⟨S_, .f32⟩ : BufTy).Contents (Elt F) → (⟨S128, .f32⟩ : BufTy).Contents (Elt F)),
    binary main_v47 main_v51 main_v52 (addf : (⟨S128, .f32⟩ : BufTy).Contents (Elt F) → (⟨S128, .f32⟩ : BufTy).Contents (Elt F) → (⟨S128, .f32⟩ : BufTy).Contents (Elt F)),
    unary main_v52 main_v53 (Host.rsqrt : (⟨S128, .f32⟩ : BufTy).Contents (Elt F) → (⟨S128, .f32⟩ : BufTy).Contents (Elt F)),
    unary main_v53 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v50 main_v55 main_v56 (mulf : (⟨S50000x128, .f32⟩ : BufTy).Contents (Elt F) → (⟨S50000x128, .f32⟩ : BufTy).Contents (Elt F) → (⟨S50000x128, .f32⟩ : BufTy).Contents (Elt F)),
    unary main_arg10 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v56 main_v58 main_v59 (mulf : (⟨S50000x128, .f32⟩ : BufTy).Contents (Elt F) → (⟨S50000x128, .f32⟩ : BufTy).Contents (Elt F) → (⟨S50000x128, .f32⟩ : BufTy).Contents (Elt F)),
    unary main_arg11 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v59 main_v61 main_v62 (addf : (⟨S50000x128, .f32⟩ : BufTy).Contents (Elt F) → (⟨S50000x128, .f32⟩ : BufTy).Contents (Elt F) → (⟨S50000x128, .f32⟩ : BufTy).Contents (Elt F)) ]

/-- The second rectifier: `relu_2`'s 3 operations. -/
abbrev s8 : List (HloOp τ sig (Elt F)) :=
  [
    TRef.nullary main_call3.cst (constant S_ .f32 0x00000000#32),
    TRef.unary main_call3.cst main_call3.v0 (broadcastInDim S50000x128 ![] bcast_S_S50000x128),
    TRef.binary (.of main_v62 : TRef sig ⟨S50000x128, .f32⟩) main_call3.v0 main_call3.v1 maximumf ]

/-- @main's operations in order, the calls laid out where they are made. -/
abbrev ops : List (HloOp τ sig (Elt F)) := s1 ++ (s2 ++ (s3 ++ (s4 ++ (s5 ++ (s6 ++ (s7 ++ s8))))))

/-- What the contents are after two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

set_option maxRecDepth 8192 in
/-- @main is that straight line: a call is its callee's body over the call's buffers, and sequencing after a step is
    the step continued. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only. -/
theorem s1_sub : (s1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩
theorem s2_sub : (s2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem s3_sub : (s3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem s4_sub : (s4 : List (HloOp τ sig (Elt F))).Forall fun op => op.bufs ⊆ tcRefs τ sig :=
  ⟨nullary_bufs_sub .., unary_bufs_sub .., binary_bufs_sub ..⟩
theorem s5_sub : (s5 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub ..⟩
theorem s6_sub : (s6 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem s7_sub : (s7 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem s8_sub : (s8 : List (HloOp τ sig (Elt F))).Forall fun op => op.bufs ⊆ tcRefs τ sig :=
  ⟨nullary_bufs_sub .., unary_bufs_sub .., binary_bufs_sub ..⟩

theorem ops_sub : (ops : List (HloOp τ sig (Elt F))).Forall fun op => op.bufs ⊆ tcRefs τ sig :=
  List.forall_append.mpr ⟨s1_sub, List.forall_append.mpr ⟨s2_sub, List.forall_append.mpr ⟨s3_sub, List.forall_append.mpr ⟨s4_sub,
    List.forall_append.mpr ⟨s5_sub, List.forall_append.mpr ⟨s6_sub, List.forall_append.mpr ⟨s7_sub, s8_sub⟩⟩⟩⟩⟩⟩⟩

/-! ## The buffers the line writes, and the ones it leaves -/

/-- A TensorCore reference as the device's buffer. -/
local notation "↟" r:max => Proc.devRef Proc.tc r

/-- Every buffer an operation of the line writes: all but the thirteen arguments'. -/
abbrev written : List (Ref sig .tc) :=
  [ main_v0, main_c, main_v1, main_v2, main_c_0, main_v3, main_v4, main_v5,
    main_v6, main_v7, main_v8, main_v9, main_cst, main_v10, main_v11, main_v12,
    main_v13, main_v14, main_v15, main_v16, main_v17, main_v18, main_v19, main_cst_1,
    main_v20, main_cst_2, main_v21, main_v22, main_c_3, main_call0_cst, main_call0_v0, main_call0_v1,
    main_call0_cst_0, main_call0_v2, main_call0_v3, main_call0_v4, main_call0_v5, main_call0_v6, main_call0_v7, main_call0_cst_1,
    main_call0_v8, main_call0_cst_2, main_call0_v9, main_call0_v10, main_call0_v11, main_call0_cst_3, main_call0_v12, main_call0_cst_4,
    main_call0_call0_v0, main_call0_call0_v1, main_v23, main_v24, main_v25, main_v26, main_cst_4, main_v27,
    main_v28, main_v29, main_v30, main_v31, main_v32, main_v33, main_v34, main_v35,
    main_v36, main_v37, main_v38, main_call1_cst, main_call1_v0, main_v39, main_v40, main_v41,
    main_v42, main_v43, main_cst_5, main_v44, main_cst_6, main_v45, main_v46, main_c_7,
    main_call2_cst, main_call2_v0, main_call2_v1, main_call2_cst_0, main_call2_v2, main_call2_v3, main_call2_v4, main_call2_v5,
    main_call2_v6, main_call2_v7, main_call2_cst_1, main_call2_v8, main_call2_cst_2, main_call2_v9, main_call2_v10, main_call2_v11,
    main_call2_cst_3, main_call2_v12, main_call2_cst_4, main_call2_call0_v0, main_call2_call0_v1, main_v47, main_v48, main_v49,
    main_v50, main_cst_8, main_v51, main_v52, main_v53, main_v54, main_v55, main_v56,
    main_v57, main_v58, main_v59, main_v60, main_v61, main_v62, main_call3_cst, main_call3_v0,
    main_v63 ]

/-- An operation whose one written buffer is in that list writes inside it. -/
theorem writes_in {op : HloOp τ sig (Elt F)} {y : Ref sig .tc} (hw : op.writes = {Proc.devRef (τ := τ) .tc y}) (hy : y ∈ written) :
    op.writes ⊆ (written.map (Proc.devRef (τ := τ) .tc)).toFinset := by
  rw [hw, Finset.singleton_subset_iff, List.mem_toFinset]
  exact List.mem_map_of_mem hy

theorem s1_writes : (s1 : List (HloOp τ sig (Elt F))).Forall fun op => op.writes ⊆ (written.map (Proc.devRef (τ := τ) .tc)).toFinset :=
  ⟨writes_in (y := main_v0) rfl (by decide),
    writes_in (y := main_c) rfl (by decide),
    writes_in (y := main_v1) rfl (by decide),
    writes_in (y := main_v2) rfl (by decide),
    writes_in (y := main_c_0) rfl (by decide),
    writes_in (y := main_v3) rfl (by decide),
    writes_in (y := main_v4) rfl (by decide),
    writes_in (y := main_v5) rfl (by decide),
    writes_in (y := main_v6) rfl (by decide),
    writes_in (y := main_v7) rfl (by decide),
    writes_in (y := main_v8) rfl (by decide),
    writes_in (y := main_v9) rfl (by decide),
    writes_in (y := main_cst) rfl (by decide),
    writes_in (y := main_v10) rfl (by decide),
    writes_in (y := main_v11) rfl (by decide),
    writes_in (y := main_v12) rfl (by decide),
    writes_in (y := main_v13) rfl (by decide),
    writes_in (y := main_v14) rfl (by decide),
    writes_in (y := main_v15) rfl (by decide),
    writes_in (y := main_v16) rfl (by decide),
    writes_in (y := main_v17) rfl (by decide),
    writes_in (y := main_v18) rfl (by decide),
    writes_in (y := main_v19) rfl (by decide),
    writes_in (y := main_cst_1) rfl (by decide),
    writes_in (y := main_v20) rfl (by decide),
    writes_in (y := main_cst_2) rfl (by decide),
    writes_in (y := main_v21) rfl (by decide),
    writes_in (y := main_v22) rfl (by decide),
    writes_in (y := main_c_3) rfl (by decide)⟩
theorem s2_writes : (s2 : List (HloOp τ sig (Elt F))).Forall fun op => op.writes ⊆ (written.map (Proc.devRef (τ := τ) .tc)).toFinset :=
  ⟨writes_in (y := main_call0_cst) rfl (by decide),
    writes_in (y := main_call0_v0) rfl (by decide),
    writes_in (y := main_call0_v1) rfl (by decide),
    writes_in (y := main_call0_cst_0) rfl (by decide),
    writes_in (y := main_call0_v2) rfl (by decide),
    writes_in (y := main_call0_v3) rfl (by decide),
    writes_in (y := main_call0_v4) rfl (by decide),
    writes_in (y := main_call0_v5) rfl (by decide),
    writes_in (y := main_call0_v6) rfl (by decide),
    writes_in (y := main_call0_v7) rfl (by decide),
    writes_in (y := main_call0_cst_1) rfl (by decide),
    writes_in (y := main_call0_v8) rfl (by decide),
    writes_in (y := main_call0_cst_2) rfl (by decide),
    writes_in (y := main_call0_v9) rfl (by decide),
    writes_in (y := main_call0_v10) rfl (by decide),
    writes_in (y := main_call0_v11) rfl (by decide),
    writes_in (y := main_call0_cst_3) rfl (by decide),
    writes_in (y := main_call0_v12) rfl (by decide),
    writes_in (y := main_call0_cst_4) rfl (by decide),
    writes_in (y := main_call0_call0_v0) rfl (by decide),
    writes_in (y := main_call0_call0_v1) rfl (by decide),
    writes_in (y := main_v23) rfl (by decide)⟩
theorem s3_writes : (s3 : List (HloOp τ sig (Elt F))).Forall fun op => op.writes ⊆ (written.map (Proc.devRef (τ := τ) .tc)).toFinset :=
  ⟨writes_in (y := main_v24) rfl (by decide),
    writes_in (y := main_v25) rfl (by decide),
    writes_in (y := main_v26) rfl (by decide),
    writes_in (y := main_cst_4) rfl (by decide),
    writes_in (y := main_v27) rfl (by decide),
    writes_in (y := main_v28) rfl (by decide),
    writes_in (y := main_v29) rfl (by decide),
    writes_in (y := main_v30) rfl (by decide),
    writes_in (y := main_v31) rfl (by decide),
    writes_in (y := main_v32) rfl (by decide),
    writes_in (y := main_v33) rfl (by decide),
    writes_in (y := main_v34) rfl (by decide),
    writes_in (y := main_v35) rfl (by decide),
    writes_in (y := main_v36) rfl (by decide),
    writes_in (y := main_v37) rfl (by decide),
    writes_in (y := main_v38) rfl (by decide)⟩
theorem s4_writes : (s4 : List (HloOp τ sig (Elt F))).Forall fun op => op.writes ⊆ (written.map (Proc.devRef (τ := τ) .tc)).toFinset :=
  ⟨writes_in (y := main_call1_cst) rfl (by decide),
    writes_in (y := main_call1_v0) rfl (by decide),
    writes_in (y := main_v39) rfl (by decide)⟩
theorem s5_writes : (s5 : List (HloOp τ sig (Elt F))).Forall fun op => op.writes ⊆ (written.map (Proc.devRef (τ := τ) .tc)).toFinset :=
  ⟨writes_in (y := main_v40) rfl (by decide),
    writes_in (y := main_v41) rfl (by decide),
    writes_in (y := main_v42) rfl (by decide),
    writes_in (y := main_v43) rfl (by decide),
    writes_in (y := main_cst_5) rfl (by decide),
    writes_in (y := main_v44) rfl (by decide),
    writes_in (y := main_cst_6) rfl (by decide),
    writes_in (y := main_v45) rfl (by decide),
    writes_in (y := main_v46) rfl (by decide),
    writes_in (y := main_c_7) rfl (by decide)⟩
theorem s6_writes : (s6 : List (HloOp τ sig (Elt F))).Forall fun op => op.writes ⊆ (written.map (Proc.devRef (τ := τ) .tc)).toFinset :=
  ⟨writes_in (y := main_call2_cst) rfl (by decide),
    writes_in (y := main_call2_v0) rfl (by decide),
    writes_in (y := main_call2_v1) rfl (by decide),
    writes_in (y := main_call2_cst_0) rfl (by decide),
    writes_in (y := main_call2_v2) rfl (by decide),
    writes_in (y := main_call2_v3) rfl (by decide),
    writes_in (y := main_call2_v4) rfl (by decide),
    writes_in (y := main_call2_v5) rfl (by decide),
    writes_in (y := main_call2_v6) rfl (by decide),
    writes_in (y := main_call2_v7) rfl (by decide),
    writes_in (y := main_call2_cst_1) rfl (by decide),
    writes_in (y := main_call2_v8) rfl (by decide),
    writes_in (y := main_call2_cst_2) rfl (by decide),
    writes_in (y := main_call2_v9) rfl (by decide),
    writes_in (y := main_call2_v10) rfl (by decide),
    writes_in (y := main_call2_v11) rfl (by decide),
    writes_in (y := main_call2_cst_3) rfl (by decide),
    writes_in (y := main_call2_v12) rfl (by decide),
    writes_in (y := main_call2_cst_4) rfl (by decide),
    writes_in (y := main_call2_call0_v0) rfl (by decide),
    writes_in (y := main_call2_call0_v1) rfl (by decide),
    writes_in (y := main_v47) rfl (by decide)⟩
theorem s7_writes : (s7 : List (HloOp τ sig (Elt F))).Forall fun op => op.writes ⊆ (written.map (Proc.devRef (τ := τ) .tc)).toFinset :=
  ⟨writes_in (y := main_v48) rfl (by decide),
    writes_in (y := main_v49) rfl (by decide),
    writes_in (y := main_v50) rfl (by decide),
    writes_in (y := main_cst_8) rfl (by decide),
    writes_in (y := main_v51) rfl (by decide),
    writes_in (y := main_v52) rfl (by decide),
    writes_in (y := main_v53) rfl (by decide),
    writes_in (y := main_v54) rfl (by decide),
    writes_in (y := main_v55) rfl (by decide),
    writes_in (y := main_v56) rfl (by decide),
    writes_in (y := main_v57) rfl (by decide),
    writes_in (y := main_v58) rfl (by decide),
    writes_in (y := main_v59) rfl (by decide),
    writes_in (y := main_v60) rfl (by decide),
    writes_in (y := main_v61) rfl (by decide),
    writes_in (y := main_v62) rfl (by decide)⟩
theorem s8_writes : (s8 : List (HloOp τ sig (Elt F))).Forall fun op => op.writes ⊆ (written.map (Proc.devRef (τ := τ) .tc)).toFinset :=
  ⟨writes_in (y := main_call3_cst) rfl (by decide),
    writes_in (y := main_call3_v0) rfl (by decide),
    writes_in (y := main_v63) rfl (by decide)⟩

theorem ops_writes : (ops : List (HloOp τ sig (Elt F))).Forall fun op => op.writes ⊆ (written.map (Proc.devRef (τ := τ) .tc)).toFinset :=
  List.forall_append.mpr ⟨s1_writes, List.forall_append.mpr ⟨s2_writes, List.forall_append.mpr ⟨s3_writes, List.forall_append.mpr ⟨s4_writes,
    List.forall_append.mpr ⟨s5_writes, List.forall_append.mpr ⟨s6_writes, List.forall_append.mpr ⟨s7_writes, s8_writes⟩⟩⟩⟩⟩⟩⟩

/-- A buffer the line never writes holds, after any stretch of it, what it held. -/
theorem k1 (W : Valuation τ sig (Elt F)) {r : Ref sig .tc} (h : r ∉ written) : after s1 W (↟r) = W (↟r) := after_of_writes_sub s1 W s1_writes h
theorem k2 (W : Valuation τ sig (Elt F)) {r : Ref sig .tc} (h : r ∉ written) : after s2 W (↟r) = W (↟r) := after_of_writes_sub s2 W s2_writes h
theorem k3 (W : Valuation τ sig (Elt F)) {r : Ref sig .tc} (h : r ∉ written) : after s3 W (↟r) = W (↟r) := after_of_writes_sub s3 W s3_writes h
theorem k4 (W : Valuation τ sig (Elt F)) {r : Ref sig .tc} (h : r ∉ written) : after s4 W (↟r) = W (↟r) := after_of_writes_sub s4 W s4_writes h
theorem k5 (W : Valuation τ sig (Elt F)) {r : Ref sig .tc} (h : r ∉ written) : after s5 W (↟r) = W (↟r) := after_of_writes_sub s5 W s5_writes h
theorem k6 (W : Valuation τ sig (Elt F)) {r : Ref sig .tc} (h : r ∉ written) : after s6 W (↟r) = W (↟r) := after_of_writes_sub s6 W s6_writes h

/-- The same through the first two, four and six stretches in a row. -/
theorem keep2 (V : Valuation τ sig (Elt F)) {r : Ref sig .tc} (h : r ∉ written) : after s2 (after s1 V) (↟r) = V (↟r) := by
  rw [k2 _ h, k1 _ h]
theorem keep4 (V : Valuation τ sig (Elt F)) {r : Ref sig .tc} (h : r ∉ written) :
    after s4 (after s3 (after s2 (after s1 V))) (↟r) = V (↟r) := by
  rw [k4 _ h, k3 _ h, keep2 _ h]
theorem keep6 (V : Valuation τ sig (Elt F)) {r : Ref sig .tc} (h : r ∉ written) :
    after s6 (after s5 (after s4 (after s3 (after s2 (after s1 V))))) (↟r) = V (↟r) := by
  rw [k6 _ h, k5 _ h, keep4 _ h]

/-- An argument's buffer holds at the end what it held at the launch. -/
theorem arg_keep (V : Valuation τ sig (Elt F)) {r : Ref sig .tc} (h : r ∉ written) : after ops V (↟r) = V (↟r) :=
  after_of_writes_sub ops V ops_writes h

/-! ## What each stretch leaves in the buffers read after it -/

/-- The first normalisation before its rectifier, from the layer `h`, its column means `μ` and its variances `v`:
    `(h − μ) · rsqrt (v + ε) · g + be`, the row vectors broadcast over the rows. -/
def pre1 (h : FVec F S50000x256 .f32) (μ v g be : FVec F S256 .f32) : FVec F S50000x256 .f32 :=
  addf
    (mulf
      (mulf
        (subf h (broadcastInDim S50000x256 ![0, 1] bcast_S1x256_S50000x256_0_1 (broadcastInDim S1x256 ![1] bcast_S256_S1x256_1 μ)))
        (broadcastInDim S50000x256 ![0, 1] bcast_S1x256_S50000x256_0_1 (broadcastInDim S1x256 ![1] bcast_S256_S1x256_1
          (Host.rsqrt (addf v (broadcastInDim S256 ![] bcast_S_S256 (constant S_ .f32 0x3727C5AC#32)))))))
      (broadcastInDim S50000x256 ![0, 1] bcast_S1x256_S50000x256_0_1 (broadcastInDim S1x256 ![1] bcast_S256_S1x256_1 g)))
    (broadcastInDim S50000x256 ![0, 1] bcast_S1x256_S50000x256_0_1 (broadcastInDim S1x256 ![1] bcast_S256_S1x256_1 be))

/-- The second normalisation before its rectifier, likewise. -/
def pre2 (h : FVec F S50000x128 .f32) (μ v g be : FVec F S128 .f32) : FVec F S50000x128 .f32 :=
  addf
    (mulf
      (mulf
        (subf h (broadcastInDim S50000x128 ![0, 1] bcast_S1x128_S50000x128_0_1 (broadcastInDim S1x128 ![1] bcast_S128_S1x128_1 μ)))
        (broadcastInDim S50000x128 ![0, 1] bcast_S1x128_S50000x128_0_1 (broadcastInDim S1x128 ![1] bcast_S128_S1x128_1
          (Host.rsqrt (addf v (broadcastInDim S128 ![] bcast_S_S128 (constant S_ .f32 0x3727C5AC#32)))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 be))

/-- The first layer's affine map, of the arguments as a valuation holds them. -/
def lay1 (V : Valuation τ sig (Elt F)) : FVec F S50000x256 .f32 :=
  lin1T (aggT (V (↟main_arg0)) (V (↟main_arg1)) (V (↟main_arg2)) (V (↟main_arg3))) (V (↟main_arg0)) (V (↟main_arg12))
    (V (↟main_arg4)) (V (↟main_arg5))

/-- The reference's result, of the arguments as a valuation holds them. -/
def resV (V : Valuation τ sig (Elt F)) : FVec F S50000x128 .f32 :=
  bn2T (lin2T (bn1T (lay1 V) (V (↟main_arg6)) (V (↟main_arg7))) (V (↟main_arg8)) (V (↟main_arg9))) (V (↟main_arg10)) (V (↟main_arg11))

section Stretches

variable (W : Valuation τ sig (Elt F))

/-- After the first stretch: the layer, its column means, the integer zero. -/
theorem s1_v19 : after s1 W (↟main_v19) = lay1 W := by
  after_results_simp
  rfl
theorem s1_v22 : after s1 W (↟main_v22) = mean1T (lay1 W) := by
  after_results_simp
  rfl
theorem s1_c3 : after s1 W (↟main_c_3) = constantI S_ 32 0#32 := by
  after_results_simp

/-- After the second stretch, entered with the integer zero in place: the variance of the layer; the layer and its means
    are not written. -/
theorem s2_v23 (hc : W (↟main_c_3) = constantI S_ 32 0#32) : after s2 W (↟main_v23) = var1T (W (↟main_v19)) := by
  after_results_simp
  rw [hc]
  rfl
theorem s2_v19 : after s2 W (↟main_v19) = W (↟main_v19) := by
  after_results_simp
theorem s2_v22 : after s2 W (↟main_v22) = W (↟main_v22) := by
  after_results_simp

/-- After the third stretch: the normalisation before its rectifier. -/
theorem s3_v38 : after s3 W (↟main_v38)
    = pre1 (W (↟main_v19)) (W (↟main_v22)) (W (↟main_v23)) (W (↟main_arg6)) (W (↟main_arg7)) := by
  after_results_simp
  rfl

/-- After the fourth: the rectifier. -/
theorem s4_v39 : after s4 W (↟main_v39)
    = maximumf (W (↟main_v38)) (broadcastInDim S50000x256 ![] bcast_S_S50000x256 (constant S_ .f32 0x00000000#32)) := by
  after_results_simp
  rfl

/-- After the fifth: the second layer, its column means, the integer zero. -/
theorem s5_v43 : after s5 W (↟main_v43) = lin2T (W (↟main_v39)) (W (↟main_arg8)) (W (↟main_arg9)) := by
  after_results_simp
  rfl
theorem s5_v46 : after s5 W (↟main_v46) = mean2T (lin2T (W (↟main_v39)) (W (↟main_arg8)) (W (↟main_arg9))) := by
  after_results_simp
  rfl
theorem s5_c7 : after s5 W (↟main_c_7) = constantI S_ 32 0#32 := by
  after_results_simp

/-- After the sixth, entered with the integer zero in place: the second variance; the layer and its means are not
    written. -/
theorem s6_v47 (hc : W (↟main_c_7) = constantI S_ 32 0#32) : after s6 W (↟main_v47) = var2T (W (↟main_v43)) := by
  after_results_simp
  rw [hc]
  rfl
theorem s6_v43 : after s6 W (↟main_v43) = W (↟main_v43) := by
  after_results_simp
theorem s6_v46 : after s6 W (↟main_v46) = W (↟main_v46) := by
  after_results_simp

/-- After the seventh: the second normalisation before its rectifier. -/
theorem s7_v62 : after s7 W (↟main_v62)
    = pre2 (W (↟main_v43)) (W (↟main_v46)) (W (↟main_v47)) (W (↟main_arg10)) (W (↟main_arg11)) := by
  after_results_simp
  rfl

/-- After the eighth: the rectifier, the result. -/
theorem s8_v63 : after s8 W (↟main_v63)
    = maximumf (W (↟main_v62)) (broadcastInDim S50000x128 ![] bcast_S_S50000x128 (constant S_ .f32 0x00000000#32)) := by
  after_results_simp
  rfl

end Stretches

/-! ## The stretches composed -/

/-- The result buffer after the whole line, from any contents: the stages composed, each stretch's term read at what the
    stretches before it left. -/
theorem result_eq (V : Valuation τ sig (Elt F)) : after ops V (↟main_v63) = resV V := by
  simp only [ops, after_app]
  rw [s8_v63, s7_v62, keep6 V (r := main_arg10) (by decide), keep6 V (r := main_arg11) (by decide),
    s6_v43, s6_v46, s6_v47 _ (s5_c7 (after s4 (after s3 (after s2 (after s1 V))))), s5_v43, s5_v46,
    keep4 V (r := main_arg8) (by decide), keep4 V (r := main_arg9) (by decide),
    s4_v39, s3_v38, keep2 V (r := main_arg6) (by decide), keep2 V (r := main_arg7) (by decide),
    s2_v19, s2_v22, s2_v23 _ (s1_c3 V), s1_v19, s1_v22]
  rfl

/-- The run, read. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v63) = resultT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v63).trans (result_eq (launchContents m c)),
      (h c main_arg0).trans (arg_keep (launchContents m c) (r := main_arg0) (by decide)),
      (h c main_arg1).trans (arg_keep (launchContents m c) (r := main_arg1) (by decide)),
      (h c main_arg2).trans (arg_keep (launchContents m c) (r := main_arg2) (by decide)),
      (h c main_arg3).trans (arg_keep (launchContents m c) (r := main_arg3) (by decide)),
      (h c main_arg4).trans (arg_keep (launchContents m c) (r := main_arg4) (by decide)),
      (h c main_arg5).trans (arg_keep (launchContents m c) (r := main_arg5) (by decide)),
      (h c main_arg6).trans (arg_keep (launchContents m c) (r := main_arg6) (by decide)),
      (h c main_arg7).trans (arg_keep (launchContents m c) (r := main_arg7) (by decide)),
      (h c main_arg8).trans (arg_keep (launchContents m c) (r := main_arg8) (by decide)),
      (h c main_arg9).trans (arg_keep (launchContents m c) (r := main_arg9) (by decide)),
      (h c main_arg10).trans (arg_keep (launchContents m c) (r := main_arg10) (by decide)),
      (h c main_arg11).trans (arg_keep (launchContents m c) (r := main_arg11) (by decide)),
      (h c main_arg12).trans (arg_keep (launchContents m c) (r := main_arg12) (by decide))⟩)
    (run_seq scopedRefs_eq scopedSems_eq defs main (fun _ => ops) main_eq (fun _ => ops_sub) m ρ)

end Cert.ReferenceIdeal.RefValue

end
-- ==== Proof.Algebra.lean ====
/-
  On finite entries the kernel's and the reference's forms of two normalised layers are one function.

  An array whose entries are all real numbers is the entrywise image of a real array. On such images every definition
  of the specification is the image of the same formula read over ℝ: the inclusion ℝ → EReal commutes with finite
  sums, products, differences and maxima; dividing by the row count 50000 is multiplying by its reciprocal; and the
  reciprocal square root is only ever taken at a positive real, namely a variance (a mean of squares, so nonnegative)
  plus the positive offset ε. Over ℝ the two variances agree by expanding the square and using Σ_r 1 = 50000, and the
  two affine forms are then one ring identity. So both programs' values are images of one real array.
-/
import proofs.«181605_j57105885168079_1_alg».proof.Proof.Spec
import Mathlib.Tactic.Ring
import Mathlib.Tactic.Linarith
import Mathlib.Tactic.Positivity
import Mathlib.Tactic.NormNum

noncomputable section

namespace Cert.Mlp

open Idealize.ShloMosaic

/-! ### The two literals and the two operations with corners -/

/-- The row-count pattern denotes the real `50000`. -/
theorem nLit_eq : nLit = ((50000 : ℝ) : EReal) := by
  simp [nLit, Ideal.ofBits, Ideal.ieee, -EReal.coe_mul]; norm_num

/-- The offset pattern denotes a positive real (a normal number with sign bit clear). -/
theorem epsLit_eq : ∃ ε : ℝ, 0 < ε ∧ epsLit = (ε : EReal) := by
  simp [epsLit, Ideal.ofBits, Ideal.ieee, -EReal.coe_mul]

/-- Dividing a real by the row count is multiplying it by `1 / 50000`. -/
theorem div_nLit (x : ℝ) : Ideal.div (x : EReal) nLit = ((x * (1 / 50000) : ℝ) : EReal) := by
  rw [nLit_eq, Ideal.div_coe (by norm_num), ← EReal.coe_mul]

/-- At a positive real the reciprocal square root is the real one. -/
theorem rsqrt_pos {x : ℝ} (hx : 0 < x) : Ideal.rsqrt (x : EReal) = (((Real.sqrt x)⁻¹ : ℝ) : EReal) := by
  rw [Ideal.rsqrt_coe, if_neg (not_lt.2 hx.le), if_neg hx.ne']

/-- The inclusion of the reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The inclusion of the reals is monotone, so it commutes with maxima. -/
theorem coe_max (x y : ℝ) : ((max x y : ℝ) : EReal) = max (x : EReal) (y : EReal) :=
  EReal.coe_strictMono.monotone.map_max

/-! ### Images of real arrays -/

/-- The entrywise image of a real matrix. -/
def cm {A B : ℕ} (h : Fin A → Fin B → ℝ) : Fin A → Fin B → EReal := fun r q => (h r q : EReal)
/-- The entrywise image of a real vector. -/
def cv {B : ℕ} (b : Fin B → ℝ) : Fin B → EReal := fun q => (b q : EReal)

/-- A matrix of real entries is an image. -/
theorem exists_cm {A B : ℕ} (h : Fin A → Fin B → EReal) (hh : ∀ r q, IsFin (h r q)) :
    ∃ h' : Fin A → Fin B → ℝ, h = cm h' := by
  choose h' hh' using hh
  exact ⟨h', funext fun r => funext fun q => hh' r q⟩

/-- A vector of real entries is an image. -/
theorem exists_cv {B : ℕ} (b : Fin B → EReal) (hb : ∀ q, IsFin (b q)) : ∃ b' : Fin B → ℝ, b = cv b' := by
  choose b' hb' using hb
  exact ⟨b', funext fun q => hb' q⟩

variable {N K M : ℕ}

/-! ### The affine map and the first layer's input over ℝ -/

/-- `lin` over ℝ. -/
def linR (x : Fin N → Fin K → ℝ) (w : Fin K → Fin M → ℝ) (b : Fin M → ℝ) : Fin N → Fin M → ℝ :=
  fun r q => (∑ k, x r k * w k q) + b q

/-- `pre` over ℝ. -/
def preR (a v : Fin N → Fin K → ℝ) (e : ℝ) : Fin N → Fin K → ℝ := fun r k => a r k + e * v r k

theorem lin_cm (x : Fin N → Fin K → ℝ) (w : Fin K → Fin M → ℝ) (b : Fin M → ℝ) :
    lin (cm x) (cm w) (cv b) = cm (linR x w b) := by
  funext r q
  simp only [lin, cm, cv, linR, EReal.coe_add, coe_sum, EReal.coe_mul]

theorem pre_cm (a v : Fin N → Fin K → ℝ) (e : ℝ) : pre (cm a) (cm v) (e : EReal) = cm (preR a v e) := by
  funext r k
  simp only [pre, cm, preR, EReal.coe_add, EReal.coe_mul]

/-! ### The two normalisations over ℝ, on 50000 rows -/

/-- The column mean. -/
def muR (h : Fin 50000 → Fin M → ℝ) (q : Fin M) : ℝ := (∑ r, h r q) * (1 / 50000)

/-- The kernel's variance: the mean of the squares minus the square of the mean. -/
def varKR (h : Fin 50000 → Fin M → ℝ) (q : Fin M) : ℝ := (∑ r, h r q * h r q) * (1 / 50000) - muR h q * muR h q

/-- The reference's variance: the mean of the squared deviations. -/
def varRR (h : Fin 50000 → Fin M → ℝ) (q : Fin M) : ℝ :=
  (∑ r, (h r q - muR h q) * (h r q - muR h q)) * (1 / 50000)

/-- The kernel's scale over ℝ. -/
def scaleKR (ε : ℝ) (g : Fin M → ℝ) (h : Fin 50000 → Fin M → ℝ) (q : Fin M) : ℝ :=
  g q * (Real.sqrt (varKR h q + ε))⁻¹

/-- `bnK` over ℝ. -/
def bnKR (ε : ℝ) (g be : Fin M → ℝ) (h : Fin 50000 → Fin M → ℝ) : Fin 50000 → Fin M → ℝ :=
  fun r q => max (h r q * scaleKR ε g h q + (be q - muR h q * scaleKR ε g h q)) 0

/-- `bnR` over ℝ. -/
def bnRR (ε : ℝ) (g be : Fin M → ℝ) (h : Fin 50000 → Fin M → ℝ) : Fin 50000 → Fin M → ℝ :=
  fun r q => max ((h r q - muR h q) * (Real.sqrt (varRR h q + ε))⁻¹ * g q + be q) 0

/-- Expanding the square, with `Σ_r 1 = 50000` and `Σ_r h = 50000 · μ`: the two variances are one number. -/
theorem varKR_eq_varRR (h : Fin 50000 → Fin M → ℝ) (q : Fin M) : varKR h q = varRR h q := by
  unfold varKR varRR
  have hs : ∑ r, h r q = 50000 * muR h q := by unfold muR; ring
  generalize muR h q = μ at hs ⊢
  have e : ∀ r, (h r q - μ) * (h r q - μ) = h r q * h r q - 2 * μ * h r q + μ * μ := fun r => by ring
  simp only [e, Finset.sum_add_distrib, Finset.sum_sub_distrib, ← Finset.mul_sum, Finset.sum_const,
    Finset.card_univ, Fintype.card_fin, nsmul_eq_mul, hs]
  push_cast
  ring

/-- A mean of squares is nonnegative. -/
theorem varRR_nonneg (h : Fin 50000 → Fin M → ℝ) (q : Fin M) : 0 ≤ varRR h q :=
  mul_nonneg (Finset.sum_nonneg fun r _ => mul_self_nonneg _) (by norm_num)

/-- With one variance the two affine forms are one polynomial identity. -/
theorem bnKR_eq_bnRR (ε : ℝ) (g be : Fin M → ℝ) (h : Fin 50000 → Fin M → ℝ) : bnKR ε g be h = bnRR ε g be h := by
  funext r q
  unfold bnKR bnRR scaleKR
  rw [varKR_eq_varRR]
  congr 1
  ring

/-! ### The normalisations on images -/

theorem meanOf_cm (h : Fin 50000 → Fin M → ℝ) (q : Fin M) : meanOf (colSum (cm h)) q = ((muR h q : ℝ) : EReal) := by
  have : colSum (cm h) q = ((∑ r, h r q : ℝ) : EReal) := by simp only [colSum, cm, coe_sum]
  rw [meanOf, this, div_nLit, muR]

theorem varR_cm (h : Fin 50000 → Fin M → ℝ) (q : Fin M) : varR (cm h) q = ((varRR h q : ℝ) : EReal) := by
  have : (∑ r, (cm h r q - meanOf (colSum (cm h)) q) * (cm h r q - meanOf (colSum (cm h)) q))
      = ((∑ r, (h r q - muR h q) * (h r q - muR h q) : ℝ) : EReal) := by
    simp only [meanOf_cm, cm, coe_sum, EReal.coe_mul, EReal.coe_sub]
  rw [varR, this, div_nLit, varRR]

theorem bnR_cm {ε : ℝ} (hε : 0 < ε) (he : epsLit = (ε : EReal)) (g be : Fin M → ℝ) (h : Fin 50000 → Fin M → ℝ) :
    bnR (cv g) (cv be) (cm h) = cm (bnRR ε g be h) := by
  funext r q
  have hp : 0 < varRR h q + ε := add_pos_of_nonneg_of_pos (varRR_nonneg h q) hε
  rw [bnR, varR_cm, meanOf_cm, he, ← EReal.coe_add, rsqrt_pos hp]
  simp only [cm, cv, bnRR, coe_max, EReal.coe_add, EReal.coe_mul, EReal.coe_sub, EReal.coe_zero]

theorem scaleK_cm {ε : ℝ} (hε : 0 < ε) (he : epsLit = (ε : EReal)) (g : Fin M → ℝ) (h : Fin 50000 → Fin M → ℝ)
    (q : Fin M) : scaleK (cv g) (colSum (cm h)) (colSum (sq (cm h))) q = ((scaleKR ε g h q : ℝ) : EReal) := by
  have hp : 0 < varKR h q + ε := by
    rw [varKR_eq_varRR]; exact add_pos_of_nonneg_of_pos (varRR_nonneg h q) hε
  have hss : colSum (sq (cm h)) q = ((∑ r, h r q * h r q : ℝ) : EReal) := by
    simp only [colSum, sq, cm, coe_sum, EReal.coe_mul]
  have hv : Ideal.div (colSum (sq (cm h)) q) nLit - meanOf (colSum (cm h)) q * meanOf (colSum (cm h)) q + epsLit
      = ((varKR h q + ε : ℝ) : EReal) := by
    rw [hss, div_nLit, meanOf_cm, he, ← EReal.coe_mul, ← EReal.coe_sub, ← EReal.coe_add, varKR]
  rw [scaleK, hv, rsqrt_pos hp, scaleKR, EReal.coe_mul, cv]

theorem bnK_cm {ε : ℝ} (hε : 0 < ε) (he : epsLit = (ε : EReal)) (g be : Fin M → ℝ) (h : Fin 50000 → Fin M → ℝ) :
    bnK (cv g) (cv be) (cm h) = cm (bnKR ε g be h) := by
  funext r q
  rw [bnK, affRelu, shiftK, scaleK_cm hε he, meanOf_cm]
  simp only [cm, cv, bnKR, coe_max, EReal.coe_add, EReal.coe_mul, EReal.coe_sub, EReal.coe_zero]

/-! ### The two programs -/

/-- With every input entry a real number, `outK = outR`. -/
theorem outK_eq_outR (agg v : Fin 50000 → Fin 128 → EReal) (e : EReal) (w1 : Fin 128 → Fin 256 → EReal)
    (b1 g1 be1 : Fin 256 → EReal) (w2 : Fin 256 → Fin 128 → EReal) (b2 g2 be2 : Fin 128 → EReal)
    (hagg : ∀ r k, IsFin (agg r k)) (hv : ∀ r k, IsFin (v r k)) (he : IsFin e) (hw1 : ∀ k j, IsFin (w1 k j))
    (hb1 : ∀ j, IsFin (b1 j)) (hg1 : ∀ j, IsFin (g1 j)) (hbe1 : ∀ j, IsFin (be1 j)) (hw2 : ∀ k j, IsFin (w2 k j))
    (hb2 : ∀ j, IsFin (b2 j)) (hg2 : ∀ j, IsFin (g2 j)) (hbe2 : ∀ j, IsFin (be2 j)) :
    outK agg v e w1 b1 g1 be1 w2 b2 g2 be2 = outR agg v e w1 b1 g1 be1 w2 b2 g2 be2 := by
  obtain ⟨ε, hε, hεq⟩ := epsLit_eq
  obtain ⟨agg', rfl⟩ := exists_cm agg hagg
  obtain ⟨v', rfl⟩ := exists_cm v hv
  obtain ⟨e', rfl⟩ := he
  obtain ⟨w1', rfl⟩ := exists_cm w1 hw1
  obtain ⟨b1', rfl⟩ := exists_cv b1 hb1
  obtain ⟨g1', rfl⟩ := exists_cv g1 hg1
  obtain ⟨be1', rfl⟩ := exists_cv be1 hbe1
  obtain ⟨w2', rfl⟩ := exists_cm w2 hw2
  obtain ⟨b2', rfl⟩ := exists_cv b2 hb2
  obtain ⟨g2', rfl⟩ := exists_cv g2 hg2
  obtain ⟨be2', rfl⟩ := exists_cv be2 hbe2
  rw [outK, outR, pre_cm, lin_cm, bnK_cm hε hεq, bnR_cm hε hεq, lin_cm, lin_cm, bnK_cm hε hεq, bnR_cm hε hεq,
    bnKR_eq_bnRR, bnKR_eq_bnRR]

end Cert.Mlp

end
-- ==== Proof.RefValue.lean ====
/-
  The reference's composed term read entry by entry on the extended reals: each layer's matrix product and bias is
  `Cert.Mlp.lin`, each normalisation with its rectifier is `Cert.Mlp.bnR` (the host sums as sums over the rows, the
  guarded division of jnp's variance taking its first branch because the row count is positive).

  First single operations at an entry (a vector laid as a row, a one-by-one matrix spread over a matrix, a sum over the
  rows, a plain matrix product); then a layer's four terms — the affine map, the mean, the variance, the normalisation
  with its rectifier — over any extents, each equal to the specification's function of the same name; then the two
  layers' stages as instances, their matrix forms, and the composition.
-/
import proofs.«181605_j57105885168079_1_alg».proof.Proof.RefStages
import proofs.«181605_j57105885168079_1_alg».proof.Proof.LibPlainDot
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost
import proofs.«181605_j57105885168079_1_alg».proof.Proof.Algebra

noncomputable section

namespace Cert.ReferenceIdeal.RefValue

open Cert.ReferenceIdeal Cert.ReferenceIdeal.Gen Cert.Mlp Idealize.ShloMosaic Idealize.ShloMosaic.ValueIdx Idealize.SL.Sem

/-! ## Single operations read at an entry -/

section Read
variable {α : Type}

/-- A vector laid as the one row of a one-row matrix: entry (r, t) is the vector's entry t. -/
theorem bcast_vecRow_apply {n : Nat} (h : (⟨1, ![n]⟩ : Shape).BroadcastsInDim ⟨2, ![1, n]⟩ ![1])
    (x : (⟨1, ![n]⟩ : Shape).Idx → α) (r : Fin 1) (t : Fin n) :
    broadcastInDim ⟨2, ![1, n]⟩ ![1] h x (ix2 r t) = x (ix1 t) := by
  refine broadcastInDim_apply ![1] h x (ix2 r t) (ix1 t) ?_
  intro a
  match a with
  | ⟨0, _⟩ =>
    show t.val = if n = 1 then 0 else t.val
    split_ifs with hn
    · have := t.isLt; omega
    · rfl

/-- A one-by-one matrix spread over an m-by-n matrix: every entry is its one entry. -/
theorem bcast_oneByOne_apply {m n : Nat} (h : (⟨2, ![1, 1]⟩ : Shape).BroadcastsInDim ⟨2, ![m, n]⟩ ![0, 1])
    (x : (⟨2, ![1, 1]⟩ : Shape).Idx → α) (r : Fin m) (t : Fin n) :
    broadcastInDim ⟨2, ![m, n]⟩ ![0, 1] h x (ix2 r t) = x (ix2 0 0) := by
  refine broadcastInDim_apply ![0, 1] h x (ix2 r t) (ix2 0 0) ?_
  intro a
  match a with
  | ⟨0, _⟩ => rfl
  | ⟨1, _⟩ => rfl

/-- The host's reciprocal square root at an entry is the extended reals' one of the entry. -/
theorem hostRsqrt_apply {s : Shape} {φ : FTy} (x : FVec Ideal s φ) (i : s.Idx) : Host.rsqrt x i = Ideal.rsqrt (x i) := rfl

/-- The host's sum over the rows from the zero pattern, at column t, is the sum of that column's entries. -/
theorem hostSumRows_apply {m n : Nat} (h' : (⟨2, ![m, n]⟩ : Shape).ReducesTo [0] ⟨1, ![n]⟩)
    (hr : (⟨2, ![m, n]⟩ : Shape).Reduces [0] ⟨1, ![n]⟩) (hu : 0 < S_.numel)
    (x : FVec Ideal ⟨2, ![m, n]⟩ .f32) (t : Fin n) :
    Host.reduceAdd x (constant S_ .f32 0x00000000#32) h' hu (ix1 t) = ∑ r : Fin m, x (ix2 r t) := by
  rw [hostReduceAdd_apply, Ideal.hostReduceAdd_single h' hr]
  show Ideal.ofBits .f32 0x00000000#32 + _ = _
  rw [Ideal.ofBits_zero_f32, zero_add]
  refine Finset.sum_congr rfl fun k _ => congrArg x ?_
  funext c
  refine Fin.ext ?_
  match c with
  | ⟨0, _⟩ => rfl
  | ⟨1, _⟩ => rfl

/-- The host's plain M×K by K×N product at entry (p, q) is `Σ_k lhs (p, k) · rhs (k, q)`: it is the product
    accumulated into the zero array. -/
theorem hostDot_apply {φ₁ φ₂ : FTy} (M K N : Nat) (lhs : FVec Ideal ⟨2, ![M, K]⟩ φ₁) (rhs : FVec Ideal ⟨2, ![K, N]⟩ φ₂)
    (p : Fin M) (q : Fin N) :
    Host.dotGeneral (DotDims.plain M K N) none lhs rhs (ix2 p q) = ∑ k : Fin K, lhs (ix2 p k) * rhs (ix2 k q) := by
  rw [← matmul_zero_eq_dotGeneral]
  exact PlainDot.matmul_zero_apply M K N lhs rhs p q

end Read

/-! ## The row count, and the variance's guard -/

/-- `n − ddof` with `ddof` the integer zero is `n`. -/
theorem denT_apply (i : S_.Idx) : denT (F := Ideal) i = nLit := by
  unfold denT
  rw [subf_apply, constant_apply, sitofp_apply]
  show nLit - (((constantI S_ 32 0#32 i).toInt : ℝ) : EReal) = nLit
  simp [constantI]

/-- The guard `n − ddof > 0` holds: the row count is positive. -/
theorem guard_apply (i : S_.Idx) : cmpf .ogt (denT (F := Ideal)) (constant S_ .f32 0x00000000#32) i = 1#1 := by
  rw [cmpf_apply, Ideal.cmpf_def, denT_apply, constant_apply, Ideal.ofBits_zero_f32, nLit_eq]
  unfold Ideal.cmp
  simp

/-! ## A layer's stages over any extents -/

section Stage
variable {m n : Nat}

/-- The mean's term: the column sum over the row count. -/
theorem meanTerm_apply (h' : (⟨2, ![m, n]⟩ : Shape).ReducesTo [0] ⟨1, ![n]⟩) (hr : (⟨2, ![m, n]⟩ : Shape).Reduces [0] ⟨1, ![n]⟩)
    (hu : 0 < S_.numel) (hb : S_.BroadcastsInDim ⟨1, ![n]⟩ ![]) (x : FVec Ideal ⟨2, ![m, n]⟩ .f32) (t : Fin n) :
    Host.divf (Host.reduceAdd x (constant S_ .f32 0x00000000#32) h' hu)
        (broadcastInDim ⟨1, ![n]⟩ ![] hb (constant S_ .f32 0x47435000#32)) (ix1 t)
      = meanOf (colSum (mat x)) t := by
  rw [hostDivf_apply, hostSumRows_apply h' hr, broadcastInDim_scalar_apply]
  rfl

/-- The deviation of an entry from its column's mean, as the variance's term spells the mean (the column sum laid as a
    row, divided by the row count laid as a row, laid down the rows). -/
theorem devTerm_apply (h' : (⟨2, ![m, n]⟩ : Shape).ReducesTo [0] ⟨1, ![n]⟩) (hr : (⟨2, ![m, n]⟩ : Shape).Reduces [0] ⟨1, ![n]⟩)
    (hu : 0 < S_.numel) (hb1 : S_.BroadcastsInDim ⟨2, ![1, n]⟩ ![])
    (hv : (⟨1, ![n]⟩ : Shape).BroadcastsInDim ⟨2, ![1, n]⟩ ![1]) (hd : (⟨2, ![1, n]⟩ : Shape).BroadcastsInDim ⟨2, ![m, n]⟩ ![0, 1])
    (x : FVec Ideal ⟨2, ![m, n]⟩ .f32) (r : Fin m) (t : Fin n) :
    subf x (broadcastInDim ⟨2, ![m, n]⟩ ![0, 1] hd
        (Host.divf (broadcastInDim ⟨2, ![1, n]⟩ ![1] hv (Host.reduceAdd x (constant S_ .f32 0x00000000#32) h' hu))
          (broadcastInDim ⟨2, ![1, n]⟩ ![] hb1 (constant S_ .f32 0x47435000#32)))) (ix2 r t)
      = mat x r t - meanOf (colSum (mat x)) t := by
  rw [subf_apply, broadcastInDim_oneRow_apply, hostDivf_apply, bcast_vecRow_apply, hostSumRows_apply h' hr,
    broadcastInDim_scalar_apply]
  rfl

/-- The variance's term: the guard holds, so it is the sum of the squared deviations over the row count. -/
theorem varTerm_apply (h' : (⟨2, ![m, n]⟩ : Shape).ReducesTo [0] ⟨1, ![n]⟩) (hr : (⟨2, ![m, n]⟩ : Shape).Reduces [0] ⟨1, ![n]⟩)
    (hu : 0 < S_.numel) (hb : S_.BroadcastsInDim ⟨1, ![n]⟩ ![]) (hb1 : S_.BroadcastsInDim ⟨2, ![1, n]⟩ ![])
    (hv : (⟨1, ![n]⟩ : Shape).BroadcastsInDim ⟨2, ![1, n]⟩ ![1]) (hd : (⟨2, ![1, n]⟩ : Shape).BroadcastsInDim ⟨2, ![m, n]⟩ ![0, 1])
    (x : FVec Ideal ⟨2, ![m, n]⟩ .f32) (t : Fin n) :
    select (broadcastInDim ⟨1, ![n]⟩ ![] hb (cmpf .ogt (denT (F := Ideal)) (constant S_ .f32 0x00000000#32)))
        (Host.divf
          (Host.reduceAdd
            (mulf
              (subf x (broadcastInDim ⟨2, ![m, n]⟩ ![0, 1] hd
                (Host.divf (broadcastInDim ⟨2, ![1, n]⟩ ![1] hv (Host.reduceAdd x (constant S_ .f32 0x00000000#32) h' hu))
                  (broadcastInDim ⟨2, ![1, n]⟩ ![] hb1 (constant S_ .f32 0x47435000#32)))))
              (subf x (broadcastInDim ⟨2, ![m, n]⟩ ![0, 1] hd
                (Host.divf (broadcastInDim ⟨2, ![1, n]⟩ ![1] hv (Host.reduceAdd x (constant S_ .f32 0x00000000#32) h' hu))
                  (broadcastInDim ⟨2, ![1, n]⟩ ![] hb1 (constant S_ .f32 0x47435000#32))))))
            (constant S_ .f32 0x00000000#32) h' hu)
          (broadcastInDim ⟨1, ![n]⟩ ![] hb (denT (F := Ideal))))
        (broadcastInDim ⟨1, ![n]⟩ ![] hb (id (constant S_ .f32 0x7FC00000#32))) (ix1 t)
      = varR (mat x) t := by
  rw [select_apply, broadcastInDim_scalar_apply, guard_apply, select_one, hostDivf_apply, hostSumRows_apply h' hr,
    broadcastInDim_scalar_apply, denT_apply]
  unfold varR
  refine congrArg (fun s => Ideal.div s nLit) (Finset.sum_congr rfl fun r _ => ?_)
  rw [mulf_apply, devTerm_apply h' hr]

/-- The normalisation and rectifier's term over any mean and variance vectors that read as the column means and the
    column variances: an entry minus its mean, times the reciprocal root of the variance plus the offset, times the gain,
    plus the offset vector's entry, and the maximum of that with zero. -/
theorem bnTerm_apply (hb : S_.BroadcastsInDim ⟨1, ![n]⟩ ![]) (hz : S_.BroadcastsInDim ⟨2, ![m, n]⟩ ![])
    (hv : (⟨1, ![n]⟩ : Shape).BroadcastsInDim ⟨2, ![1, n]⟩ ![1]) (hd : (⟨2, ![1, n]⟩ : Shape).BroadcastsInDim ⟨2, ![m, n]⟩ ![0, 1])
    (x : FVec Ideal ⟨2, ![m, n]⟩ .f32) (mean var g be : FVec Ideal ⟨1, ![n]⟩ .f32)
    (hM : ∀ t, mean (ix1 t) = meanOf (colSum (mat x)) t) (hV : ∀ t, var (ix1 t) = varR (mat x) t) (r : Fin m) (t : Fin n) :
    maximumf
        (addf
          (mulf
            (mulf (subf x (broadcastInDim ⟨2, ![m, n]⟩ ![0, 1] hd (broadcastInDim ⟨2, ![1, n]⟩ ![1] hv mean)))
              (broadcastInDim ⟨2, ![m, n]⟩ ![0, 1] hd (broadcastInDim ⟨2, ![1, n]⟩ ![1] hv
                (Host.rsqrt (addf var (broadcastInDim ⟨1, ![n]⟩ ![] hb (constant S_ .f32 0x3727C5AC#32)))))))
            (broadcastInDim ⟨2, ![m, n]⟩ ![0, 1] hd (broadcastInDim ⟨2, ![1, n]⟩ ![1] hv g)))
          (broadcastInDim ⟨2, ![m, n]⟩ ![0, 1] hd (broadcastInDim ⟨2, ![1, n]⟩ ![1] hv be)))
        (broadcastInDim ⟨2, ![m, n]⟩ ![] hz (constant S_ .f32 0x00000000#32)) (ix2 r t)
      = bnR (vec g) (vec be) (mat x) r t := by
  simp only [maximumf_apply, addf_apply, mulf_apply, subf_apply]
  rw [broadcastInDim_oneRow_apply hd, broadcastInDim_oneRow_apply hd, broadcastInDim_oneRow_apply hd,
    broadcastInDim_oneRow_apply hd, bcast_vecRow_apply hv, bcast_vecRow_apply hv, bcast_vecRow_apply hv,
    bcast_vecRow_apply hv, hostRsqrt_apply, addf_apply, broadcastInDim_scalar_apply, broadcastInDim_scalar_apply, hM, hV]
  simp only [constant_apply, Ideal.ofBits_zero_f32]
  rfl

/-- The affine map's term: the plain product plus the bias laid down the rows. -/
theorem linTerm_apply {k : Nat} (hv : (⟨1, ![n]⟩ : Shape).BroadcastsInDim ⟨2, ![1, n]⟩ ![1])
    (hd : (⟨2, ![1, n]⟩ : Shape).BroadcastsInDim ⟨2, ![m, n]⟩ ![0, 1])
    (x : FVec Ideal ⟨2, ![m, k]⟩ .f32) (w : FVec Ideal ⟨2, ![k, n]⟩ .f32) (b : FVec Ideal ⟨1, ![n]⟩ .f32) (r : Fin m) (t : Fin n) :
    addf (Host.dotGeneral (DotDims.plain m k n) none x w)
        (broadcastInDim ⟨2, ![m, n]⟩ ![0, 1] hd (broadcastInDim ⟨2, ![1, n]⟩ ![1] hv b)) (ix2 r t)
      = lin (mat x) (mat w) (vec b) r t := by
  rw [addf_apply, hostDot_apply, broadcastInDim_oneRow_apply, bcast_vecRow_apply]
  rfl

end Stage

/-! ## The reference's stages -/

/-- The first layer's input, `agg + eps · v`, read as a matrix. -/
theorem mat_pre (agg v : FVec Ideal S50000x128 .f32) (eps : FVec Ideal S1x1 .f32) :
    mat (addf agg (mulf (broadcastInDim S50000x128 ![0, 1] bcast_S1x1_S50000x128_0_1 eps) v))
      = pre (mat agg) (mat v) (eps (ix2 0 0)) := by
  funext r k
  show addf agg (mulf (broadcastInDim S50000x128 ![0, 1] bcast_S1x1_S50000x128_0_1 eps) v) (ix2 r k) = _
  rw [addf_apply, mulf_apply, bcast_oneByOne_apply]
  rfl

/-- The first layer before its normalisation. -/
theorem lin1T_apply (agg v : FVec Ideal S50000x128 .f32) (eps : FVec Ideal S1x1 .f32) (w1 : FVec Ideal S128x256 .f32)
    (b1 : FVec Ideal S256 .f32) (r : Fin 50000) (j : Fin 256) :
    lin1T agg v eps w1 b1 (ix2 r j) = lin (pre (mat agg) (mat v) (eps (ix2 0 0))) (mat w1) (vec b1) r j := by
  have hd : dot_S50000x128_S128x256_S50000x256_1_0_0_1_n_n = DotDims.plain 50000 128 256 := rfl
  unfold lin1T
  rw [hd, linTerm_apply, mat_pre]

/-- The first layer's mean is the column sum over the row count. -/
theorem mean1T_apply (h : FVec Ideal S50000x256 .f32) (j : Fin 256) : mean1T h (ix1 j) = meanOf (colSum (mat h)) j :=
  meanTerm_apply _ (by decide) _ _ h j

/-- The first layer's variance is the mean of the squared deviations. -/
theorem var1T_apply (h : FVec Ideal S50000x256 .f32) (j : Fin 256) : var1T h (ix1 j) = varR (mat h) j :=
  varTerm_apply _ (by decide) _ _ _ _ _ h j

/-- The first layer normalised and rectified. -/
theorem bn1T_apply (h : FVec Ideal S50000x256 .f32) (g be : FVec Ideal S256 .f32) (r : Fin 50000) (j : Fin 256) :
    bn1T h g be (ix2 r j) = bnR (vec g) (vec be) (mat h) r j :=
  bnTerm_apply _ _ _ _ h (mean1T h) (var1T h) g be (mean1T_apply h) (var1T_apply h) r j

/-- The second layer before its normalisation. -/
theorem lin2T_apply (x : FVec Ideal S50000x256 .f32) (w2 : FVec Ideal S256x128 .f32) (b2 : FVec Ideal S128 .f32)
    (r : Fin 50000) (q : Fin 128) : lin2T x w2 b2 (ix2 r q) = lin (mat x) (mat w2) (vec b2) r q := by
  have hd : dot_S50000x256_S256x128_S50000x128_1_0_0_1_n_n = DotDims.plain 50000 256 128 := rfl
  unfold lin2T
  rw [hd, linTerm_apply]

/-- The second layer's mean is the column sum over the row count. -/
theorem mean2T_apply (h : FVec Ideal S50000x128 .f32) (q : Fin 128) : mean2T h (ix1 q) = meanOf (colSum (mat h)) q :=
  meanTerm_apply _ (by decide) _ _ h q

/-- The second layer's variance is the mean of the squared deviations. -/
theorem var2T_apply (h : FVec Ideal S50000x128 .f32) (q : Fin 128) : var2T h (ix1 q) = varR (mat h) q :=
  varTerm_apply _ (by decide) _ _ _ _ _ h q

/-- The second layer normalised and rectified. -/
theorem bn2T_apply (h : FVec Ideal S50000x128 .f32) (g be : FVec Ideal S128 .f32) (r : Fin 50000) (q : Fin 128) :
    bn2T h g be (ix2 r q) = bnR (vec g) (vec be) (mat h) r q :=
  bnTerm_apply _ _ _ _ h (mean2T h) (var2T h) g be (mean2T_apply h) (var2T_apply h) r q

/-! ## The stages as matrices, so that the layers compose -/

/-- The first affine map as a matrix. -/
theorem mat_lin1T (agg v : FVec Ideal S50000x128 .f32) (eps : FVec Ideal S1x1 .f32) (w1 : FVec Ideal S128x256 .f32)
    (b1 : FVec Ideal S256 .f32) :
    mat (lin1T agg v eps w1 b1) = lin (pre (mat agg) (mat v) (eps (ix2 0 0))) (mat w1) (vec b1) :=
  funext fun r => funext fun j => lin1T_apply agg v eps w1 b1 r j

/-- The first normalised layer as a matrix. -/
theorem mat_bn1T (h : FVec Ideal S50000x256 .f32) (g be : FVec Ideal S256 .f32) :
    mat (bn1T h g be) = bnR (vec g) (vec be) (mat h) :=
  funext fun r => funext fun j => bn1T_apply h g be r j

/-- The second affine map as a matrix. -/
theorem mat_lin2T (x : FVec Ideal S50000x256 .f32) (w2 : FVec Ideal S256x128 .f32) (b2 : FVec Ideal S128 .f32) :
    mat (lin2T x w2 b2) = lin (mat x) (mat w2) (vec b2) :=
  funext fun r => funext fun q => lin2T_apply x w2 b2 r q

variable (m : (ℓ : Loc nD τ sig) → Buf (Elt Ideal) ℓ)

/-- The reference's result, entry by entry. -/
theorem result_apply (c : Dev nD) (r : Fin 50000) (q : Fin 128) :
    resultT (F := Ideal) m c (ix2 r q)
      = outR (mat (aggT (a0 m c) (a1 m c) (a2 m c) (a3 m c))) (mat (a0 m c)) (a12 m c (ix2 0 0)) (mat (a4 m c)) (vec (a5 m c))
          (vec (a6 m c)) (vec (a7 m c)) (mat (a8 m c)) (vec (a9 m c)) (vec (a10 m c)) (vec (a11 m c)) r q := by
  unfold resultT outR
  rw [bn2T_apply, mat_lin2T, mat_bn1T, mat_lin1T]

end Cert.ReferenceIdeal.RefValue

end
-- ==== Proof.Finite.lean ====
/-
  The precondition read entry by entry: every float argument holds real numbers, and so does the aggregate (a finite
  sum of products of them).
-/
import proofs.«181605_j57105885168079_1_alg».proof.Defs
import proofs.«181605_j57105885168079_1_alg».proof.Proof.Gen.KernelIdeal
import proofs.«181605_j57105885168079_1_alg».proof.Proof.Gen.Pre_finite_inputs
import proofs.«181605_j57105885168079_1_alg».proof.Proof.Spec
import proofs.«181605_j57105885168079_1_alg».proof.Proof.KAgg
import Idealize.ShloMosaic.Lib.ReduceAll

noncomputable section

namespace Cert.KernelIdeal.Finite

open Cert.KernelIdeal Cert.KernelIdeal.Gen Cert.KernelIdeal.Agg Cert.Mlp Idealize.ShloMosaic Idealize.SL.Sem

/-! ## The real numbers inside the extended reals are closed under the ring operations -/

theorem isFin_zero : IsFin (0 : EReal) := ⟨0, rfl⟩

theorem isFin_add {x y : EReal} (hx : IsFin x) (hy : IsFin y) : IsFin (x + y) := by
  obtain ⟨a, rfl⟩ := hx
  obtain ⟨b, rfl⟩ := hy
  exact ⟨a + b, (EReal.coe_add a b).symm⟩

theorem isFin_mul {x y : EReal} (hx : IsFin x) (hy : IsFin y) : IsFin (x * y) := by
  obtain ⟨a, rfl⟩ := hx
  obtain ⟨b, rfl⟩ := hy
  exact ⟨a * b, (EReal.coe_mul a b).symm⟩

/-- A finite sum of real numbers is a real number. -/
theorem isFin_sum {ι : Type} (s : Finset ι) (f : ι → EReal) (h : ∀ j ∈ s, IsFin (f j)) : IsFin (∑ j ∈ s, f j) := by
  classical
  induction s using Finset.induction_on with
  | empty => simpa using isFin_zero
  | insert a s ha ih =>
    rw [Finset.sum_insert ha]
    exact isFin_add (h a (Finset.mem_insert_self a s)) (ih fun j hj => h j (Finset.mem_insert_of_mem hj))

/-! ## One `all (|x| < +∞)` read back -/

/-- The f32 pattern with all exponent bits set and no fraction is `+∞`. -/
theorem ofBits_inf : Ideal.ofBits .f32 0x7F800000#32 = (⊤ : EReal) := by simp [Ideal.ofBits, Ideal.ieee]

/-- An extended real whose absolute value `max x (-x)` lies strictly below `+∞` is a real number: at `⊥` and at `⊤`
    that maximum is `⊤`. -/
theorem isFin_of_abs_lt (x : EReal) (h : Ideal.cmp .olt (max x (-x)) (Ideal.ofBits .f32 0x7F800000#32) = 1#1) :
    IsFin x := by
  rw [ofBits_inf] at h
  induction x using EReal.rec with
  | bot => simp [Ideal.cmp] at h
  | coe r => exact ⟨r, rfl⟩
  | top => simp [Ideal.cmp] at h

/-- The rank-0 shape has one index. -/
local instance subsingleton_idx0 : Subsingleton (Cert.Pre_finite_inputs.S_).Idx := ⟨fun a b => funext fun d => d.elim0⟩

/-- If the conjunction over all entries of `|x| < +∞` is true then every entry of `x` is a real number. -/
theorem isFin_of_all {s : Shape} {axes : List (Fin s.rank)} (x : FVec Ideal s .f32)
    (hb : (Cert.Pre_finite_inputs.S_).BroadcastsInDim s (![] : Fin 0 → Fin s.rank))
    (hr : s.ReducesTo axes Cert.Pre_finite_inputs.S_) (hu : 0 < (Cert.Pre_finite_inputs.S_).numel)
    (init : IVec Cert.Pre_finite_inputs.S_ 1) (j : (Cert.Pre_finite_inputs.S_).Idx)
    (e : Host.reduce IntOp.andi
      (cmpf .olt (Host.absf x) (broadcastInDim s ![] hb (constant Cert.Pre_finite_inputs.S_ .f32 0x7F800000#32))) init hr hu j
        = 1#1) (i : s.Idx) : IsFin (x i) := by
  have hi := Host.reduce_andi_all _ init hr hu j e i
  exact isFin_of_abs_lt (x i) hi

/-! ## The host operations of the aggregation keep arrays of real numbers -/

/-- The all-zero f32 pattern is the real number 0. -/
theorem ofBits_zero : Ideal.ofBits .f32 0x00000000#32 = (0 : EReal) := by simp [Ideal.ofBits, Ideal.ieee]

/-- Every entry of the zero constant is the real number 0. -/
theorem constant_zero_isFin (s : Shape) (j : s.Idx) : IsFin (constant (F := Ideal) s .f32 0x00000000#32 j) := by
  show IsFin (Ideal.ofBits .f32 0x00000000#32)
  rw [ofBits_zero]
  exact isFin_zero

/-- Every entry of a broadcast is an entry of its operand. -/
theorem broadcastInDim_isFin {s : Shape} (t : Shape) (dims : Fin s.rank → Fin t.rank) (h : s.BroadcastsInDim t dims)
    (x : s.Idx → EReal) (hx : ∀ i, IsFin (x i)) (j : t.Idx) : IsFin (broadcastInDim t dims h x j) := hx _

/-- Every entry of a gather is an entry of its operand. -/
theorem gather_isFin {s si t : Shape} {w : Nat} (d : GatherDims s si t) (x : s.Idx → EReal) (idx : IVec si w)
    (hx : ∀ i, IsFin (x i)) (j : t.Idx) : IsFin (Host.gather d x idx j) := hx _

/-- An entrywise product of real numbers is real. -/
theorem mulf_isFin {s : Shape} (x y : FVec Ideal s .f32) (hx : ∀ i, IsFin (x i)) (hy : ∀ i, IsFin (y i)) (j : s.Idx) :
    IsFin (mulf x y j) := isFin_mul (hx j) (hy j)

/-- A scatter-add at an entry is that entry of the operand plus the sum of the updates that land there: real when the
    operand and the updates are, whatever the indices hold. -/
theorem scatterAdd_isFin {s si su : Shape} {w : Nat} (d : ScatterDims s si su) (x : FVec Ideal s .f32) (idx : IVec si w)
    (upd : FVec Ideal su .f32) (hx : ∀ i, IsFin (x i)) (hupd : ∀ j, IsFin (upd j)) (i : s.Idx) :
    IsFin (Host.scatterAdd d x idx upd i) := by
  show IsFin (Ideal.hostScatterAdd d x idx upd i)
  unfold Ideal.hostScatterAdd
  exact isFin_add (hx i) (isFin_sum _ _ fun j _ => hupd j)

variable (m : (ℓ : Loc nD τ sig) → Buf (Elt Ideal) ℓ)

/-- Under the precondition every entry of every float argument is a real number. -/
theorem isFin_of_pre (h : Cert.Pre_KernelIdeal m) (c : Dev nD) :
    (∀ i, IsFin (a0 m c i)) ∧ (∀ i, IsFin (a3 m c i)) ∧ (∀ i, IsFin (a4 m c i)) ∧ (∀ i, IsFin (a5 m c i))
    ∧ (∀ i, IsFin (a6 m c i)) ∧ (∀ i, IsFin (a7 m c i)) ∧ (∀ i, IsFin (a8 m c i)) ∧ (∀ i, IsFin (a9 m c i))
    ∧ (∀ i, IsFin (a10 m c i)) ∧ (∀ i, IsFin (a11 m c i)) ∧ (∀ i, IsFin (a12 m c i)) := by
  have e := congrFun (h c) ValueIdx.ix0
  simp only [Cert.Pre_finite_inputs.fn, Cert.Pre_finite_inputs.fn_part1, Cert.Pre_finite_inputs.fn_part2,
    Cert.Pre_finite_inputs.fn_part3, Idealize.ShloMosaic.andi, IntOp.andi_eq_one] at e
  obtain ⟨⟨⟨⟨⟨⟨⟨⟨⟨⟨e0, e3⟩, e4⟩, e5⟩, e6⟩, e7⟩, e8⟩, e9⟩, e10⟩, e11⟩, e12⟩ := e
  exact ⟨isFin_of_all _ _ _ _ _ _ e0, isFin_of_all _ _ _ _ _ _ e3, isFin_of_all _ _ _ _ _ _ e4,
    isFin_of_all _ _ _ _ _ _ e5, isFin_of_all _ _ _ _ _ _ e6, isFin_of_all _ _ _ _ _ _ e7,
    isFin_of_all _ _ _ _ _ _ e8, isFin_of_all _ _ _ _ _ _ e9, isFin_of_all _ _ _ _ _ _ e10,
    isFin_of_all _ _ _ _ _ _ e11, isFin_of_all _ _ _ _ _ _ e12⟩

/-- The aggregate of finite features and finite edge values is finite, whatever the index arrays hold. -/
theorem aggK_isFin (v : FVec Ideal S50000x128 .f32) (rows cols : IVec S800000 32) (vals : FVec Ideal S800000 .f32)
    (hv : ∀ i, IsFin (v i)) (hvals : ∀ i, IsFin (vals i)) (i : S50000x128.Idx) :
    IsFin (aggK (F := Ideal) v rows cols vals i) := by
  unfold aggK
  exact scatterAdd_isFin _ _ _ _
    (fun i => broadcastInDim_isFin _ _ _ _ (fun k => constant_zero_isFin _ k) i)
    (fun j => mulf_isFin _ _
      (fun j => broadcastInDim_isFin _ _ _ _ (fun k => broadcastInDim_isFin _ _ _ _ hvals k) j)
      (fun j => gather_isFin _ _ _ hv j) j) i

end Cert.KernelIdeal.Finite

end
-- ==== Proof.lean ====
/-
  The certificate of the three-kernel two-layer perceptron against its jnp reference.

  Both programs aggregate the features over the edges with the same host operations, then apply twice: an affine map, a
  batch normalisation over the 50000 rows, a rectifier. The kernel splits each normalisation across launches: a launch
  writes the layer and accumulates, block by block, the column sums of its entries and of their squares; the host turns
  the two sums into a scale and a shift (variance as mean of squares minus squared mean); the next launch applies them.
  The reference centres first (variance as the mean of squared deviations) and multiplies afterwards.

  The frames of the two kernel programs are the generated frame certificates. The reference's frame is its run with the
  result dropped. Nothing was rewritten by the idealization, so what it preserves is trivial. The value claim: the
  kernel's result buffer, read through the three regions and the host operations between them, is the kernel's form of
  the two layers; the reference's composed term is the reference's form; under the precondition every entry is a real
  number, the aggregate included, and on real entries the two forms are one function.
-/
import proofs.«181605_j57105885168079_1_alg».proof.Defs
import proofs.«181605_j57105885168079_1_alg».proof.Proof.Gen.Kernel
import proofs.«181605_j57105885168079_1_alg».proof.Proof.Gen.Kernel.Frame
import proofs.«181605_j57105885168079_1_alg».proof.Proof.Gen.KernelIdeal
import proofs.«181605_j57105885168079_1_alg».proof.Proof.Gen.KernelIdeal.Frame
import proofs.«181605_j57105885168079_1_alg».proof.Proof.Gen.ReferenceIdeal
import proofs.«181605_j57105885168079_1_alg».proof.Proof.Gen.Pre_finite_inputs
import proofs.«181605_j57105885168079_1_alg».proof.Proof.KernelRun
import proofs.«181605_j57105885168079_1_alg».proof.Proof.KChain
import proofs.«181605_j57105885168079_1_alg».proof.Proof.RefRun
import proofs.«181605_j57105885168079_1_alg».proof.Proof.RefValue
import proofs.«181605_j57105885168079_1_alg».proof.Proof.Algebra
import proofs.«181605_j57105885168079_1_alg».proof.Proof.Finite
import Idealize.ShloMosaic.Adequacy
import Idealize.ShloMosaic.Init

noncomputable section

namespace Cert.Proof

open Idealize.ShloMosaic Idealize.SL.Sem Idealize.ShloMosaic.ValueIdx Cert.Mlp

/-- The two programs' aggregation terms are one term: the same operations over the same dimension numbers. -/
theorem agg_same (v : FVec Ideal Cert.KernelIdeal.S50000x128 .f32) (rows cols : IVec Cert.KernelIdeal.S800000 32) (vals : FVec Ideal Cert.KernelIdeal.S800000 .f32) :
    Cert.ReferenceIdeal.RefValue.aggT (F := Ideal) v rows cols vals = Cert.KernelIdeal.Agg.aggK (F := Ideal) v rows cols vals := rfl

/-- From arguments that agree, under the precondition, the reference's composed term is what the kernel's program
    leaves in its result buffer: entry by entry the reference's form and the kernel's form of the two layers, equal on
    real entries. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (c : Dev Cert.KernelIdeal.nD) :
    Cert.ReferenceIdeal.RefValue.resultT (F := Ideal) m' c = Cert.KernelIdeal.Gen.W6 m ρ c (Proc.devRef .tc Cert.KernelIdeal.main_v47) := by
  obtain ⟨e0, e1, e2, e3, e4, e5, e6, e7, e8, e9, e10, e11, e12⟩ := hagree c
  obtain ⟨f0, f3, f4, f5, f6, f7, f8, f9, f10, f11, f12⟩ := Cert.KernelIdeal.Finite.isFin_of_pre m hpre c
  have g0 : Cert.ReferenceIdeal.RefValue.a0 m' c = Cert.KernelIdeal.Agg.a0 m c := e0
  have g1 : Cert.ReferenceIdeal.RefValue.a1 m' c = Cert.KernelIdeal.Agg.a1 m c := e1
  have g2 : Cert.ReferenceIdeal.RefValue.a2 m' c = Cert.KernelIdeal.Agg.a2 m c := e2
  have g3 : Cert.ReferenceIdeal.RefValue.a3 m' c = Cert.KernelIdeal.Agg.a3 m c := e3
  have g4 : Cert.ReferenceIdeal.RefValue.a4 m' c = Cert.KernelIdeal.Agg.a4 m c := e4
  have g5 : Cert.ReferenceIdeal.RefValue.a5 m' c = Cert.KernelIdeal.Agg.a5 m c := e5
  have g6 : Cert.ReferenceIdeal.RefValue.a6 m' c = Cert.KernelIdeal.Agg.a6 m c := e6
  have g7 : Cert.ReferenceIdeal.RefValue.a7 m' c = Cert.KernelIdeal.Agg.a7 m c := e7
  have g8 : Cert.ReferenceIdeal.RefValue.a8 m' c = Cert.KernelIdeal.Agg.a8 m c := e8
  have g9 : Cert.ReferenceIdeal.RefValue.a9 m' c = Cert.KernelIdeal.Agg.a9 m c := e9
  have g10 : Cert.ReferenceIdeal.RefValue.a10 m' c = Cert.KernelIdeal.Agg.a10 m c := e10
  have g11 : Cert.ReferenceIdeal.RefValue.a11 m' c = Cert.KernelIdeal.Agg.a11 m c := e11
  have g12 : Cert.ReferenceIdeal.RefValue.a12 m' c = Cert.KernelIdeal.Agg.a12 m c := e12
  funext j
  rw [eq_ix2 j]
  refine (Cert.ReferenceIdeal.RefValue.result_apply m' c (j 0) (j 1)).trans (Eq.trans ?_ (Cert.KernelIdeal.Chain.result_apply m ρ c (j 0) (j 1)).symm)
  rw [g0, g1, g2, g3, g4, g5, g6, g7, g8, g9, g10, g11, g12, agg_same]
  exact (congrFun (congrFun (outK_eq_outR _ _ _ _ _ _ _ _ _ _ _
    (fun r k => Cert.KernelIdeal.Finite.aggK_isFin _ _ _ _ f0 f3 (ix2 r k)) (fun r k => f0 (ix2 r k)) (f12 (ix2 0 0))
    (fun k j => f4 (ix2 k j)) (fun j => f5 (ix1 j)) (fun j => f6 (ix1 j)) (fun j => f7 (ix1 j))
    (fun k j => f8 (ix2 k j)) (fun j => f9 (ix1 j)) (fun j => f10 (ix1 j)) (fun j => f11 (ix1 j))) (j 0)) (j 1)).symm

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- Both idealized programs run; the kernel's result buffer and the reference's are the same array. -/
theorem algebraic : Cert.algebraic_KernelIdeal_ReferenceIdeal := by
  intro m ρ m' ρ' hpre hagree
  refine ⟨fun c => Cert.KernelIdeal.Gen.W6 m ρ c (Proc.devRef .tc Cert.KernelIdeal.main_v47), Cert.KernelIdeal.Run.run_named (F := Ideal) m ρ, ?_⟩
  refine (θ_run Cert.ReferenceIdeal.defs _ _).mono (fun _ h c => ⟨(h c).1.trans ?_, (h c).2⟩) (Cert.ReferenceIdeal.RefValue.run (F := Ideal) m' ρ')
  exact value_eq m ρ m' hpre hagree c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
